-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x20000x3 : Shape := ⟨3, ![4, 20000, 3]⟩
abbrev S4x50000x128 : Shape := ⟨3, ![4, 50000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S4x50000x128 : S_.BroadcastsInDim S4x50000x128 (![] : Fin 0 → Fin S4x50000x128.rank)
  reducesTo_S4x50000x128_S_d0_1_2 : S4x50000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S1x128 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128 .f32 := Host.absf main_arg10
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S1x128 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : IVec S4x20000x3 32) (main_arg1 : FVec F S4x50000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S1x128 .f32) (main_arg11 : FVec F S1 .f32) : IVec S_ 1 :=
  let main_v0 : FVec F S4x50000x128 .f32 := Host.absf main_arg1
  let main_cst : FVec F S_ .f32 := constant S_ .f32 0x7F800000#32
  let main_v1 : FVec F S4x50000x128 .f32 := broadcastInDim S4x50000x128 ![] bcast_S_S4x50000x128 main_cst
  let main_v2 : IVec S4x50000x128 1 := cmpf .olt main_v0 main_v1
  let main_c : IVec S_ 1 := constantI S_ 1 1#1
  let main_v3 : IVec S_ 1 := (fun x v => Host.reduce IntOp.andi x v reducesTo_S4x50000x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S4x20000x3 : Shape := ⟨3, ![4, 20000, 3]⟩
abbrev S4x50000x128 : Shape := ⟨3, ![4, 50000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S4x20000x3x1 : Shape := ⟨4, ![4, 20000, 3, 1]⟩
abbrev S4x20000x1x3 : Shape := ⟨4, ![4, 20000, 1, 3]⟩
abbrev S4x20000x3x3 : Shape := ⟨4, ![4, 20000, 3, 3]⟩
abbrev S3x3 : Shape := ⟨2, ![3, 3]⟩
abbrev S_ : Shape := ⟨0, ![]⟩
abbrev S240000 : Shape := ⟨1, ![240000]⟩
abbrev S50000 : Shape := ⟨1, ![50000]⟩
abbrev S240000x1 : Shape := ⟨2, ![240000, 1]⟩
abbrev S50000x1 : Shape := ⟨2, ![50000, 1]⟩
abbrev S4 : Shape := ⟨1, ![4]⟩
abbrev S4x1x1 : Shape := ⟨3, ![4, 1, 1]⟩
abbrev S4x20000x3x2 : Shape := ⟨4, ![4, 20000, 3, 2]⟩
abbrev S4x20000x3x128 : Shape := ⟨4, ![4, 20000, 3, 128]⟩
abbrev S80000x3x128 : Shape := ⟨3, ![80000, 3, 128]⟩
abbrev S80000x128 : Shape := ⟨2, ![80000, 128]⟩
abbrev S4000x3x128 : Shape := ⟨3, ![4000, 3, 128]⟩
abbrev S4000x128 : Shape := ⟨2, ![4000, 128]⟩
abbrev S4000x1x128 : Shape := ⟨3, ![4000, 1, 128]⟩
abbrev S4x20000x128 : Shape := ⟨3, ![4, 20000, 128]⟩
abbrev S4x20000x1x128 : Shape := ⟨4, ![4, 20000, 1, 128]⟩
abbrev S240000x128 : Shape := ⟨2, ![240000, 128]⟩
abbrev S50000x128 : Shape := ⟨2, ![50000, 128]⟩
abbrev S4x2000x128 : Shape := ⟨3, ![4, 2000, 128]⟩
abbrev S2000x128 : Shape := ⟨2, ![2000, 128]⟩
abbrev S2000x1 : Shape := ⟨2, ![2000, 1]⟩
abbrev S1x2000x128 : Shape := ⟨3, ![1, 2000, 128]⟩
abbrev S4x50000 : Shape := ⟨2, ![4, 50000]⟩
abbrev S4x2048x128 : Shape := ⟨3, ![4, 2048, 128]⟩
abbrev S4x2048 : Shape := ⟨2, ![4, 2048]⟩
abbrev S1x2048x128 : Shape := ⟨3, ![1, 2048, 128]⟩
abbrev S2048x128 : Shape := ⟨2, ![2048, 128]⟩
abbrev S2048 : Shape := ⟨1, ![2048]⟩
abbrev S1x2048 : Shape := ⟨2, ![1, 2048]⟩

abbrev nBuf : Space → Nat
  | .hbm => 119
  | .vmem => 44
  | .smem => 0
  | _ => 0

abbrev bufTy : (tb : Table) → Fin (tcTables nBuf tb) → BufTy
  | .hbm, ⟨0, _⟩ => ⟨S4x20000x3, .i32⟩
  | .hbm, ⟨1, _⟩ => ⟨S4x50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S4x20000x3x1, .i32⟩
  | .hbm, ⟨13, _⟩ => ⟨S4x20000x1x3, .i32⟩
  | .hbm, ⟨14, _⟩ => ⟨S4x20000x3x3, .i32⟩
  | .hbm, ⟨15, _⟩ => ⟨S4x20000x3x3, .i32⟩
  | .hbm, ⟨16, _⟩ => ⟨S4x20000x3x3, .i1⟩
  | .hbm, ⟨17, _⟩ => ⟨S3x3, .i32⟩
  | .hbm, ⟨18, _⟩ => ⟨S_, .i32⟩
  | .hbm, ⟨19, _⟩ => ⟨S3x3, .i32⟩
  | .hbm, ⟨20, _⟩ => ⟨S3x3, .i32⟩
  | .hbm, ⟨21, _⟩ => ⟨S3x3, .i32⟩
  | .hbm, ⟨22, _⟩ => ⟨S3x3, .i1⟩
  | .hbm, ⟨23, _⟩ => ⟨S4x20000x3x3, .i1⟩
  | .hbm, ⟨24, _⟩ => ⟨S_, .i1⟩
  | .hbm, ⟨25, _⟩ => ⟨S4x20000x3x3, .i1⟩
  | .hbm, ⟨26, _⟩ => ⟨S4x20000x3x3, .i1⟩
  | .hbm, ⟨27, _⟩ => ⟨S_, .i1⟩
  | .hbm, ⟨28, _⟩ => ⟨S4x20000x3, .i1⟩
  | .hbm, ⟨29, _⟩ => ⟨S4x20000x3, .i1⟩
  | .hbm, ⟨30, _⟩ => ⟨S240000, .i1⟩
  | .hbm, ⟨31, _⟩ => ⟨S240000, .f32⟩
  | .hbm, ⟨32, _⟩ => ⟨S240000, .i32⟩
  | .hbm, ⟨33, _⟩ => ⟨S_, .f32⟩
  | .hbm, ⟨34, _⟩ => ⟨S50000, .f32⟩
  | .hbm, ⟨35, _⟩ => ⟨S240000x1, .i32⟩
  | .hbm, ⟨36, _⟩ => ⟨S50000, .f32⟩
  | .hbm, ⟨37, _⟩ => ⟨S50000x1, .f32⟩
  | .hbm, ⟨38, _⟩ => ⟨S4, .i32⟩
  | .hbm, ⟨39, _⟩ => ⟨S4x1x1, .i32⟩
  | .hbm, ⟨40, _⟩ => ⟨S128x128, .f32⟩
  | .hbm, ⟨41, _⟩ => ⟨S128x128, .bf16⟩
  | .hbm, ⟨42, _⟩ => ⟨S128x128, .f32⟩
  | .hbm, ⟨43, _⟩ => ⟨S128x128, .bf16⟩
  | .hbm, ⟨44, _⟩ => ⟨S128x128, .f32⟩
  | .hbm, ⟨45, _⟩ => ⟨S128x128, .bf16⟩
  | .hbm, ⟨46, _⟩ => ⟨S128x128, .f32⟩
  | .hbm, ⟨47, _⟩ => ⟨S128x128, .bf16⟩
  | .hbm, ⟨48, _⟩ => ⟨S128, .f32⟩
  | .hbm, ⟨49, _⟩ => ⟨S128, .bf16⟩
  | .hbm, ⟨50, _⟩ => ⟨S_, .i32⟩
  | .hbm, ⟨51, _⟩ => ⟨S4x1x1, .i32⟩
  | .hbm, ⟨52, _⟩ => ⟨S4x1x1, .i1⟩
  | .hbm, ⟨53, _⟩ => ⟨S_, .i32⟩
  | .hbm, ⟨54, _⟩ => ⟨S4x1x1, .i32⟩
  | .hbm, ⟨55, _⟩ => ⟨S4x1x1, .i32⟩
  | .hbm, ⟨56, _⟩ => ⟨S4x1x1, .i32⟩
  | .hbm, ⟨57, _⟩ => ⟨S_, .i32⟩
  | .hbm, ⟨58, _⟩ => ⟨S4x20000x3, .i32⟩
  | .hbm, ⟨59, _⟩ => ⟨S4x20000x3, .i1⟩
  | .hbm, ⟨60, _⟩ => ⟨S_, .i32⟩
  | .hbm, ⟨61, _⟩ => ⟨S4x20000x3, .i32⟩
  | .hbm, ⟨62, _⟩ => ⟨S4x20000x3, .i32⟩
  | .hbm, ⟨63, _⟩ => ⟨S4x20000x3, .i32⟩
  | .hbm, ⟨64, _⟩ => ⟨S4x20000x3, .i32⟩
  | .hbm, ⟨65, _⟩ => ⟨S4x20000x3x1, .i32⟩
  | .hbm, ⟨66, _⟩ => ⟨S4x20000x3x1, .i32⟩
  | .hbm, ⟨67, _⟩ => ⟨S4x20000x3x2, .i32⟩
  | .hbm, ⟨68, _⟩ => ⟨S4x20000x3x128, .f32⟩
  | .hbm, ⟨69, _⟩ => ⟨S4x20000x3x128, .bf16⟩
  | .hbm, ⟨70, _⟩ => ⟨S80000x3x128, .bf16⟩
  | .hbm, ⟨71, _⟩ => ⟨S80000x128, .f32⟩
  | .hbm, ⟨72, _⟩ => ⟨S4x20000x128, .f32⟩
  | .hbm, ⟨73, _⟩ => ⟨S4x20000x1x128, .f32⟩
  | .hbm, ⟨74, _⟩ => ⟨S4x20000x3x128, .f32⟩
  | .hbm, ⟨75, _⟩ => ⟨S240000x128, .f32⟩
  | .hbm, ⟨76, _⟩ => ⟨S240000x1, .f32⟩
  | .hbm, ⟨77, _⟩ => ⟨S240000x128, .f32⟩
  | .hbm, ⟨78, _⟩ => ⟨S240000x128, .f32⟩
  | .hbm, ⟨79, _⟩ => ⟨S_, .f32⟩
  | .hbm, ⟨80, _⟩ => ⟨S50000x128, .f32⟩
  | .hbm, ⟨81, _⟩ => ⟨S240000x1, .i32⟩
  | .hbm, ⟨82, _⟩ => ⟨S50000x128, .f32⟩
  | .hbm, ⟨83, _⟩ => ⟨S4x50000x128, .f32⟩
  | .hbm, ⟨84, _⟩ => ⟨S_, .i32⟩
  | .hbm, ⟨85, _⟩ => ⟨S4x1x1, .i32⟩
  | .hbm, ⟨86, _⟩ => ⟨S4x1x1, .i1⟩
  | .hbm, ⟨87, _⟩ => ⟨S_, .i32⟩
  | .hbm, ⟨88, _⟩ => ⟨S4x1x1, .i32⟩
  | .hbm, ⟨89, _⟩ => ⟨S4x1x1, .i32⟩
  | .hbm, ⟨90, _⟩ => ⟨S4x1x1, .i32⟩
  | .hbm, ⟨91, _⟩ => ⟨S_, .i32⟩
  | .hbm, ⟨92, _⟩ => ⟨S4x20000x3, .i32⟩
  | .hbm, ⟨93, _⟩ => ⟨S4x20000x3, .i1⟩
  | .hbm, ⟨94, _⟩ => ⟨S_, .i32⟩
  | .hbm, ⟨95, _⟩ => ⟨S4x20000x3, .i32⟩
  | .hbm, ⟨96, _⟩ => ⟨S4x20000x3, .i32⟩
  | .hbm, ⟨97, _⟩ => ⟨S4x20000x3, .i32⟩
  | .hbm, ⟨98, _⟩ => ⟨S4x20000x3, .i32⟩
  | .hbm, ⟨99, _⟩ => ⟨S4x20000x3x1, .i32⟩
  | .hbm, ⟨100, _⟩ => ⟨S4x20000x3x1, .i32⟩
  | .hbm, ⟨101, _⟩ => ⟨S4x20000x3x2, .i32⟩
  | .hbm, ⟨102, _⟩ => ⟨S4x20000x3x128, .f32⟩
  | .hbm, ⟨103, _⟩ => ⟨S4x20000x3x128, .bf16⟩
  | .hbm, ⟨104, _⟩ => ⟨S80000x3x128, .bf16⟩
  | .hbm, ⟨105, _⟩ => ⟨S80000x128, .f32⟩
  | .hbm, ⟨106, _⟩ => ⟨S4x20000x128, .f32⟩
  | .hbm, ⟨107, _⟩ => ⟨S4x20000x1x128, .f32⟩
  | .hbm, ⟨108, _⟩ => ⟨S4x20000x3x128, .f32⟩
  | .hbm, ⟨109, _⟩ => ⟨S240000x128, .f32⟩
  | .hbm, ⟨110, _⟩ => ⟨S240000x1, .f32⟩
  | .hbm, ⟨111, _⟩ => ⟨S240000x128, .f32⟩
  | .hbm, ⟨112, _⟩ => ⟨S240000x128, .f32⟩
  | .hbm, ⟨113, _⟩ => ⟨S_, .f32⟩
  | .hbm, ⟨114, _⟩ => ⟨S50000x128, .f32⟩
  | .hbm, ⟨115, _⟩ => ⟨S240000x1, .i32⟩
  | .hbm, ⟨116, _⟩ => ⟨S50000x128, .f32⟩
  | .hbm, ⟨117, _⟩ => ⟨S4x50000x128, .f32⟩
  | .hbm, ⟨118, _⟩ => ⟨S4x50000, .f32⟩
  | .local _ .vmem, ⟨0, _⟩ => ⟨S4000x3x128, .bf16⟩
  | .local _ .vmem, ⟨1, _⟩ => ⟨S4000x3x128, .bf16⟩
  | .local _ .vmem, ⟨2, _⟩ => ⟨S128x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4x2000x128, .f32⟩
  | .local _ .vmem, ⟨11, _⟩ => ⟨S4x2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S4x2000x128, .f32⟩
  | .local _ .vmem, ⟨17, _⟩ => ⟨S4x2000x128, .f32⟩
  | .local _ .vmem, ⟨18, _⟩ => ⟨S4000x3x128, .bf16⟩
  | .local _ .vmem, ⟨19, _⟩ => ⟨S4000x3x128, .bf16⟩
  | .local _ .vmem, ⟨20, _⟩ => ⟨S128x128, .bf16⟩
  | .local _ .vmem, ⟨21, _⟩ => ⟨S128, .f32⟩
  | .local _ .vmem, ⟨22, _⟩ => ⟨S128x128, .bf16⟩
  | .local _ .vmem, ⟨23, _⟩ => ⟨S128, .f32⟩
  | .local _ .vmem, ⟨24, _⟩ => ⟨S128x128, .bf16⟩
  | .local _ .vmem, ⟨25, _⟩ => ⟨S128, .f32⟩
  | .local _ .vmem, ⟨26, _⟩ => ⟨S4000x128, .f32⟩
  | .local _ .vmem, ⟨27, _⟩ => ⟨S4000x128, .f32⟩
  | .local _ .vmem, ⟨28, _⟩ => ⟨S4x2000x128, .f32⟩
  | .local _ .vmem, ⟨29, _⟩ => ⟨S4x2000x128, .f32⟩
  | .local _ .vmem, ⟨30, _⟩ => ⟨S2000x128, .f32⟩
  | .local _ .vmem, ⟨31, _⟩ => ⟨S2000x128, .f32⟩
  | .local _ .vmem, ⟨32, _⟩ => ⟨S2000x1, .f32⟩
  | .local _ .vmem, ⟨33, _⟩ => ⟨S2000x1, .f32⟩
  | .local _ .vmem, ⟨34, _⟩ => ⟨S4x2000x128, .f32⟩
  | .local _ .vmem, ⟨35, _⟩ => ⟨S4x2000x128, .f32⟩
  | .local _ .vmem, ⟨36, _⟩ => ⟨S4x2048x128, .f32⟩
  | .local _ .vmem, ⟨37, _⟩ => ⟨S4x2048x128, .f32⟩
  | .local _ .vmem, ⟨38, _⟩ => ⟨S128x128, .bf16⟩
  | .local _ .vmem, ⟨39, _⟩ => ⟨S128, .f32⟩
  | .local _ .vmem, ⟨40, _⟩ => ⟨S128, .bf16⟩
  | .local _ .vmem, ⟨41, _⟩ => ⟨S1, .f32⟩
  | .local _ .vmem, ⟨42, _⟩ => ⟨S4x2048, .f32⟩
  | .local _ .vmem, ⟨43, _⟩ => ⟨S4x2048, .f32⟩
  | _, _ => ⟨S4x20000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_0 : Ref sig .tc := ⟨.hbm, 24, rfl⟩
abbrev main_call0_v6 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_0 : Ref sig .tc := ⟨.hbm, 50, rfl⟩
abbrev main_v27 : Ref sig .tc := ⟨.hbm, 51, rfl⟩
abbrev main_v28 : Ref sig .tc := ⟨.hbm, 52, rfl⟩
abbrev main_c_1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_2 : Ref sig .tc := ⟨.hbm, 57, rfl⟩
abbrev main_v32 : Ref sig .tc := ⟨.hbm, 58, rfl⟩
abbrev main_v33 : Ref sig .tc := ⟨.hbm, 59, rfl⟩
abbrev main_c_3 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_4 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_5 : Ref sig .tc := ⟨.hbm, 84, rfl⟩
abbrev main_v56 : Ref sig .tc := ⟨.hbm, 85, rfl⟩
abbrev main_v57 : Ref sig .tc := ⟨.hbm, 86, rfl⟩
abbrev main_c_6 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_7 : Ref sig .tc := ⟨.hbm, 91, rfl⟩
abbrev main_v61 : Ref sig .tc := ⟨.hbm, 92, rfl⟩
abbrev main_v62 : Ref sig .tc := ⟨.hbm, 93, rfl⟩
abbrev main_c_8 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_9 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x3x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S4x2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4x2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S4x2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S4x20000x3_S4x20000x3x1_0_1_2 : S4x20000x3.BroadcastsInDim S4x20000x3x1 (![0, 1, 2] : Fin 3 → Fin S4x20000x3x1.rank)
  bcast_S4x20000x3_S4x20000x1x3_0_1_3 : S4x20000x3.BroadcastsInDim S4x20000x1x3 (![0, 1, 3] : Fin 3 → Fin S4x20000x1x3.rank)
  bcast_S4x20000x3x1_S4x20000x3x3_0_1_2_3 : S4x20000x3x1.BroadcastsInDim S4x20000x3x3 (![0, 1, 2, 3] : Fin 4 → Fin S4x20000x3x3.rank)
  bcast_S4x20000x1x3_S4x20000x3x3_0_1_2_3 : S4x20000x1x3.BroadcastsInDim S4x20000x3x3 (![0, 1, 2, 3] : Fin 4 → Fin S4x20000x3x3.rank)
  bcast_S_S3x3 : S_.BroadcastsInDim S3x3 (![] : Fin 0 → Fin S3x3.rank)
  bcast_S3x3_S4x20000x3x3_2_3 : S3x3.BroadcastsInDim S4x20000x3x3 (![2, 3] : Fin 2 → Fin S4x20000x3x3.rank)
  bcast_S_S4x20000x3x3 : S_.BroadcastsInDim S4x20000x3x3 (![] : Fin 0 → Fin S4x20000x3x3.rank)
  reducesTo_S4x20000x3x3_S4x20000x3_d3 : S4x20000x3x3.ReducesTo [3] S4x20000x3
  h_S_ : 0 < S_.numel
  shapeCasts_S4x20000x3_S240000 : S4x20000x3.ShapeCasts S240000
  bcast_S_S50000 : S_.BroadcastsInDim S50000 (![] : Fin 0 → Fin S50000.rank)
  bcast_S240000_S240000x1_0 : S240000.BroadcastsInDim S240000x1 (![0] : Fin 1 → Fin S240000x1.rank)
  shapeCasts_S50000_S50000x1 : S50000.ShapeCasts S50000x1
  bcast_S4_S4x1x1_0 : S4.BroadcastsInDim S4x1x1 (![0] : Fin 1 → Fin S4x1x1.rank)
  transposes_S128x128_S128x128_1_0 : S128x128.Transposes [1, 0] S128x128
  bitsLt_bf16_f32 : FTy.bits .bf16 < FTy.bits .f32
  shapeCasts_S1x128_S128 : S1x128.ShapeCasts S128
  bcast_S_S4x1x1 : S_.BroadcastsInDim S4x1x1 (![] : Fin 0 → Fin S4x1x1.rank)
  bcast_S_S4x20000x3 : S_.BroadcastsInDim S4x20000x3 (![] : Fin 0 → Fin S4x20000x3.rank)
  bcast_S4x1x1_S4x20000x3_0_1_2 : S4x1x1.BroadcastsInDim S4x20000x3 (![0, 1, 2] : Fin 3 → Fin S4x20000x3.rank)
  concatenates_S4x20000x3x1_S4x20000x3x1_S4x20000x3x2_d3 : Shape.Concatenates [S4x20000x3x1, S4x20000x3x1] S4x20000x3x2 3
  shapeCasts_S4x20000x3x128_S80000x3x128 : S4x20000x3x128.ShapeCasts S80000x3x128
  inb_S4000x3x128_S4000x3x128_0_0_0 : ∀ a, (![0, 0, 0] : Fin 3 → Nat) a + S4000x3x128.size a ≤ S4000x3x128.size a
  h_S4000x3x128 : 0 < S4000x3x128.numel
  shapeCasts_S4000x3x128_S4000x3x128 : S4000x3x128.ShapeCasts S4000x3x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4000x3x128_o0_0_0_S4000x1x128 : S4000x3x128.Slices ![0, 0, 0] S4000x1x128
  shapeCasts_S4000x1x128_S4000x128 : S4000x1x128.ShapeCasts S4000x128
  slices_S4000x3x128_o0_1_0_S4000x1x128 : S4000x3x128.Slices ![0, 1, 0] S4000x1x128
  slices_S4000x3x128_o0_2_0_S4000x1x128 : S4000x3x128.Slices ![0, 2, 0] S4000x1x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S80000x128_S4x20000x128 : S80000x128.ShapeCasts S4x20000x128
  bcast_S4x20000x128_S4x20000x1x128_0_1_3 : S4x20000x128.BroadcastsInDim S4x20000x1x128 (![0, 1, 3] : Fin 3 → Fin S4x20000x1x128.rank)
  bcast_S4x20000x1x128_S4x20000x3x128_0_1_2_3 : S4x20000x1x128.BroadcastsInDim S4x20000x3x128 (![0, 1, 2, 3] : Fin 4 → Fin S4x20000x3x128.rank)
  shapeCasts_S4x20000x3x128_S240000x128 : S4x20000x3x128.ShapeCasts S240000x128
  bcast_S240000x1_S240000x128_0_1 : S240000x1.BroadcastsInDim S240000x128 (![0, 1] : Fin 2 → Fin S240000x128.rank)
  bcast_S_S50000x128 : S_.BroadcastsInDim S50000x128 (![] : Fin 0 → Fin S50000x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S4x2000x128_S4x2000x128_0_0_0 : ∀ a, (![0, 0, 0] : Fin 3 → Nat) a + S4x2000x128.size a ≤ S4x2000x128.size a
  h_S4x2000x128 : 0 < S4x2000x128.numel
  shapeCasts_S2000x128_S1x2000x128 : S2000x128.ShapeCasts S1x2000x128
  broadcasts_S1x2000x128_S4x2000x128 : S1x2000x128.Broadcasts S4x2000x128
  shapeCasts_S128_S128 : S128.ShapeCasts S128
  inb_S1_S1_0 : ∀ a, (![0] : Fin 1 → Nat) a + S1.size a ≤ S1.size a
  h_S1 : 0 < S1.numel
  inb_S4x2048x128_S1x2048x128_0_0_0 : ∀ a, (![0, 0, 0] : Fin 3 → Nat) a + S1x2048x128.size a ≤ S4x2048x128.size a
  h_S1x2048x128 : 0 < S1x2048x128.numel
  shapeCasts_S1x2048x128_S2048x128 : S1x2048x128.ShapeCasts S2048x128
  broadcasts_S1x128_S2048x128 : S1x128.Broadcasts S2048x128
  reduces_S2048x128_S2048 : S2048x128.Reduces [1] S2048
  broadcasts_S1_S2048 : S1.Broadcasts S2048
  inb_S4x2048_S1x2048_0_0 : ∀ a, (![0, 0] : Fin 2 → Nat) a + S1x2048.size a ≤ S4x2048.size a
  h_S1x2048 : 0 < S1x2048.numel
  shapeCasts_S1x2048_S2048 : S1x2048.ShapeCasts S2048
  shapeCasts_S2048_S1x2048 : S2048.ShapeCasts S1x2048
  inb_S4x2048x128_S1x2048x128_1_0_0 : ∀ a, (![1, 0, 0] : Fin 3 → Nat) a + S1x2048x128.size a ≤ S4x2048x128.size a
  inb_S4x2048_S1x2048_1_0 : ∀ a, (![1, 0] : Fin 2 → Nat) a + S1x2048.size a ≤ S4x2048.size a
  inb_S4x2048x128_S1x2048x128_2_0_0 : ∀ a, (![2, 0, 0] : Fin 3 → Nat) a + S1x2048x128.size a ≤ S4x2048x128.size a
  inb_S4x2048_S1x2048_2_0 : ∀ a, (![2, 0] : Fin 2 → Nat) a + S1x2048.size a ≤ S4x2048.size a
  inb_S4x2048x128_S1x2048x128_3_0_0 : ∀ a, (![3, 0, 0] : Fin 3 → Nat) a + S1x2048x128.size a ≤ S4x2048x128.size a
  inb_S4x2048_S1x2048_3_0 : ∀ a, (![3, 0] : Fin 2 → Nat) a + S1x2048.size a ≤ S4x2048.size a
  scatter_S50000_S240000x1_S240000_n_0_0_1_wf : ScatterDims.WF S50000 S240000x1 S240000 [] [0] [0] 1
  gather_S4x50000x128_S4x20000x3x2_S4x20000x3x128_3_01_n_n_01_3_11128_wf : GatherDims.WF S4x50000x128 S4x20000x3x2 S4x20000x3x128 [3] [0, 1] [] [0, 1] [] 3 ![1, 1, 128]
  dot_S4000x128_S128x128_S4000x128_1_0_0_1_n_n_wf : DotDims.WF S4000x128 S128x128 S4000x128 [1] [0] [0] [1] [] []
  scatter_S50000x128_S240000x1_S240000x128_1_0_0_1_wf : ScatterDims.WF S50000x128 S240000x1 S240000x128 [1] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3x128.size a ≤ S80000x3x128.size a
  hwx0_0 : ∀ i : grid0.Coords, EltTy.bits .bf16 = 32 ∨ (Rect.block (s := S80000x3x128) S4000x3x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S80000x128.size a
  hwx0_7 : ∀ i : grid0.Coords, EltTy.bits .f32 = 32 ∨ (Rect.block (s := S80000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x2000x128.size a ≤ S4x50000x128.size a
  hwx1_0 : ∀ i : grid1.Coords, EltTy.bits .f32 = 32 ∨ (Rect.block (s := S4x50000x128) S4x2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x2000x128.size a ≤ S4x50000x128.size a
  hwx1_3 : ∀ i : grid1.Coords, EltTy.bits .f32 = 32 ∨ (Rect.block (s := S4x50000x128) S4x2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x3x128.size a ≤ S80000x3x128.size a
  hwx2_0 : ∀ i : grid2.Coords, EltTy.bits .bf16 = 32 ∨ (Rect.block (s := S80000x3x128) S4000x3x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S80000x128.size a
  hwx2_7 : ∀ i : grid2.Coords, EltTy.bits .f32 = 32 ∨ (Rect.block (s := S80000x128) S4000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x2000x128.size a ≤ S4x50000x128.size a
  hwx3_0 : ∀ i : grid3.Coords, EltTy.bits .f32 = 32 ∨ (Rect.block (s := S4x50000x128) S4x2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4x2000x128.size a ≤ S4x50000x128.size a
  hwx3_3 : ∀ i : grid3.Coords, EltTy.bits .f32 = 32 ∨ (Rect.block (s := S4x50000x128) S4x2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S4x2048x128.size a < S4x50000x128.size a
  hwx4_0 : ∀ i : grid4.Coords, EltTy.bits .f32 = 32 ∨ (Rect.unit (s := S4x50000x128) (fun a => cc4_transform_0 i a * S4x2048x128.size a) (fun a => (Pipeline.Clip.of (cc4_transform_0 i a) (S4x2048x128.size a) (S4x50000x128.size a)).extent (S4x2048x128.size a)) fun a => Pipeline.Clip.inb (Pipeline.Clip.ok_of (hstart4_0 i a))).WholeWords (EltTy.packing .f32)
  hwxs4_0 : ∀ i : grid4.Coords, EltTy.bits .f32 = 32 ∨ (Rect.unit (s := S4x2048x128) (fun _ => 0) (fun a => (Pipeline.Clip.of (cc4_transform_0 i a) (S4x2048x128.size a) (S4x50000x128.size a)).extent (S4x2048x128.size a)) fun a => (Nat.zero_add _).trans_le (Pipeline.Clip.extent_le (Pipeline.Clip.ok_of (hstart4_0 i a)))).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .bf16 = 32 ∨ (Rect.block (s := S128) S128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1.size a ≤ S1.size a
  hwx4_4 : ∀ i : grid4.Coords, EltTy.bits .f32 = 32 ∨ (Rect.block (s := S1) S1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hstart4_5 : ∀ (i : grid4.Coords) a, cc4_transform_5 i a * S4x2048.size a < S4x50000.size a
  hwx4_5 : ∀ i : grid4.Coords, EltTy.bits .f32 = 32 ∨ (Rect.unit (s := S4x50000) (fun a => cc4_transform_5 i a * S4x2048.size a) (fun a => (Pipeline.Clip.of (cc4_transform_5 i a) (S4x2048.size a) (S4x50000.size a)).extent (S4x2048.size a)) fun a => Pipeline.Clip.inb (Pipeline.Clip.ok_of (hstart4_5 i a))).WholeWords (EltTy.packing .f32)
  hwxs4_5 : ∀ i : grid4.Coords, EltTy.bits .f32 = 32 ∨ (Rect.unit (s := S4x2048) (fun _ => 0) (fun a => (Pipeline.Clip.of (cc4_transform_5 i a) (S4x2048.size a) (S4x50000.size a)).extent (S4x2048.size a)) fun a => (Nat.zero_add _).trans_le (Pipeline.Clip.extent_le (Pipeline.Clip.ok_of (hstart4_5 i a)))).WholeWords (EltTy.packing .f32)

variable [Facts₀]

def scatter_S50000_S240000x1_S240000_n_0_0_1 : ScatterDims S50000 S240000x1 S240000 where
  updateWindowDims := []
  insertedWindowDims := [0]
  scatterDimsToOperandDims := [0]
  indexVectorDim := 1
  wf := scatter_S50000_S240000x1_S240000_n_0_0_1_wf
def gather_S4x50000x128_S4x20000x3x2_S4x20000x3x128_3_01_n_n_01_3_11128 : GatherDims S4x50000x128 S4x20000x3x2 S4x20000x3x128 where
  offsetDims := [3]
  collapsedSliceDims := [0, 1]
  operandBatchingDims := []
  startIndicesBatchingDims := []
  startIndexMap := [0, 1]
  indexVectorDim := 3
  sliceSizes := ![1, 1, 128]
  wf := gather_S4x50000x128_S4x20000x3x2_S4x20000x3x128_3_01_n_n_01_3_11128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S240000x1_S240000x128_1_0_0_1 : ScatterDims S50000x128 S240000x1 S240000x128 where
  updateWindowDims := [1]
  insertedWindowDims := [0]
  scatterDimsToOperandDims := [0]
  indexVectorDim := 1
  wf := scatter_S50000x128_S240000x1_S240000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v43) S4000x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S4x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S4x2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S4000x3x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v73) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v55) S4x2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v84) S4x2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpecClip (Memref.whole main_v84) S4x2048x128.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpec (Memref.whole main_v24) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v26) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpecClip (Memref.whole main_v85) S4x2048.size cc4_transform_5 reads4_5 true false 2 stage4_5 sem4_5
    hrank4 hreads4_5 hstart4_5 nbuf4_5 (Memref.isWhole_whole _) hwx4_5 hwxs4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where
  halias1_3 : Pipeline.Aliased win1 0 3
  halias3_3 : Pipeline.Aliased win3 0 3

variable [Facts]
-- ==== ReferenceIdeal.lean ====
abbrev S4x20000x3 : Shape := ⟨3, ![4, 20000, 3]⟩
abbrev S4x50000x128 : Shape := ⟨3, ![4, 50000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S4x20000x3x1 : Shape := ⟨4, ![4, 20000, 3, 1]⟩
abbrev S4x20000x1x3 : Shape := ⟨4, ![4, 20000, 1, 3]⟩
abbrev S4x20000x3x3 : Shape := ⟨4, ![4, 20000, 3, 3]⟩
abbrev S3x3 : Shape := ⟨2, ![3, 3]⟩
abbrev S_ : Shape := ⟨0, ![]⟩
abbrev S240000 : Shape := ⟨1, ![240000]⟩
abbrev S50000 : Shape := ⟨1, ![50000]⟩
abbrev S240000x1 : Shape := ⟨2, ![240000, 1]⟩
abbrev S4 : Shape := ⟨1, ![4]⟩
abbrev S4x1x1 : Shape := ⟨3, ![4, 1, 1]⟩
abbrev S4x20000x3x2 : Shape := ⟨4, ![4, 20000, 3, 2]⟩
abbrev S4x20000x3x128 : Shape := ⟨4, ![4, 20000, 3, 128]⟩
abbrev S1x1x1x128 : Shape := ⟨4, ![1, 1, 1, 128]⟩
abbrev S4x20000x128 : Shape := ⟨3, ![4, 20000, 128]⟩
abbrev S1x1x128 : Shape := ⟨3, ![1, 1, 128]⟩
abbrev S4x20000x1x128 : Shape := ⟨4, ![4, 20000, 1, 128]⟩
abbrev S240000x128 : Shape := ⟨2, ![240000, 128]⟩
abbrev S50000x128 : Shape := ⟨2, ![50000, 128]⟩
abbrev S50000x1 : Shape := ⟨2, ![50000, 1]⟩
abbrev S1x50000x128 : Shape := ⟨3, ![1, 50000, 128]⟩
abbrev S4x50000x1 : Shape := ⟨3, ![4, 50000, 1]⟩
abbrev S1x1x1 : Shape := ⟨3, ![1, 1, 1]⟩
abbrev S4x50000 : Shape := ⟨2, ![4, 50000]⟩

abbrev nBuf : Space → Nat
  | .hbm => 187
  | .vmem => 0
  | .smem => 0
  | _ => 0

abbrev hbmTy0_0 (i : Nat) : BufTy := match i % 128 with
  | 0 => ⟨S4x20000x3, .i32⟩
  | 1 => ⟨S4x50000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x128, .f32⟩
  | 11 => ⟨S1, .f32⟩
  | 12 => ⟨S4x20000x3x1, .i32⟩
  | 13 => ⟨S4x20000x1x3, .i32⟩
  | 14 => ⟨S4x20000x3x3, .i32⟩
  | 15 => ⟨S4x20000x3x3, .i32⟩
  | 16 => ⟨S4x20000x3x3, .i1⟩
  | 17 => ⟨S3x3, .i32⟩
  | 18 => ⟨S_, .i32⟩
  | 19 => ⟨S3x3, .i32⟩
  | 20 => ⟨S3x3, .i32⟩
  | 21 => ⟨S3x3, .i32⟩
  | 22 => ⟨S3x3, .i1⟩
  | 23 => ⟨S4x20000x3x3, .i1⟩
  | 24 => ⟨S_, .i1⟩
  | 25 => ⟨S4x20000x3x3, .i1⟩
  | 26 => ⟨S4x20000x3x3, .i1⟩
  | 27 => ⟨S_, .i1⟩
  | 28 => ⟨S4x20000x3, .i1⟩
  | 29 => ⟨S4x20000x3, .i1⟩
  | 30 => ⟨S240000, .i1⟩
  | 31 => ⟨S240000, .f32⟩
  | 32 => ⟨S240000, .i32⟩
  | 33 => ⟨S_, .f32⟩
  | 34 => ⟨S50000, .f32⟩
  | 35 => ⟨S240000x1, .i32⟩
  | 36 => ⟨S50000, .f32⟩
  | 37 => ⟨S4, .i32⟩
  | 38 => ⟨S4x1x1, .i32⟩
  | 39 => ⟨S_, .i32⟩
  | 40 => ⟨S4x1x1, .i32⟩
  | 41 => ⟨S4x1x1, .i1⟩
  | 42 => ⟨S_, .i32⟩
  | 43 => ⟨S4x1x1, .i32⟩
  | 44 => ⟨S4x1x1, .i32⟩
  | 45 => ⟨S4x1x1, .i32⟩
  | 46 => ⟨S_, .i32⟩
  | 47 => ⟨S4x20000x3, .i32⟩
  | 48 => ⟨S4x20000x3, .i1⟩
  | 49 => ⟨S_, .i32⟩
  | 50 => ⟨S4x20000x3, .i32⟩
  | 51 => ⟨S4x20000x3, .i32⟩
  | 52 => ⟨S4x20000x3, .i32⟩
  | 53 => ⟨S4x20000x3, .i32⟩
  | 54 => ⟨S4x20000x3x1, .i32⟩
  | 55 => ⟨S4x20000x3x1, .i32⟩
  | 56 => ⟨S4x20000x3x2, .i32⟩
  | 57 => ⟨S4x20000x3x128, .f32⟩
  | 58 => ⟨S4x20000x3x128, .f32⟩
  | 59 => ⟨S1x1x1x128, .f32⟩
  | 60 => ⟨S4x20000x3x128, .f32⟩
  | 61 => ⟨S4x20000x3x128, .f32⟩
  | 62 => ⟨S_, .f32⟩
  | 63 => ⟨S4x20000x128, .f32⟩
  | 64 => ⟨S_, .f32⟩
  | 65 => ⟨S4x20000x128, .f32⟩
  | 66 => ⟨S4x20000x128, .f32⟩
  | 67 => ⟨S4x20000x128, .f32⟩
  | 68 => ⟨S1x1x128, .f32⟩
  | 69 => ⟨S4x20000x128, .f32⟩
  | 70 => ⟨S4x20000x128, .f32⟩
  | 71 => ⟨S4x20000x128, .f32⟩
  | 72 => ⟨S1x1x128, .f32⟩
  | 73 => ⟨S4x20000x128, .f32⟩
  | 74 => ⟨S4x20000x128, .f32⟩
  | 75 => ⟨S4x20000x1x128, .f32⟩
  | 76 => ⟨S4x20000x3x128, .f32⟩
  | 77 => ⟨S240000x128, .f32⟩
  | 78 => ⟨S240000x1, .f32⟩
  | 79 => ⟨S240000x128, .f32⟩
  | 80 => ⟨S240000x128, .f32⟩
  | 81 => ⟨S_, .f32⟩
  | 82 => ⟨S50000x128, .f32⟩
  | 83 => ⟨S240000x1, .i32⟩
  | 84 => ⟨S50000x128, .f32⟩
  | 85 => ⟨S50000x1, .f32⟩
  | 86 => ⟨S_, .f32⟩
  | 87 => ⟨S50000x1, .f32⟩
  | 88 => ⟨S50000x1, .i1⟩
  | 89 => ⟨S_, .f32⟩
  | 90 => ⟨S50000, .f32⟩
  | 91 => ⟨S50000, .f32⟩
  | 92 => ⟨S50000x1, .f32⟩
  | 93 => ⟨S50000x128, .f32⟩
  | 94 => ⟨S50000x128, .f32⟩
  | 95 => ⟨S_, .f32⟩
  | 96 => ⟨S_, .f32⟩
  | 97 => ⟨S50000x128, .i1⟩
  | 98 => ⟨S50000x128, .f32⟩
  | 99 => ⟨S50000x128, .f32⟩
  | 100 => ⟨S1x50000x128, .f32⟩
  | 101 => ⟨S4x50000x128, .f32⟩
  | 102 => ⟨S4x50000x128, .f32⟩
  | 103 => ⟨S_, .i32⟩
  | 104 => ⟨S4x1x1, .i32⟩
  | 105 => ⟨S4x1x1, .i1⟩
  | 106 => ⟨S_, .i32⟩
  | 107 => ⟨S4x1x1, .i32⟩
  | 108 => ⟨S4x1x1, .i32⟩
  | 109 => ⟨S4x1x1, .i32⟩
  | 110 => ⟨S_, .i32⟩
  | 111 => ⟨S4x20000x3, .i32⟩
  | 112 => ⟨S4x20000x3, .i1⟩
  | 113 => ⟨S_, .i32⟩
  | 114 => ⟨S4x20000x3, .i32⟩
  | 115 => ⟨S4x20000x3, .i32⟩
  | 116 => ⟨S4x20000x3, .i32⟩
  | 117 => ⟨S4x20000x3, .i32⟩
  | 118 => ⟨S4x20000x3x1, .i32⟩
  | 119 => ⟨S4x20000x3x1, .i32⟩
  | 120 => ⟨S4x20000x3x2, .i32⟩
  | 121 => ⟨S4x20000x3x128, .f32⟩
  | 122 => ⟨S4x20000x3x128, .f32⟩
  | 123 => ⟨S1x1x1x128, .f32⟩
  | 124 => ⟨S4x20000x3x128, .f32⟩
  | 125 => ⟨S4x20000x3x128, .f32⟩
  | 126 => ⟨S_, .f32⟩
  | 127 => ⟨S4x20000x128, .f32⟩
  | _ => ⟨S4x20000x3, .i32⟩

abbrev hbmTy0_1 (i : Nat) : BufTy := match i % 128 with
  | 0 => ⟨S_, .f32⟩
  | 1 => ⟨S4x20000x128, .f32⟩
  | 2 => ⟨S4x20000x128, .f32⟩
  | 3 => ⟨S4x20000x128, .f32⟩
  | 4 => ⟨S1x1x128, .f32⟩
  | 5 => ⟨S4x20000x128, .f32⟩
  | 6 => ⟨S4x20000x128, .f32⟩
  | 7 => ⟨S4x20000x128, .f32⟩
  | 8 => ⟨S1x1x128, .f32⟩
  | 9 => ⟨S4x20000x128, .f32⟩
  | 10 => ⟨S4x20000x128, .f32⟩
  | 11 => ⟨S4x20000x1x128, .f32⟩
  | 12 => ⟨S4x20000x3x128, .f32⟩
  | 13 => ⟨S240000x128, .f32⟩
  | 14 => ⟨S240000x1, .f32⟩
  | 15 => ⟨S240000x128, .f32⟩
  | 16 => ⟨S240000x128, .f32⟩
  | 17 => ⟨S_, .f32⟩
  | 18 => ⟨S50000x128, .f32⟩
  | 19 => ⟨S240000x1, .i32⟩
  | 20 => ⟨S50000x128, .f32⟩
  | 21 => ⟨S50000x1, .f32⟩
  | 22 => ⟨S_, .f32⟩
  | 23 => ⟨S50000x1, .f32⟩
  | 24 => ⟨S50000x1, .i1⟩
  | 25 => ⟨S_, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S_, .f32⟩
  | 32 => ⟨S_, .f32⟩
  | 33 => ⟨S50000x128, .i1⟩
  | 34 => ⟨S50000x128, .f32⟩
  | 35 => ⟨S50000x128, .f32⟩
  | 36 => ⟨S1x50000x128, .f32⟩
  | 37 => ⟨S4x50000x128, .f32⟩
  | 38 => ⟨S4x50000x128, .f32⟩
  | 39 => ⟨S4x50000x128, .f32⟩
  | 40 => ⟨S1x1x128, .f32⟩
  | 41 => ⟨S4x50000x128, .f32⟩
  | 42 => ⟨S4x50000x128, .f32⟩
  | 43 => ⟨S_, .f32⟩
  | 44 => ⟨S4x50000x128, .f32⟩
  | 45 => ⟨S4x50000x128, .f32⟩
  | 46 => ⟨S4x50000x1, .f32⟩
  | 47 => ⟨S1x1x1, .f32⟩
  | 48 => ⟨S4x50000x1, .f32⟩
  | 49 => ⟨S4x50000x1, .f32⟩
  | 50 => ⟨S4x50000x1, .f32⟩
  | 51 => ⟨S4x50000x1, .f32⟩
  | 52 => ⟨S_, .f32⟩
  | 53 => ⟨S4x50000x1, .f32⟩
  | 54 => ⟨S4x50000x1, .f32⟩
  | 55 => ⟨S_, .f32⟩
  | 56 => ⟨S4x50000x1, .f32⟩
  | 57 => ⟨S4x50000x1, .f32⟩
  | 58 => ⟨S4x50000, .f32⟩
  | _ => ⟨S4x20000x3, .i32⟩

abbrev hbmTy (i : Nat) : BufTy := match i / 128 with
  | 0 => hbmTy0_0 i
  | 1 => hbmTy0_1 i
  | _ => ⟨S4x20000x3, .i32⟩

abbrev bufTy : (tb : Table) → Fin (tcTables nBuf tb) → BufTy
  | .hbm, ⟨i, _⟩ => hbmTy i
  | _, _ => ⟨S4x20000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_0 : Ref sig .tc := ⟨.hbm, 24, rfl⟩
abbrev main_call0_v6 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_0 : Ref sig .tc := ⟨.hbm, 39, rfl⟩
abbrev main_v16 : Ref sig .tc := ⟨.hbm, 40, rfl⟩
abbrev main_v17 : Ref sig .tc := ⟨.hbm, 41, rfl⟩
abbrev main_c_1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_2 : Ref sig .tc := ⟨.hbm, 46, rfl⟩
abbrev main_v21 : Ref sig .tc := ⟨.hbm, 47, rfl⟩
abbrev main_v22 : Ref sig .tc := ⟨.hbm, 48, rfl⟩
abbrev main_c_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_6 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_7 : Ref sig .tc := ⟨.hbm, 86, rfl⟩
abbrev main_v56 : Ref sig .tc := ⟨.hbm, 87, rfl⟩
abbrev main_v57 : Ref sig .tc := ⟨.hbm, 88, rfl⟩
abbrev main_cst_8 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_9 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_10 : Ref sig .tc := ⟨.hbm, 103, rfl⟩
abbrev main_v67 : Ref sig .tc := ⟨.hbm, 104, rfl⟩
abbrev main_v68 : Ref sig .tc := ⟨.hbm, 105, rfl⟩
abbrev main_c_11 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_12 : Ref sig .tc := ⟨.hbm, 110, rfl⟩
abbrev main_v72 : Ref sig .tc := ⟨.hbm, 111, rfl⟩
abbrev main_v73 : Ref sig .tc := ⟨.hbm, 112, rfl⟩
abbrev main_c_13 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_14 : Ref sig .tc := ⟨.hbm, 126, rfl⟩
abbrev main_v86 : Ref sig .tc := ⟨.hbm, 127, rfl⟩
abbrev main_cst_15 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_16 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_17 : Ref sig .tc := ⟨.hbm, 150, rfl⟩
abbrev main_v107 : Ref sig .tc := ⟨.hbm, 151, rfl⟩
abbrev main_v108 : Ref sig .tc := ⟨.hbm, 152, rfl⟩
abbrev main_cst_18 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_19 : Ref sig .tc := ⟨.hbm, 159, rfl⟩
abbrev main_call2_v0 : Ref sig .tc := ⟨.hbm, 160, rfl⟩
abbrev main_call2_v1 : Ref sig .tc := ⟨.hbm, 161, rfl⟩
abbrev main_call2_v2 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_call3_cst : Ref sig .tc := ⟨.hbm, 171, rfl⟩
abbrev main_call3_v0 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_20 : Ref sig .tc := ⟨.hbm, 180, rfl⟩
abbrev main_v129 : Ref sig .tc := ⟨.hbm, 181, rfl⟩
abbrev main_v130 : Ref sig .tc := ⟨.hbm, 182, rfl⟩
abbrev main_cst_21 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩

abbrev nD : Nat := 1
abbrev τ : Topo := Topo.v7x

variable {F : FTy → Type} [FloatOps F]

class Facts₀ : Prop where
  bcast_S4x20000x3_S4x20000x3x1_0_1_2 : S4x20000x3.BroadcastsInDim S4x20000x3x1 (![0, 1, 2] : Fin 3 → Fin S4x20000x3x1.rank)
  bcast_S4x20000x3_S4x20000x1x3_0_1_3 : S4x20000x3.BroadcastsInDim S4x20000x1x3 (![0, 1, 3] : Fin 3 → Fin S4x20000x1x3.rank)
  bcast_S4x20000x3x1_S4x20000x3x3_0_1_2_3 : S4x20000x3x1.BroadcastsInDim S4x20000x3x3 (![0, 1, 2, 3] : Fin 4 → Fin S4x20000x3x3.rank)
  bcast_S4x20000x1x3_S4x20000x3x3_0_1_2_3 : S4x20000x1x3.BroadcastsInDim S4x20000x3x3 (![0, 1, 2, 3] : Fin 4 → Fin S4x20000x3x3.rank)
  bcast_S_S3x3 : S_.BroadcastsInDim S3x3 (![] : Fin 0 → Fin S3x3.rank)
  bcast_S3x3_S4x20000x3x3_2_3 : S3x3.BroadcastsInDim S4x20000x3x3 (![2, 3] : Fin 2 → Fin S4x20000x3x3.rank)
  bcast_S_S4x20000x3x3 : S_.BroadcastsInDim S4x20000x3x3 (![] : Fin 0 → Fin S4x20000x3x3.rank)
  reducesTo_S4x20000x3x3_S4x20000x3_d3 : S4x20000x3x3.ReducesTo [3] S4x20000x3
  h_S_ : 0 < S_.numel
  shapeCasts_S4x20000x3_S240000 : S4x20000x3.ShapeCasts S240000
  bcast_S_S50000 : S_.BroadcastsInDim S50000 (![] : Fin 0 → Fin S50000.rank)
  bcast_S240000_S240000x1_0 : S240000.BroadcastsInDim S240000x1 (![0] : Fin 1 → Fin S240000x1.rank)
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x20000x3 : S_.BroadcastsInDim S4x20000x3 (![] : Fin 0 → Fin S4x20000x3.rank)
  bcast_S4x1x1_S4x20000x3_0_1_2 : S4x1x1.BroadcastsInDim S4x20000x3 (![0, 1, 2] : Fin 3 → Fin S4x20000x3.rank)
  concatenates_S4x20000x3x1_S4x20000x3x1_S4x20000x3x2_d3 : Shape.Concatenates [S4x20000x3x1, S4x20000x3x1] S4x20000x3x2 3
  bcast_S128_S1x1x1x128_3 : S128.BroadcastsInDim S1x1x1x128 (![3] : Fin 1 → Fin S1x1x1x128.rank)
  bcast_S1x1x1x128_S4x20000x3x128_0_1_2_3 : S1x1x1x128.BroadcastsInDim S4x20000x3x128 (![0, 1, 2, 3] : Fin 4 → Fin S4x20000x3x128.rank)
  reducesTo_S4x20000x3x128_S4x20000x128_d2 : S4x20000x3x128.ReducesTo [2] S4x20000x128
  bcast_S_S4x20000x128 : S_.BroadcastsInDim S4x20000x128 (![] : Fin 0 → Fin S4x20000x128.rank)
  bcast_S128_S1x1x128_2 : S128.BroadcastsInDim S1x1x128 (![2] : Fin 1 → Fin S1x1x128.rank)
  bcast_S1x1x128_S4x20000x128_0_1_2 : S1x1x128.BroadcastsInDim S4x20000x128 (![0, 1, 2] : Fin 3 → Fin S4x20000x128.rank)
  bcast_S4x20000x128_S4x20000x1x128_0_1_3 : S4x20000x128.BroadcastsInDim S4x20000x1x128 (![0, 1, 3] : Fin 3 → Fin S4x20000x1x128.rank)
  bcast_S4x20000x1x128_S4x20000x3x128_0_1_2_3 : S4x20000x1x128.BroadcastsInDim S4x20000x3x128 (![0, 1, 2, 3] : Fin 4 → Fin S4x20000x3x128.rank)
  shapeCasts_S4x20000x3x128_S240000x128 : S4x20000x3x128.ShapeCasts S240000x128
  bcast_S240000x1_S240000x128_0_1 : S240000x1.BroadcastsInDim S240000x128 (![0, 1] : Fin 2 → Fin S240000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S50000x128_S1x50000x128_1_2 : S50000x128.BroadcastsInDim S1x50000x128 (![1, 2] : Fin 2 → Fin S1x50000x128.rank)
  bcast_S1x50000x128_S4x50000x128_0_1_2 : S1x50000x128.BroadcastsInDim S4x50000x128 (![0, 1, 2] : Fin 3 → Fin S4x50000x128.rank)
  bcast_S1x1x128_S4x50000x128_0_1_2 : S1x1x128.BroadcastsInDim S4x50000x128 (![0, 1, 2] : Fin 3 → Fin S4x50000x128.rank)
  bcast_S_S4x50000x128 : S_.BroadcastsInDim S4x50000x128 (![] : Fin 0 → Fin S4x50000x128.rank)
  bcast_S1_S1x1x1_2 : S1.BroadcastsInDim S1x1x1 (![2] : Fin 1 → Fin S1x1x1.rank)
  bcast_S1x1x1_S4x50000x1_0_1_2 : S1x1x1.BroadcastsInDim S4x50000x1 (![0, 1, 2] : Fin 3 → Fin S4x50000x1.rank)
  bcast_S_S4x50000x1 : S_.BroadcastsInDim S4x50000x1 (![] : Fin 0 → Fin S4x50000x1.rank)
  shapeCasts_S4x50000x1_S4x50000 : S4x50000x1.ShapeCasts S4x50000
  scatter_S50000_S240000x1_S240000_n_0_0_1_wf : ScatterDims.WF S50000 S240000x1 S240000 [] [0] [0] 1
  gather_S4x50000x128_S4x20000x3x2_S4x20000x3x128_3_01_n_n_01_3_11128_wf : GatherDims.WF S4x50000x128 S4x20000x3x2 S4x20000x3x128 [3] [0, 1] [] [0, 1] [] 3 ![1, 1, 128]
  dot_S4x20000x3x128_S128x128_S4x20000x3x128_3_1_012_0_n_n_wf : DotDims.WF S4x20000x3x128 S128x128 S4x20000x3x128 [3] [1] [0, 1, 2] [0] [] []
  dot_S4x20000x128_S128x128_S4x20000x128_2_1_01_0_n_n_wf : DotDims.WF S4x20000x128 S128x128 S4x20000x128 [2] [1] [0, 1] [0] [] []
  scatter_S50000x128_S240000x1_S240000x128_1_0_0_1_wf : ScatterDims.WF S50000x128 S240000x1 S240000x128 [1] [0] [0] 1
  dot_S4x50000x128_S128x128_S4x50000x128_2_1_01_0_n_n_wf : DotDims.WF S4x50000x128 S128x128 S4x50000x128 [2] [1] [0, 1] [0] [] []
  dot_S4x50000x128_S1x128_S4x50000x1_2_1_01_0_n_n_wf : DotDims.WF S4x50000x128 S1x128 S4x50000x1 [2] [1] [0, 1] [0] [] []

variable [Facts₀]

def scatter_S50000_S240000x1_S240000_n_0_0_1 : ScatterDims S50000 S240000x1 S240000 where
  updateWindowDims := []
  insertedWindowDims := [0]
  scatterDimsToOperandDims := [0]
  indexVectorDim := 1
  wf := scatter_S50000_S240000x1_S240000_n_0_0_1_wf
def gather_S4x50000x128_S4x20000x3x2_S4x20000x3x128_3_01_n_n_01_3_11128 : GatherDims S4x50000x128 S4x20000x3x2 S4x20000x3x128 where
  offsetDims := [3]
  collapsedSliceDims := [0, 1]
  operandBatchingDims := []
  startIndicesBatchingDims := []
  startIndexMap := [0, 1]
  indexVectorDim := 3
  sliceSizes := ![1, 1, 128]
  wf := gather_S4x50000x128_S4x20000x3x2_S4x20000x3x128_3_01_n_n_01_3_11128_wf
def dot_S4x20000x3x128_S128x128_S4x20000x3x128_3_1_012_0_n_n : DotDims S4x20000x3x128 S128x128 S4x20000x3x128 where
  lhsContracting := [3]
  rhsContracting := [1]
  lhsNonContracting := [0, 1, 2]
  rhsNonContracting := [0]
  lhsBatch := []
  rhsBatch := []
  wf := dot_S4x20000x3x128_S128x128_S4x20000x3x128_3_1_012_0_n_n_wf
def dot_S4x20000x128_S128x128_S4x20000x128_2_1_01_0_n_n : DotDims S4x20000x128 S128x128 S4x20000x128 where
  lhsContracting := [2]
  rhsContracting := [1]
  lhsNonContracting := [0, 1]
  rhsNonContracting := [0]
  lhsBatch := []
  rhsBatch := []
  wf := dot_S4x20000x128_S128x128_S4x20000x128_2_1_01_0_n_n_wf
def scatter_S50000x128_S240000x1_S240000x128_1_0_0_1 : ScatterDims S50000x128 S240000x1 S240000x128 where
  updateWindowDims := [1]
  insertedWindowDims := [0]
  scatterDimsToOperandDims := [0]
  indexVectorDim := 1
  wf := scatter_S50000x128_S240000x1_S240000x128_1_0_0_1_wf
def dot_S4x50000x128_S128x128_S4x50000x128_2_1_01_0_n_n : DotDims S4x50000x128 S128x128 S4x50000x128 where
  lhsContracting := [2]
  rhsContracting := [1]
  lhsNonContracting := [0, 1]
  rhsNonContracting := [0]
  lhsBatch := []
  rhsBatch := []
  wf := dot_S4x50000x128_S128x128_S4x50000x128_2_1_01_0_n_n_wf
def dot_S4x50000x128_S1x128_S4x50000x1_2_1_01_0_n_n : DotDims S4x50000x128 S1x128 S4x50000x1 where
  lhsContracting := [2]
  rhsContracting := [1]
  lhsNonContracting := [0, 1]
  rhsNonContracting := [0]
  lhsBatch := []
  rhsBatch := []
  wf := dot_S4x50000x128_S1x128_S4x50000x1_2_1_01_0_n_n_wf

class Facts : Prop extends Facts₀ where

variable [Facts]
-- ==== Proof.KReg0.lean ====
/- The class-A half of region 0 of @main (custom_call 0, `cc0__clause_message_kernel`, pipeline 0), generic in the
   float instance and stated at a parameter `V`, the TensorCore's buffer contents when the region is entered:
   each window's block at a grid point, what the body leaves in the output window's buffer as a function of the
   seven input blocks, the body's triple, the pipeline's proof data and its body obligation. -/
import proofs.«421163_j37864431681664_3_alg».proof.Proof.Gen.Kernel.Launch
import proofs.«421163_j37864431681664_3_alg».proof.Proof.Gen.Kernel.Skeleton
import proofs.«421163_j37864431681664_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched its block index has not moved since the point before), for any proof data whose array is `V`'s and
    whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (where it is not
    fetched its block index has not moved since the point before), for any proof data whose array is `V`'s and
    whose body leaves the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (where it is not
    fetched its block index has not moved since the point before), for any proof data whose array is `V`'s and
    whose body leaves the block in place; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not (where it is not
    fetched its block index has not moved since the point before), for any proof data whose array is `V`'s and
    whose body leaves the block in place; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not (where it is not
    fetched its block index has not moved since the point before), for any proof data whose array is `V`'s and
    whose body leaves the block in place; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not (where it is not
    fetched its block index has not moved since the point before), for any proof data whose array is `V`'s and
    whose body leaves the block in place; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not (where it is not
    fetched its block index has not moved since the point before), for any proof data whose array is `V`'s and
    whose body leaves the block in place; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read, and the output written, whole -/

abbrev r0_0 : Rect S4000x3x128 := Rect.unit (s := S4000x3x128) ![0, 0, 0] S4000x3x128.size inb_S4000x3x128_S4000x3x128_0_0_0
abbrev r0_1 : Rect S128x128 := Rect.unit (s := S128x128) ![0, 0] S128x128.size inb_S128x128_S128x128_0_0
abbrev r0_2 : Rect S128 := Rect.unit (s := S128) ![0] S128.size inb_S128_S128_0
abbrev r0_3 : Rect S128x128 := Rect.unit (s := S128x128) ![0, 0] S128x128.size inb_S128x128_S128x128_0_0
abbrev r0_4 : Rect S128 := Rect.unit (s := S128) ![0] S128.size inb_S128_S128_0
abbrev r0_5 : Rect S128x128 := Rect.unit (s := S128x128) ![0, 0] S128x128.size inb_S128x128_S128x128_0_0
abbrev r0_6 : Rect S128 := Rect.unit (s := S128) ![0] S128.size inb_S128_S128_0
abbrev r0_7 : Rect S4000x128 := Rect.unit (s := S4000x128) ![0, 0] S4000x128.size inb_S4000x128_S4000x128_0_0

/-! ## What the body leaves in the output window's buffer -/

/-- Window 7's staging buffer after the body, from the seven input blocks: its one store, over the whole buffer, of
    the three-layer message: the three rows' products with the first weight block, summed, scaled by the named
    constant one third, plus the first bias row; then twice more, rounded to bf16, a product with the next weight
    block plus the next bias row. -/
def out0_7 (x0 : Vec F S4000x3x128 .bf16) (x1 : Vec F S128x128 .bf16) (x2 : Vec F S128 .f32) (x3 : Vec F S128x128 .bf16) (x4 : Vec F S128 .f32) (x5 : Vec F S128x128 .bf16) (x6 : Vec F S128 .f32) : Vec F S4000x128 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The one store is of the whole buffer, so it covers it. -/
theorem cover0_7 (p0 : Vec F S4000x128 .f32) (y : S4000x128.Idx) :
    ∃ pc ∈ ([⟨r0_7, p0⟩] : List (View.Piece (Elt F) S4000x128 .f32)), y ∈ pc.1.set :=
  View.cover_of_tiled [⟨r0_7, p0⟩] S4000x128.size (by rfl) y

/-! ## The body's triple -/

set_option maxHeartbeats 1000000 in
/-- The kernel body on whole staging memrefs, the inputs' at contents `xW` and the output's at anything, runs to the
    continuation holding the inputs' as they were and the output's at `out0_7` of the inputs': seven whole loads (in
    the body's one part), a load of the output buffer whose value is unused, and the store. -/
theorem sound_kernel0 (c : Dev nD) (E : Set ℕ) (i : grid0.Coords) (arg0 : Memref sig .tc .vmem S4000x3x128 .bf16) (harg0 : arg0.IsWhole) (arg1 : Memref sig .tc .vmem S128x128 .bf16) (harg1 : arg1.IsWhole) (arg2 : Memref sig .tc .vmem S128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S128 .f32) (harg6 : arg6.IsWhole) (arg7 : Memref sig .tc .vmem S4000x128 .f32) (harg7 : arg7.IsWhole)
    (x0 : Vec F S4000x3x128 .bf16) (x1 : Vec F S128x128 .bf16) (x2 : Vec F S128 .f32) (x3 : Vec F S128x128 .bf16) (x4 : Vec F S128 .f32) (x5 : Vec F S128x128 .bf16) (x6 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__clause_message_kernel i arg0 harg0 arg1 harg1 arg2 harg2 arg3 harg3 arg4 harg4 arg5 harg5 arg6 harg6 arg7 harg7) K := by
  simp only [cc0__clause_message_kernel_eq_skeleton]; unfold cc0__clause_message_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at point `t`
    each input's buffer at its block and the output's at `out0_7` of the input blocks; the invariant "the scoped rest
    and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KReg1.lean ====
/-
  REGION 1 of @main (the second kernel call: the node update that adds, to each of the four
  copies of a node block, the block of summed messages scaled row by row by the reciprocal of the
  row's count where that count is positive and by zero elsewhere), at the buffer contents `V` the
  region is entered with. For each grid point: the three input windows hold their blocks of the
  arrays; the body reads them, reads the output buffer once without using the value, and stores one
  full block; so the output buffer after the body is the canonical contents of that one store.
  The proof data, the facts about what each window holds before and after the body, and the body
  obligation of the pipeline follow.
-/
import proofs.«421163_j37864431681664_3_alg».proof.Proof.Gen.Kernel.Launch
import proofs.«421163_j37864431681664_3_alg».proof.Proof.Gen.Kernel.Skeleton
import proofs.«421163_j37864431681664_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the four node copies) holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the summed messages) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the row counts) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S4x2000x128 := Rect.unit (s := S4x2000x128) ![0, 0, 0] S4x2000x128.size inb_S4x2000x128_S4x2000x128_0_0_0
abbrev r1_1 : Rect S2000x128 := Rect.unit (s := S2000x128) ![0, 0] S2000x128.size inb_S2000x128_S2000x128_0_0
abbrev r1_2 : Rect S2000x1 := Rect.unit (s := S2000x1) ![0, 0] S2000x1.size inb_S2000x1_S2000x1_0_0

/-! ## What the body leaves in the output window's buffer -/

/-- The output buffer after the body, from the input windows' blocks: the one store, whose value
    is the node copies plus the scaled messages. -/
def out1_3 (x0 : Vec F S4x2000x128 .f32) (x1 : Vec F S2000x128 .f32) (x2 : Vec F S2000x1 .f32) : Vec F S4x2000x128 .f32 :=
  View.canon [⟨r1_0, k1_pay1 (View.ld x2 r1_2) (View.ld x1 r1_1) (View.ld x0 r1_0)⟩]

/-- The one store is the whole buffer, so it covers it. -/
theorem cover1_3 (p0 : Vec F S4x2000x128 .f32) (y : S4x2000x128.Idx) :
    ∃ pc ∈ ([⟨r1_0, p0⟩] : List (View.Piece (Elt F) S4x2000x128 .f32)), y ∈ pc.1.set :=
  View.cover_of_tiled [⟨r1_0, p0⟩] S4x2000x128.size (by rfl) y

/-! ## The body's triple -/

set_option maxHeartbeats 1000000 in
/-- The kernel body on whole staging memrefs, the inputs' at read contents `xW` and the output's at
    anything, runs to the continuation holding the inputs' as they were and the output's at
    `out1_3` of the inputs'. -/
theorem sound_kernel1 (c : Dev nD) (E : Set ℕ) (i : grid1.Coords) (arg0 : Memref sig .tc .vmem S4x2000x128 .f32) (harg0 : arg0.IsWhole) (arg1 : Memref sig .tc .vmem S2000x128 .f32) (harg1 : arg1.IsWhole) (arg2 : Memref sig .tc .vmem S2000x1 .f32) (harg2 : arg2.IsWhole) (arg3 : Memref sig .tc .vmem S4x2000x128 .f32) (harg3 : arg3.IsWhole)
    (x0 : Vec F S4x2000x128 .f32) (x1 : Vec F S2000x128 .f32) (x2 : Vec F S2000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__finalize_update_kernel i arg0 harg0 arg1 harg1 arg2 harg2 arg3 harg3) K := by
  simp only [cc1__finalize_update_kernel_eq_skeleton]; unfold cc1__finalize_update_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them (`V`); after
    the body at point `t` each input's buffer at its block and the output's at `out1_3` of the
    input blocks; the invariant leaves the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.KReg2.lean ====
/- The class-A half of region 0 of @main (custom_call 0, `cc2__clause_message_kernel`, pipeline 0), generic in the
   float instance and stated at a parameter `V`, the TensorCore's buffer contents when the region is entered:
   each window's block at a grid point, what the body leaves in the output window's buffer as a function of the
   seven input blocks, the body's triple, the pipeline's proof data and its body obligation. -/
import proofs.«421163_j37864431681664_3_alg».proof.Proof.Gen.Kernel.Launch
import proofs.«421163_j37864431681664_3_alg».proof.Proof.Gen.Kernel.Skeleton
import proofs.«421163_j37864431681664_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (where it is not
    fetched its block index has not moved since the point before), for any proof data whose array is `V`'s and
    whose body leaves the block in place; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (where it is not
    fetched its block index has not moved since the point before), for any proof data whose array is `V`'s and
    whose body leaves the block in place; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (where it is not
    fetched its block index has not moved since the point before), for any proof data whose array is `V`'s and
    whose body leaves the block in place; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not (where it is not
    fetched its block index has not moved since the point before), for any proof data whose array is `V`'s and
    whose body leaves the block in place; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not (where it is not
    fetched its block index has not moved since the point before), for any proof data whose array is `V`'s and
    whose body leaves the block in place; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not (where it is not
    fetched its block index has not moved since the point before), for any proof data whose array is `V`'s and
    whose body leaves the block in place; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not (where it is not
    fetched its block index has not moved since the point before), for any proof data whose array is `V`'s and
    whose body leaves the block in place; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read, and the output written, whole -/

abbrev r2_0 : Rect S4000x3x128 := Rect.unit (s := S4000x3x128) ![0, 0, 0] S4000x3x128.size inb_S4000x3x128_S4000x3x128_0_0_0
abbrev r2_1 : Rect S128x128 := Rect.unit (s := S128x128) ![0, 0] S128x128.size inb_S128x128_S128x128_0_0
abbrev r2_2 : Rect S128 := Rect.unit (s := S128) ![0] S128.size inb_S128_S128_0
abbrev r2_3 : Rect S128x128 := Rect.unit (s := S128x128) ![0, 0] S128x128.size inb_S128x128_S128x128_0_0
abbrev r2_4 : Rect S128 := Rect.unit (s := S128) ![0] S128.size inb_S128_S128_0
abbrev r2_5 : Rect S128x128 := Rect.unit (s := S128x128) ![0, 0] S128x128.size inb_S128x128_S128x128_0_0
abbrev r2_6 : Rect S128 := Rect.unit (s := S128) ![0] S128.size inb_S128_S128_0
abbrev r2_7 : Rect S4000x128 := Rect.unit (s := S4000x128) ![0, 0] S4000x128.size inb_S4000x128_S4000x128_0_0

/-! ## What the body leaves in the output window's buffer -/

/-- Window 7's staging buffer after the body, from the seven input blocks: its one store, over the whole buffer, of
    the three-layer message: the three rows' products with the first weight block, summed, scaled by the named
    constant one third, plus the first bias row; then twice more, rounded to bf16, a product with the next weight
    block plus the next bias row. -/
def out2_7 (x0 : Vec F S4000x3x128 .bf16) (x1 : Vec F S128x128 .bf16) (x2 : Vec F S128 .f32) (x3 : Vec F S128x128 .bf16) (x4 : Vec F S128 .f32) (x5 : Vec F S128x128 .bf16) (x6 : Vec F S128 .f32) : Vec F S4000x128 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store is of the whole buffer, so it covers it. -/
theorem cover2_7 (p0 : Vec F S4000x128 .f32) (y : S4000x128.Idx) :
    ∃ pc ∈ ([⟨r2_7, p0⟩] : List (View.Piece (Elt F) S4000x128 .f32)), y ∈ pc.1.set :=
  View.cover_of_tiled [⟨r2_7, p0⟩] S4000x128.size (by rfl) y

/-! ## The body's triple -/

set_option maxHeartbeats 1000000 in
/-- The kernel body on whole staging memrefs, the inputs' at contents `xW` and the output's at anything, runs to the
    continuation holding the inputs' as they were and the output's at `out2_7` of the inputs': seven whole loads (in
    the body's one part), a load of the output buffer whose value is unused, and the store. -/
theorem sound_kernel2 (c : Dev nD) (E : Set ℕ) (i : grid2.Coords) (arg0 : Memref sig .tc .vmem S4000x3x128 .bf16) (harg0 : arg0.IsWhole) (arg1 : Memref sig .tc .vmem S128x128 .bf16) (harg1 : arg1.IsWhole) (arg2 : Memref sig .tc .vmem S128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S128 .f32) (harg6 : arg6.IsWhole) (arg7 : Memref sig .tc .vmem S4000x128 .f32) (harg7 : arg7.IsWhole)
    (x0 : Vec F S4000x3x128 .bf16) (x1 : Vec F S128x128 .bf16) (x2 : Vec F S128 .f32) (x3 : Vec F S128x128 .bf16) (x4 : Vec F S128 .f32) (x5 : Vec F S128x128 .bf16) (x6 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__clause_message_kernel i arg0 harg0 arg1 harg1 arg2 harg2 arg3 harg3 arg4 harg4 arg5 harg5 arg6 harg6 arg7 harg7) K := by
  simp only [cc2__clause_message_kernel_eq_skeleton]; unfold cc2__clause_message_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 0 on core `c`: the arrays as the region finds them (`V`); after the body at point `t`
    each input's buffer at its block and the output's at `out2_7` of the input blocks; the invariant "the scoped rest
    and the generator register, untouched"; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Fr

end
-- ==== Proof.KReg3.lean ====
/-
  REGION 1 of @main (the second kernel call: the node update that adds, to each of the four
  copies of a node block, the block of summed messages scaled row by row by the reciprocal of the
  row's count where that count is positive and by zero elsewhere), at the buffer contents `V` the
  region is entered with. For each grid point: the three input windows hold their blocks of the
  arrays; the body reads them, reads the output buffer once without using the value, and stores one
  full block; so the output buffer after the body is the canonical contents of that one store.
  The proof data, the facts about what each window holds before and after the body, and the body
  obligation of the pipeline follow.
-/
import proofs.«421163_j37864431681664_3_alg».proof.Proof.Gen.Kernel.Launch
import proofs.«421163_j37864431681664_3_alg».proof.Proof.Gen.Kernel.Skeleton
import proofs.«421163_j37864431681664_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the four node copies) holds its block at every point, for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the summed messages) likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the row counts) likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_0 : Rect S4x2000x128 := Rect.unit (s := S4x2000x128) ![0, 0, 0] S4x2000x128.size inb_S4x2000x128_S4x2000x128_0_0_0
abbrev r3_1 : Rect S2000x128 := Rect.unit (s := S2000x128) ![0, 0] S2000x128.size inb_S2000x128_S2000x128_0_0
abbrev r3_2 : Rect S2000x1 := Rect.unit (s := S2000x1) ![0, 0] S2000x1.size inb_S2000x1_S2000x1_0_0

/-! ## What the body leaves in the output window's buffer -/

/-- The output buffer after the body, from the input windows' blocks: the one store, whose value
    is the node copies plus the scaled messages. -/
def out3_3 (x0 : Vec F S4x2000x128 .f32) (x1 : Vec F S2000x128 .f32) (x2 : Vec F S2000x1 .f32) : Vec F S4x2000x128 .f32 :=
  View.canon [⟨r3_0, k3_pay1 (View.ld x2 r3_2) (View.ld x1 r3_1) (View.ld x0 r3_0)⟩]

/-- The one store is the whole buffer, so it covers it. -/
theorem cover3_3 (p0 : Vec F S4x2000x128 .f32) (y : S4x2000x128.Idx) :
    ∃ pc ∈ ([⟨r3_0, p0⟩] : List (View.Piece (Elt F) S4x2000x128 .f32)), y ∈ pc.1.set :=
  View.cover_of_tiled [⟨r3_0, p0⟩] S4x2000x128.size (by rfl) y

/-! ## The body's triple -/

set_option maxHeartbeats 1000000 in
/-- The kernel body on whole staging memrefs, the inputs' at read contents `xW` and the output's at
    anything, runs to the continuation holding the inputs' as they were and the output's at
    `out3_3` of the inputs'. -/
theorem sound_kernel3 (c : Dev nD) (E : Set ℕ) (i : grid3.Coords) (arg0 : Memref sig .tc .vmem S4x2000x128 .f32) (harg0 : arg0.IsWhole) (arg1 : Memref sig .tc .vmem S2000x128 .f32) (harg1 : arg1.IsWhole) (arg2 : Memref sig .tc .vmem S2000x1 .f32) (harg2 : arg2.IsWhole) (arg3 : Memref sig .tc .vmem S4x2000x128 .f32) (harg3 : arg3.IsWhole)
    (x0 : Vec F S4x2000x128 .f32) (x1 : Vec F S2000x128 .f32) (x2 : Vec F S2000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__finalize_update_kernel i arg0 harg0 arg1 harg1 arg2 harg2 arg3 harg3) K := by
  simp only [cc3__finalize_update_kernel_eq_skeleton]; unfold cc3__finalize_update_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`: the arrays as the region finds them (`V`); after
    the body at point `t` each input's buffer at its block and the output's at `out3_3` of the
    input blocks; the invariant leaves the scoped rest and the generator register untouched;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies;
    the invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Fr

end
-- ==== Proof.KReg4Body.lean ====
import proofs.«421163_j37864431681664_3_alg».proof.Proof.Gen.Kernel.Launch
import proofs.«421163_j37864431681664_3_alg».proof.Proof.Gen.Kernel.Skeleton
import proofs.«421163_j37864431681664_3_alg».proof.Proof.Gen.Kernel.Points
import Idealize.ShloMosaic.Lib.Pipeline.FrameBody
import Idealize.ShloMosaic.Lib.Ring
import Idealize.ShloMosaic.Lib.Tactic

/-! # The classifier body on one block of four rows

The body of the final classifier kernel reads its weights once and then, for each of the four rows
`b` of its block, reads row `b` of the input block, maps it through the two-layer classifier, and
writes the `2048` results to row `b` of the output block. This file states what the output block
holds afterwards, as a function of the five operands the body reads, and proves the body's triple. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- Row `b` of the input block: a `[1,2048,128]` slab at offset `[b,0,0]`. -/
abbrev rX0 : Rect S4x2048x128 := Rect.unit (s := S4x2048x128) ![0, 0, 0] S1x2048x128.size inb_S4x2048x128_S1x2048x128_0_0_0
abbrev rX1 : Rect S4x2048x128 := Rect.unit (s := S4x2048x128) ![1, 0, 0] S1x2048x128.size inb_S4x2048x128_S1x2048x128_1_0_0
abbrev rX2 : Rect S4x2048x128 := Rect.unit (s := S4x2048x128) ![2, 0, 0] S1x2048x128.size inb_S4x2048x128_S1x2048x128_2_0_0
abbrev rX3 : Rect S4x2048x128 := Rect.unit (s := S4x2048x128) ![3, 0, 0] S1x2048x128.size inb_S4x2048x128_S1x2048x128_3_0_0
/-- The hidden layer's weight matrix, whole. -/
abbrev rW : Rect S128x128 := Rect.unit (s := S128x128) ![0, 0] S128x128.size inb_S128x128_S128x128_0_0
/-- A `128`-vector, whole: the hidden layer's bias and the output layer's weights. -/
abbrev rV : Rect S128 := Rect.unit (s := S128) ![0] S128.size inb_S128_S128_0
/-- The output layer's bias, one number. -/
abbrev rS : Rect S1 := Rect.unit (s := S1) ![0] S1.size inb_S1_S1_0
/-- Row `b` of the output block: a `[1,2048]` strip at offset `[b,0]`. -/
abbrev rY0 : Rect S4x2048 := Rect.unit (s := S4x2048) ![0, 0] S1x2048.size inb_S4x2048_S1x2048_0_0
abbrev rY1 : Rect S4x2048 := Rect.unit (s := S4x2048) ![1, 0] S1x2048.size inb_S4x2048_S1x2048_1_0
abbrev rY2 : Rect S4x2048 := Rect.unit (s := S4x2048) ![2, 0] S1x2048.size inb_S4x2048_S1x2048_2_0
abbrev rY3 : Rect S4x2048 := Rect.unit (s := S4x2048) ![3, 0] S1x2048.size inb_S4x2048_S1x2048_3_0

/-! ## What the body leaves in the output block -/

/-- The output block after the body, from the five operands: its four row stores as pieces, the last
    store first. Row `b` holds the classifier's value on row `b` of the input block `x0`, under the
    hidden layer's weights `x1` and bias `x2` and the output layer's weights `x3` and bias `x4`.
    The payloads are those of the generated skeleton; the weight matrix and the output weights
    enter rows 2 and 3 through their (identity) shape casts. -/
def out4_5 (x0 : Vec F S4x2048x128 .f32) (x1 : Vec F S128x128 .bf16) (x2 : Vec F S128 .f32) (x3 : Vec F S128 .bf16) (x4 : Vec F S1 .f32) : Vec F S4x2048 .f32 :=
  View.canon [⟨rY3, k4_pay1 (k4_pay8 (k4_pay2 (View.ld x1 rW)) (View.ld x2 rV) (k4_pay3 (View.ld x3 rV)) (View.ld x0 rX3)) (k4_pay9 (View.ld x4 rS))⟩,
    ⟨rY2, k4_pay7 (k4_pay2 (View.ld x1 rW)) (View.ld x2 rV) (k4_pay3 (View.ld x3 rV)) (View.ld x4 rS) (View.ld x0 rX2)⟩,
    ⟨rY1, k4_pay6 (View.ld x4 rS) (k4_pay5 (View.ld x1 rW) (View.ld x2 rV) (View.ld x3 rV) (View.ld x0 rX1))⟩,
    ⟨rY0, k4_pay4 (View.ld x1 rW) (View.ld x2 rV) (View.ld x3 rV) (View.ld x4 rS) (View.ld x0 rX0)⟩]

/-- The four row strips tile the output block (checked by evaluation), so they cover it. -/
theorem cover4_5 (p0 p1 p2 p3 : Vec F S1x2048 .f32) (y : S4x2048.Idx) :
    ∃ pc ∈ ([⟨rY3, p0⟩, ⟨rY2, p1⟩, ⟨rY1, p2⟩, ⟨rY0, p3⟩] : List (View.Piece (Elt F) S4x2048 .f32)), y ∈ pc.1.set :=
  View.cover_of_tiled [⟨rY3, p0⟩, ⟨rY2, p1⟩, ⟨rY1, p2⟩, ⟨rY0, p3⟩] S1x2048.size (by rfl) y

/-! ## The body's triple -/

set_option maxHeartbeats 4000000 in
/-- The body's triple. Given the five operand buffers, whole, holding `x0 … x4`, and the output
    block's buffer, whole, holding anything, the body runs to a continuation that receives the five
    operand buffers unchanged and the output block's buffer holding `out4_5 x0 x1 x2 x3 x4`. Before
    each row's store the body reads that row of the output block; the value read is not used. -/
theorem sound_kernel4 (c : Dev nD) (E : Set ℕ) (i : grid4.Coords) (arg1 : Memref sig .tc .vmem S4x2048x128 .f32) (harg1 : arg1.IsWhole) (arg2 : Memref sig .tc .vmem S128x128 .bf16) (harg2 : arg2.IsWhole) (arg3 : Memref sig .tc .vmem S128 .f32) (harg3 : arg3.IsWhole) (arg4 : Memref sig .tc .vmem S128 .bf16) (harg4 : arg4.IsWhole) (arg5 : Memref sig .tc .vmem S1 .f32) (harg5 : arg5.IsWhole) (arg6 : Memref sig .tc .vmem S4x2048 .f32) (harg6 : arg6.IsWhole)
    (x0 : Vec F S4x2048x128 .f32) (x1 : Vec F S128x128 .bf16) (x2 : Vec F S128 .f32) (x3 : Vec F S128 .bf16) (x4 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__final_classifier_kernel i arg1 harg1 arg2 harg2 arg3 harg3 arg4 harg4 arg5 harg5 arg6 harg6) K := by
  simp only [cc4__final_classifier_kernel_eq_skeleton]; unfold cc4__final_classifier_kernel_skel
  simp only [k4_part1_eq_skeleton]; unfold k4_part1_skel
  simp only [k4_part2_eq_skeleton]; unfold k4_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _ _ _ _)

end Cert.Kernel.Fr

end
-- ==== Proof.KReg4.lean ====
/- Region 4 of @main (custom_call 4, the final classifier kernel, pipeline 4) with every window forgotten: the
   last block of its row axis overhangs the arrays, so the tail of the input's staging buffer holds values nothing
   names, and the body's output there depends on them. Each window is therefore handed to the body at arbitrary
   contents and taken back at arbitrary contents; what remains of the region is that it runs and that it writes no
   input array. Stated at a parameter `V`, the TensorCore's buffer contents when the region is entered. -/
import proofs.«421163_j37864431681664_3_alg».proof.Proof.Gen.Kernel.Launch
import proofs.«421163_j37864431681664_3_alg».proof.Proof.Gen.Kernel.Skeleton
import proofs.«421163_j37864431681664_3_alg».proof.Proof.Gen.Kernel.Points
import proofs.«421163_j37864431681664_3_alg».proof.Proof.KReg4Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The pipeline's proof data -/

/-- The proof data of pipeline 4 on core `c`: the arrays as the region finds them (`V`); what the body leaves in a
    window's buffer is not named (every window is forgotten, below); the invariant "the scoped rest and the
    generator register, untouched"; nothing owed; full shares. -/
def dat4 (c : Dev nD) : Dat τ (Elt F) Unit ℕ (UR sig nD τ) ℕ cfg4 c where
  A w := V c (Pipeline.arrRef spec4 w)
  after w t := Pipeline.Dat.unnamed w t
  Φ _ := Pipeline.ΦA spec4 c
  q _ := fullShare
  owed _ := 0

/-- Every window of the region is forgotten. -/
abbrev fgt4 : Fin cfg4.W → Bool := fun _ => true

/-- The proof data's arrays are the region-entry contents (the definition projected). -/
theorem A_eq4 (c : Dev nD) (w : Fin cfg4.W) : (dat4 V c).A w = V c (Pipeline.arrRef spec4 w) := by
  dsimp only [dat4]

/-! ## The body obligation, at a generic point -/

/-- What the body is called with at point `t`: each window's current staging buffer at some contents, -/
def bodyPre4 (c : Dev nD) (t : Fin cfg4.N) : sProp 𝕄 :=
  iprop((dat4 V c).Φ t.castSucc ∗ (dat4 V c).owesAt () t.castSucc
    ∗ (∃ X, owns (c : Thread nD τ) (st4_0 t) fullShare X)
    ∗ (∃ X, owns (c : Thread nD τ) (st4_1 t) fullShare X)
    ∗ (∃ X, owns (c : Thread nD τ) (st4_2 t) fullShare X)
    ∗ (∃ X, owns (c : Thread nD τ) (st4_3 t) fullShare X)
    ∗ (∃ X, owns (c : Thread nD τ) (st4_4 t) fullShare X)
    ∗ (∃ X, owns (c : Thread nD τ) (st4_5 t) fullShare X))

/-- and what it returns: the same buffers at some contents. -/
def bodyPost4 (c : Dev nD) (t : Fin cfg4.N) : sProp 𝕄 :=
  iprop((dat4 V c).Φ t.succ ∗ (dat4 V c).owesAt () t.succ
    ∗ (∃ X, owns (c : Thread nD τ) (st4_0 t) fullShare X)
    ∗ (∃ X, owns (c : Thread nD τ) (st4_1 t) fullShare X)
    ∗ (∃ X, owns (c : Thread nD τ) (st4_2 t) fullShare X)
    ∗ (∃ X, owns (c : Thread nD τ) (st4_3 t) fullShare X)
    ∗ (∃ X, owns (c : Thread nD τ) (st4_4 t) fullShare X)
    ∗ (∃ X, owns (c : Thread nD τ) (st4_5 t) fullShare X))

/-- The body at any point: the body's triple applies at whatever contents the five inputs' buffers hold; what it then
    leaves in the six buffers is forgotten again. The invariant and the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).Φ t.succ = (dat4 V c).Φ t.castSucc from rfl,
    show (dat4 V c).owesAt () t.succ = (dat4 V c).owesAt () t.castSucc from rfl]
  iintro ⟨HΦ, Ho, ⟨%X0, H0⟩, ⟨%X1, H1⟩, ⟨%X2, H2⟩, ⟨%X3, H3⟩, ⟨%X4, H4⟩, ⟨%X5, H5⟩⟩
  iapply (sound_kernel4 c Set.univ _ _ _ _ _ _ _ _ _ _ _ _ _ X0 X1 X2 X3 X4 _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  iexists _; iexact H5

/-- The library's body obligation with every window forgotten, at every point. -/
theorem body_obligation4 (c : Dev nD) : BodyObligationLoose (dat4 (F := F) V c) (defs₀ (F := F)) Variants.none () Set.univ fgt4 := fun t => by
  rw [bigSep_W4]
  exact sound_body4 V c t

end Region4

end Cert.Kernel.Fr

end
-- ==== Proof.KRun.lean ====
/-
  The run of @main at any float instance: five kernel regions among six stretches of host operations, composed in
  program order. Between two items every unscoped buffer of a core is held whole at a known valuation: the launch
  contents, then the fold of each host stretch over it, then, after each of the first four regions, the same valuation
  with the region's arrays at what its write-backs leave. The last region's row axis overhangs its arrays, so its
  windows are forgotten: its proof data is read relationally, the run keeps its arrays as the region left them, and the
  post reads each argument either as an input array of that region (never written) or off the buffers the region does
  not touch. No item writes an argument, so every argument ends as launched.
-/
import proofs.«421163_j37864431681664_3_alg».proof.Proof.Gen.Kernel.Launch
import proofs.«421163_j37864431681664_3_alg».proof.Proof.Gen.Kernel.Skeleton
import proofs.«421163_j37864431681664_3_alg».proof.Proof.Gen.Kernel.Points
import proofs.«421163_j37864431681664_3_alg».proof.Proof.Gen.Kernel.Regions
import proofs.«421163_j37864431681664_3_alg».proof.Proof.KReg0
import proofs.«421163_j37864431681664_3_alg».proof.Proof.KReg1
import proofs.«421163_j37864431681664_3_alg».proof.Proof.KReg2
import proofs.«421163_j37864431681664_3_alg».proof.Proof.KReg3
import proofs.«421163_j37864431681664_3_alg».proof.Proof.KReg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- The valuation region 0 is entered with, read at the TensorCore's references. -/
abbrev V3 : (c : Dev nD) → (b : Ref sig .tc) → Buf (Elt F) ((c : Thread nD τ).loc b) := fun c b => W3 m c b
/-- After region 0: its arrays at what the write-backs leave, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- After the host stretch `hostOps1`. -/
abbrev W5 : Dev nD → Valuation τ sig (Elt F) := fun c => StableHlo.after hostOps1 (W4 m c)
/-- The valuation region 1 is entered with, read at the TensorCore's references. -/
abbrev V5 : (c : Dev nD) → (b : Ref sig .tc) → Buf (Elt F) ((c : Thread nD τ).loc b) := fun c b => W5 m c b
/-- After region 1: its arrays at what the write-backs leave, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the host stretch `hostOps2`. -/
abbrev W7 : Dev nD → Valuation τ sig (Elt F) := fun c => StableHlo.after hostOps2 (W6 m c)
/-- The valuation region 2 is entered with, read at the TensorCore's references. -/
abbrev V7 : (c : Dev nD) → (b : Ref sig .tc) → Buf (Elt F) ((c : Thread nD τ).loc b) := fun c b => W7 m c b
/-- After region 2: its arrays at what the write-backs leave, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- After the host stretch `hostOps3`. -/
abbrev W9 : Dev nD → Valuation τ sig (Elt F) := fun c => StableHlo.after hostOps3 (W8 m c)
/-- The valuation region 3 is entered with, read at the TensorCore's references. -/
abbrev V9 : (c : Dev nD) → (b : Ref sig .tc) → Buf (Elt F) ((c : Thread nD τ).loc b) := fun c b => W9 m c b
/-- After region 3: its arrays at what the write-backs leave, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-! ## What each item leaves unchanged -/
theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
/-- Region 0 writes back only into the array behind its output window: every other buffer leaves as it entered. -/
theorem W4_keep (c : Dev nD) (r : Ref sig .tc) (hr : r ≠ main_v44) : W4 m c r = W3 m c r := by
  by_cases h : ∃ w, Pipeline.arrRef spec0 w = r
  · obtain ⟨w, rfl⟩ := h
    refine (W4_arr m c w).trans ?_
    match w with
    | ⟨0, _⟩ => exact ((dat0 _ c).arrAt_in 0 rfl _).trans (A_eq0 _ c 0)
    | ⟨1, _⟩ => exact ((dat0 _ c).arrAt_in 1 rfl _).trans (A_eq0 _ c 1)
    | ⟨2, _⟩ => exact ((dat0 _ c).arrAt_in 2 rfl _).trans (A_eq0 _ c 2)
    | ⟨3, _⟩ => exact ((dat0 _ c).arrAt_in 3 rfl _).trans (A_eq0 _ c 3)
    | ⟨4, _⟩ => exact ((dat0 _ c).arrAt_in 4 rfl _).trans (A_eq0 _ c 4)
    | ⟨5, _⟩ => exact ((dat0 _ c).arrAt_in 5 rfl _).trans (A_eq0 _ c 5)
    | ⟨6, _⟩ => exact ((dat0 _ c).arrAt_in 6 rfl _).trans (A_eq0 _ c 6)
    | ⟨7, _⟩ => exact absurd rfl hr
  · exact W4_of_ne m c r fun w e => h ⟨w, e⟩
theorem W5_of (c : Dev nD) (r : Ref sig .tc) (h : r ∉ hostOps1_W) : W5 m c r = W4 m c r :=
  StableHlo.after_of_writes_sub hostOps1 _ hostOps1_writes h
/-- Region 1 writes back only into the array behind its output window: every other buffer leaves as it entered. -/
theorem W6_keep (c : Dev nD) (r : Ref sig .tc) (hr : r ≠ main_v55) : W6 m c r = W5 m c r := by
  by_cases h : ∃ w, Pipeline.arrRef spec1 w = r
  · obtain ⟨w, rfl⟩ := h
    refine (W6_arr m c w).trans ?_
    match w with
    | ⟨0, _⟩ => exact ((dat1 _ c).arrAt_in 0 rfl _).trans (A_eq1 _ c 0)
    | ⟨1, _⟩ => exact ((dat1 _ c).arrAt_in 1 rfl _).trans (A_eq1 _ c 1)
    | ⟨2, _⟩ => exact ((dat1 _ c).arrAt_in 2 rfl _).trans (A_eq1 _ c 2)
    | ⟨3, _⟩ => exact absurd rfl hr
  · exact W6_of_ne m c r fun w e => h ⟨w, e⟩
theorem W7_of (c : Dev nD) (r : Ref sig .tc) (h : r ∉ hostOps2_W) : W7 m c r = W6 m c r :=
  StableHlo.after_of_writes_sub hostOps2 _ hostOps2_writes h
/-- Region 2 writes back only into the array behind its output window: every other buffer leaves as it entered. -/
theorem W8_keep (c : Dev nD) (r : Ref sig .tc) (hr : r ≠ main_v73) : W8 m c r = W7 m c r := by
  by_cases h : ∃ w, Pipeline.arrRef spec2 w = r
  · obtain ⟨w, rfl⟩ := h
    refine (W8_arr m c w).trans ?_
    match w with
    | ⟨0, _⟩ => exact ((dat2 _ c).arrAt_in 0 rfl _).trans (A_eq2 _ c 0)
    | ⟨1, _⟩ => exact ((dat2 _ c).arrAt_in 1 rfl _).trans (A_eq2 _ c 1)
    | ⟨2, _⟩ => exact ((dat2 _ c).arrAt_in 2 rfl _).trans (A_eq2 _ c 2)
    | ⟨3, _⟩ => exact ((dat2 _ c).arrAt_in 3 rfl _).trans (A_eq2 _ c 3)
    | ⟨4, _⟩ => exact ((dat2 _ c).arrAt_in 4 rfl _).trans (A_eq2 _ c 4)
    | ⟨5, _⟩ => exact ((dat2 _ c).arrAt_in 5 rfl _).trans (A_eq2 _ c 5)
    | ⟨6, _⟩ => exact ((dat2 _ c).arrAt_in 6 rfl _).trans (A_eq2 _ c 6)
    | ⟨7, _⟩ => exact absurd rfl hr
  · exact W8_of_ne m c r fun w e => h ⟨w, e⟩
theorem W9_of (c : Dev nD) (r : Ref sig .tc) (h : r ∉ hostOps3_W) : W9 m c r = W8 m c r :=
  StableHlo.after_of_writes_sub hostOps3 _ hostOps3_writes h
/-- Region 3 writes back only into the array behind its output window: every other buffer leaves as it entered. -/
theorem W10_keep (c : Dev nD) (r : Ref sig .tc) (hr : r ≠ main_v84) : W10 m c r = W9 m c r := by
  by_cases h : ∃ w, Pipeline.arrRef spec3 w = r
  · obtain ⟨w, rfl⟩ := h
    refine (W10_arr m c w).trans ?_
    match w with
    | ⟨0, _⟩ => exact ((dat3 _ c).arrAt_in 0 rfl _).trans (A_eq3 _ c 0)
    | ⟨1, _⟩ => exact ((dat3 _ c).arrAt_in 1 rfl _).trans (A_eq3 _ c 1)
    | ⟨2, _⟩ => exact ((dat3 _ c).arrAt_in 2 rfl _).trans (A_eq3 _ c 2)
    | ⟨3, _⟩ => exact absurd rfl hr
  · exact W10_of_ne m c r fun w e => h ⟨w, e⟩

/-! ## No item writes an argument -/
theorem W10_main_arg0 (c : Dev nD) : W10 m c main_arg0 = m ((c : Thread nD τ).loc main_arg0) :=
  (W10_keep m c main_arg0 (by decide)).trans <| (W9_of m c main_arg0 (by decide)).trans <| (W8_keep m c main_arg0 (by decide)).trans <| (W7_of m c main_arg0 (by decide)).trans <| (W6_keep m c main_arg0 (by decide)).trans <| (W5_of m c main_arg0 (by decide)).trans <| (W4_keep m c main_arg0 (by decide)).trans <| (W3_of m c main_arg0 (by decide)).trans <| (W2_of m c main_arg0 (by decide)).trans <| (W1_of m c main_arg0 (by decide)).trans rfl
theorem W10_main_arg1 (c : Dev nD) : W10 m c main_arg1 = m ((c : Thread nD τ).loc main_arg1) :=
  (W10_keep m c main_arg1 (by decide)).trans <| (W9_of m c main_arg1 (by decide)).trans <| (W8_keep m c main_arg1 (by decide)).trans <| (W7_of m c main_arg1 (by decide)).trans <| (W6_keep m c main_arg1 (by decide)).trans <| (W5_of m c main_arg1 (by decide)).trans <| (W4_keep m c main_arg1 (by decide)).trans <| (W3_of m c main_arg1 (by decide)).trans <| (W2_of m c main_arg1 (by decide)).trans <| (W1_of m c main_arg1 (by decide)).trans rfl
theorem W10_main_arg2 (c : Dev nD) : W10 m c main_arg2 = m ((c : Thread nD τ).loc main_arg2) :=
  (W10_keep m c main_arg2 (by decide)).trans <| (W9_of m c main_arg2 (by decide)).trans <| (W8_keep m c main_arg2 (by decide)).trans <| (W7_of m c main_arg2 (by decide)).trans <| (W6_keep m c main_arg2 (by decide)).trans <| (W5_of m c main_arg2 (by decide)).trans <| (W4_keep m c main_arg2 (by decide)).trans <| (W3_of m c main_arg2 (by decide)).trans <| (W2_of m c main_arg2 (by decide)).trans <| (W1_of m c main_arg2 (by decide)).trans rfl
theorem W10_main_arg3 (c : Dev nD) : W10 m c main_arg3 = m ((c : Thread nD τ).loc main_arg3) :=
  (W10_keep m c main_arg3 (by decide)).trans <| (W9_of m c main_arg3 (by decide)).trans <| (W8_keep m c main_arg3 (by decide)).trans <| (W7_of m c main_arg3 (by decide)).trans <| (W6_keep m c main_arg3 (by decide)).trans <| (W5_of m c main_arg3 (by decide)).trans <| (W4_keep m c main_arg3 (by decide)).trans <| (W3_of m c main_arg3 (by decide)).trans <| (W2_of m c main_arg3 (by decide)).trans <| (W1_of m c main_arg3 (by decide)).trans rfl
theorem W10_main_arg4 (c : Dev nD) : W10 m c main_arg4 = m ((c : Thread nD τ).loc main_arg4) :=
  (W10_keep m c main_arg4 (by decide)).trans <| (W9_of m c main_arg4 (by decide)).trans <| (W8_keep m c main_arg4 (by decide)).trans <| (W7_of m c main_arg4 (by decide)).trans <| (W6_keep m c main_arg4 (by decide)).trans <| (W5_of m c main_arg4 (by decide)).trans <| (W4_keep m c main_arg4 (by decide)).trans <| (W3_of m c main_arg4 (by decide)).trans <| (W2_of m c main_arg4 (by decide)).trans <| (W1_of m c main_arg4 (by decide)).trans rfl
theorem W10_main_arg5 (c : Dev nD) : W10 m c main_arg5 = m ((c : Thread nD τ).loc main_arg5) :=
  (W10_keep m c main_arg5 (by decide)).trans <| (W9_of m c main_arg5 (by decide)).trans <| (W8_keep m c main_arg5 (by decide)).trans <| (W7_of m c main_arg5 (by decide)).trans <| (W6_keep m c main_arg5 (by decide)).trans <| (W5_of m c main_arg5 (by decide)).trans <| (W4_keep m c main_arg5 (by decide)).trans <| (W3_of m c main_arg5 (by decide)).trans <| (W2_of m c main_arg5 (by decide)).trans <| (W1_of m c main_arg5 (by decide)).trans rfl
theorem W10_main_arg6 (c : Dev nD) : W10 m c main_arg6 = m ((c : Thread nD τ).loc main_arg6) :=
  (W10_keep m c main_arg6 (by decide)).trans <| (W9_of m c main_arg6 (by decide)).trans <| (W8_keep m c main_arg6 (by decide)).trans <| (W7_of m c main_arg6 (by decide)).trans <| (W6_keep m c main_arg6 (by decide)).trans <| (W5_of m c main_arg6 (by decide)).trans <| (W4_keep m c main_arg6 (by decide)).trans <| (W3_of m c main_arg6 (by decide)).trans <| (W2_of m c main_arg6 (by decide)).trans <| (W1_of m c main_arg6 (by decide)).trans rfl
theorem W10_main_arg7 (c : Dev nD) : W10 m c main_arg7 = m ((c : Thread nD τ).loc main_arg7) :=
  (W10_keep m c main_arg7 (by decide)).trans <| (W9_of m c main_arg7 (by decide)).trans <| (W8_keep m c main_arg7 (by decide)).trans <| (W7_of m c main_arg7 (by decide)).trans <| (W6_keep m c main_arg7 (by decide)).trans <| (W5_of m c main_arg7 (by decide)).trans <| (W4_keep m c main_arg7 (by decide)).trans <| (W3_of m c main_arg7 (by decide)).trans <| (W2_of m c main_arg7 (by decide)).trans <| (W1_of m c main_arg7 (by decide)).trans rfl
theorem W10_main_arg8 (c : Dev nD) : W10 m c main_arg8 = m ((c : Thread nD τ).loc main_arg8) :=
  (W10_keep m c main_arg8 (by decide)).trans <| (W9_of m c main_arg8 (by decide)).trans <| (W8_keep m c main_arg8 (by decide)).trans <| (W7_of m c main_arg8 (by decide)).trans <| (W6_keep m c main_arg8 (by decide)).trans <| (W5_of m c main_arg8 (by decide)).trans <| (W4_keep m c main_arg8 (by decide)).trans <| (W3_of m c main_arg8 (by decide)).trans <| (W2_of m c main_arg8 (by decide)).trans <| (W1_of m c main_arg8 (by decide)).trans rfl
theorem W10_main_arg9 (c : Dev nD) : W10 m c main_arg9 = m ((c : Thread nD τ).loc main_arg9) :=
  (W10_keep m c main_arg9 (by decide)).trans <| (W9_of m c main_arg9 (by decide)).trans <| (W8_keep m c main_arg9 (by decide)).trans <| (W7_of m c main_arg9 (by decide)).trans <| (W6_keep m c main_arg9 (by decide)).trans <| (W5_of m c main_arg9 (by decide)).trans <| (W4_keep m c main_arg9 (by decide)).trans <| (W3_of m c main_arg9 (by decide)).trans <| (W2_of m c main_arg9 (by decide)).trans <| (W1_of m c main_arg9 (by decide)).trans rfl
theorem W10_main_arg10 (c : Dev nD) : W10 m c main_arg10 = m ((c : Thread nD τ).loc main_arg10) :=
  (W10_keep m c main_arg10 (by decide)).trans <| (W9_of m c main_arg10 (by decide)).trans <| (W8_keep m c main_arg10 (by decide)).trans <| (W7_of m c main_arg10 (by decide)).trans <| (W6_keep m c main_arg10 (by decide)).trans <| (W5_of m c main_arg10 (by decide)).trans <| (W4_keep m c main_arg10 (by decide)).trans <| (W3_of m c main_arg10 (by decide)).trans <| (W2_of m c main_arg10 (by decide)).trans <| (W1_of m c main_arg10 (by decide)).trans rfl
theorem W10_main_arg11 (c : Dev nD) : W10 m c main_arg11 = m ((c : Thread nD τ).loc main_arg11) :=
  (W10_keep m c main_arg11 (by decide)).trans <| (W9_of m c main_arg11 (by decide)).trans <| (W8_keep m c main_arg11 (by decide)).trans <| (W7_of m c main_arg11 (by decide)).trans <| (W6_keep m c main_arg11 (by decide)).trans <| (W5_of m c main_arg11 (by decide)).trans <| (W4_keep m c main_arg11 (by decide)).trans <| (W3_of m c main_arg11 (by decide)).trans <| (W2_of m c main_arg11 (by decide)).trans <| (W1_of m c main_arg11 (by decide)).trans rfl

/-! ## The proof data family and the thread state -/

/-- Every pipeline's proof data, each at its region's entry contents. -/
def pdatsF : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
  | ⟨4, _⟩ => fun c => dat4 (V10 m) c
abbrev 𝒱F : Variants := Variants.none
/-- No core owes another anything: no level is assigned. -/
abbrev LF : GSem nD τ sig → Finset Unit := fun _ => ∅
abbrev lvF : GSem nD τ sig → Unit → ℕ := fun _ _ => 0
/-- What rides beside the buffers through every item: the core's generator register at some state and its dues, none. -/
abbrev RF (c : Dev nD) : sProp 𝕄 := iprop((∃ r, prngReg c r) ∗ ∃ W, owes (c : Thread nD τ) (0 : CellTallies nD τ sig Unit) W)
/-- A host stretch as a segment over the unscoped references from the contents `W`, `RF` riding along. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
/-- An unscoped TensorCore reference is among those the thread state holds. -/
theorem mem_ucF (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W3`, left at `W4`. Its arrays are split out of
    the unscoped buffers and put back at the exit contents; the generator register goes into the region's invariant and comes
    back; nothing is owed; the kernel has no semaphore of its own. -/
def reg0F : Pipeline.RegionSeg (pcfgs (F := F)) adm (pdatsF m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ LF lvF 0 fun _ _ => rfl
  pre c := iprop(StableHlo.held (c : Thread nD τ) (Pipeline.ucRefs τ sig) (W3 m c) ∗ RF c)
  post c := iprop(StableHlo.held (c : Thread nD τ) (Pipeline.ucRefs τ sig) (W4 m c) ∗ RF c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdatsF m) launch0.win launch0.arr_whole c
      ((pdatsF m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsF m) ((pdatsF m 0 c).share_full fun _ => rfl)
      (V3 m c) (V4 m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left at `W6`. Its arrays are split out of
    the unscoped buffers and put back at the exit contents; the generator register goes into the region's invariant and comes
    back; nothing is owed; the kernel has no semaphore of its own. -/
def reg1F : Pipeline.RegionSeg (pcfgs (F := F)) adm (pdatsF m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ LF lvF 1 fun _ _ => rfl
  pre c := iprop(StableHlo.held (c : Thread nD τ) (Pipeline.ucRefs τ sig) (W5 m c) ∗ RF c)
  post c := iprop(StableHlo.held (c : Thread nD τ) (Pipeline.ucRefs τ sig) (W6 m c) ∗ RF c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdatsF m) launch1.win launch1.arr_whole c
      ((pdatsF m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsF m) ((pdatsF m 1 c).share_full fun _ => rfl)
      (V5 m c) (V6 m c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left at `W8`. Its arrays are split out of
    the unscoped buffers and put back at the exit contents; the generator register goes into the region's invariant and comes
    back; nothing is owed; the kernel has no semaphore of its own. -/
def reg2F : Pipeline.RegionSeg (pcfgs (F := F)) adm (pdatsF m) () defs₀ 𝒱F LF lvF 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ LF lvF 2 fun _ _ => rfl
  pre c := iprop(StableHlo.held (c : Thread nD τ) (Pipeline.ucRefs τ sig) (W7 m c) ∗ RF c)
  post c := iprop(StableHlo.held (c : Thread nD τ) (Pipeline.ucRefs τ sig) (W8 m c) ∗ RF c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdatsF m) launch2.win launch2.arr_whole c
      ((pdatsF m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsF m) ((pdatsF m 2 c).share_full fun _ => rfl)
      (V7 m c) (V8 m c) ((pdatsF m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left at `W10`. Its arrays are split out of
    the unscoped buffers and put back at the exit contents; the generator register goes into the region's invariant and comes
    back; nothing is owed; the kernel has no semaphore of its own. -/
def reg3F : Pipeline.RegionSeg (pcfgs (F := F)) adm (pdatsF m) () defs₀ 𝒱F LF lvF 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ LF lvF 3 fun _ _ => rfl
  pre c := iprop(StableHlo.held (c : Thread nD τ) (Pipeline.ucRefs τ sig) (W9 m c) ∗ RF c)
  post c := iprop(StableHlo.held (c : Thread nD τ) (Pipeline.ucRefs τ sig) (W10 m c) ∗ RF c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdatsF m) launch3.win launch3.arr_whole c
      ((pdatsF m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsF m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsF m) ((pdatsF m 3 c).share_full fun _ => rfl)
      (V9 m c) (V10 m c) ((pdatsF m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The proof data read relationally, the last region's windows forgotten -/

/-- Every pipeline's proof data read relationally: the first four exactly as above, the last with every window
    forgotten. -/
def rdatsB : (p : Fin 5) → (c : Dev nD) → Pipeline.RDat τ (Elt F) Unit ℕ (UR sig nD τ) ℕ (Pipeline.pin (pcfgs (F := F)) adm p) c
  | ⟨0, _⟩ => fun c => (dat0 (V3 m) c).toR
  | ⟨1, _⟩ => fun c => (dat1 (V5 m) c).toR
  | ⟨2, _⟩ => fun c => (dat2 (V7 m) c).toR
  | ⟨3, _⟩ => fun c => (dat3 (V9 m) c).toR
  | ⟨4, _⟩ => fun c => (dat4 (V10 m) c).toRForget fgt4

/-- The last thread state without the dues: the last region's arrays at some contents they may hold after its
    write-backs, every other unscoped buffer as that region was entered, the generator register at some state. -/
abbrev TnB (c : Dev nD) : sProp 𝕄 :=
  iprop((rdatsB m 4 c).arraysAt cfg4.N
    ∗ Pipeline.unscopedRest (Ix := Unit) (Name := ℕ) (U := UR sig nD τ) (Lvl := ℕ) spec4 c (V10 m c)
    ∗ ∃ r, prngReg c r)

set_option backward.isDefEq.respectTransparency.types false in
/-- Region 0 over the relational reading: the record above field by field, its body obligation read relationally and
    its exit fed the arrays at the contents the exact data names. -/
def reg0B : Pipeline.RDat.RegionSeg (pcfgs (F := F)) adm (rdatsB m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (V3 m) c).loose.toR
  hwaits := Pipeline.RDat.hwaits_of_owed_zero _ _ _ _ LF lvF 0 fun _ _ => rfl
  pre c := iprop(StableHlo.held (c : Thread nD τ) (Pipeline.ucRefs τ sig) (W3 m c) ∗ RF c)
  post c := iprop(StableHlo.held (c : Thread nD τ) (Pipeline.ucRefs τ sig) (W4 m c) ∗ RF c)
  X c := iprop(∃ r, prngReg c r)
  Y c := iprop(∃ r, prngReg c r)
  Z c := Pipeline.unscopedRest (Ix := Unit) (Name := ℕ) (U := UR sig nD τ) (Lvl := ℕ) spec0 c (V3 m c)
  hentry := (reg0F m).hentry
  hin := (reg0F m).hin
  hout := (reg0F m).hout
  hexit c := (sep_mono (Entails.of_eq ((dat0 (V3 m) c).toR_arraysAt_eq cfg0.N)) .rfl).trans ((reg0F m).hexit c)

set_option backward.isDefEq.respectTransparency.types false in
/-- Region 1 over the relational reading: the record above field by field, its body obligation read relationally and
    its exit fed the arrays at the contents the exact data names. -/
def reg1B : Pipeline.RDat.RegionSeg (pcfgs (F := F)) adm (rdatsB m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (V5 m) c).loose.toR
  hwaits := Pipeline.RDat.hwaits_of_owed_zero _ _ _ _ LF lvF 1 fun _ _ => rfl
  pre c := iprop(StableHlo.held (c : Thread nD τ) (Pipeline.ucRefs τ sig) (W5 m c) ∗ RF c)
  post c := iprop(StableHlo.held (c : Thread nD τ) (Pipeline.ucRefs τ sig) (W6 m c) ∗ RF c)
  X c := iprop(∃ r, prngReg c r)
  Y c := iprop(∃ r, prngReg c r)
  Z c := Pipeline.unscopedRest (Ix := Unit) (Name := ℕ) (U := UR sig nD τ) (Lvl := ℕ) spec1 c (V5 m c)
  hentry := (reg1F m).hentry
  hin := (reg1F m).hin
  hout := (reg1F m).hout
  hexit c := (sep_mono (Entails.of_eq ((dat1 (V5 m) c).toR_arraysAt_eq cfg1.N)) .rfl).trans ((reg1F m).hexit c)

set_option backward.isDefEq.respectTransparency.types false in
/-- Region 2 over the relational reading: the record above field by field, its body obligation read relationally and
    its exit fed the arrays at the contents the exact data names. -/
def reg2B : Pipeline.RDat.RegionSeg (pcfgs (F := F)) adm (rdatsB m) () defs₀ 𝒱F LF lvF 2 where
  win := launch2.win.to₀
  block_pos := launch2.block_pos
  stage_whole := launch2.stage_whole
  K := PEmpty
  osem k := k.elim
  ho := Pipeline.OwnSemFacts.none _
  hbody c := (body_obligation2 (V7 m) c).loose.toR
  hwaits := Pipeline.RDat.hwaits_of_owed_zero _ _ _ _ LF lvF 2 fun _ _ => rfl
  pre c := iprop(StableHlo.held (c : Thread nD τ) (Pipeline.ucRefs τ sig) (W7 m c) ∗ RF c)
  post c := iprop(StableHlo.held (c : Thread nD τ) (Pipeline.ucRefs τ sig) (W8 m c) ∗ RF c)
  X c := iprop(∃ r, prngReg c r)
  Y c := iprop(∃ r, prngReg c r)
  Z c := Pipeline.unscopedRest (Ix := Unit) (Name := ℕ) (U := UR sig nD τ) (Lvl := ℕ) spec2 c (V7 m c)
  hentry := (reg2F m).hentry
  hin := (reg2F m).hin
  hout := (reg2F m).hout
  hexit c := (sep_mono (Entails.of_eq ((dat2 (V7 m) c).toR_arraysAt_eq cfg2.N)) .rfl).trans ((reg2F m).hexit c)

set_option backward.isDefEq.respectTransparency.types false in
/-- Region 3 over the relational reading: the record above field by field, its body obligation read relationally and
    its exit fed the arrays at the contents the exact data names. -/
def reg3B : Pipeline.RDat.RegionSeg (pcfgs (F := F)) adm (rdatsB m) () defs₀ 𝒱F LF lvF 3 where
  win := launch3.win.to₀
  block_pos := launch3.block_pos
  stage_whole := launch3.stage_whole
  K := PEmpty
  osem k := k.elim
  ho := Pipeline.OwnSemFacts.none _
  hbody c := (body_obligation3 (V9 m) c).loose.toR
  hwaits := Pipeline.RDat.hwaits_of_owed_zero _ _ _ _ LF lvF 3 fun _ _ => rfl
  pre c := iprop(StableHlo.held (c : Thread nD τ) (Pipeline.ucRefs τ sig) (W9 m c) ∗ RF c)
  post c := iprop(StableHlo.held (c : Thread nD τ) (Pipeline.ucRefs τ sig) (W10 m c) ∗ RF c)
  X c := iprop(∃ r, prngReg c r)
  Y c := iprop(∃ r, prngReg c r)
  Z c := Pipeline.unscopedRest (Ix := Unit) (Name := ℕ) (U := UR sig nD τ) (Lvl := ℕ) spec3 c (V9 m c)
  hentry := (reg3F m).hentry
  hin := (reg3F m).hin
  hout := (reg3F m).hout
  hexit c := (sep_mono (Entails.of_eq ((dat3 (V9 m) c).toR_arraysAt_eq cfg3.N)) .rfl).trans ((reg3F m).hexit c)

set_option backward.isDefEq.respectTransparency.types false in
/-- Region 4 over the thread state: entered with every unscoped buffer at `W10`; its arrays are split out of the
    unscoped buffers and, at the exit, KEPT as the region left them beside the buffers it does not touch. The generator
    register goes into the region's invariant and comes back; nothing is owed; the kernel has no semaphore of its own. -/
def reg4B : Pipeline.RDat.RegionSeg (pcfgs (F := F)) adm (rdatsB m) () defs₀ 𝒱F LF lvF 4 where
  win := launch4.win.to₀
  block_pos := launch4.block_pos
  stage_whole := launch4.stage_whole
  K := PEmpty
  osem k := k.elim
  ho := Pipeline.OwnSemFacts.none _
  hbody c := (body_obligation4 (V10 m) c).toRForget
  hwaits := Pipeline.RDat.hwaits_of_owed_zero _ _ _ _ LF lvF 4 fun _ _ => rfl
  pre c := iprop(StableHlo.held (c : Thread nD τ) (Pipeline.ucRefs τ sig) (W10 m c) ∗ RF c)
  post c := iprop(TnB m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V10 m c)
  hentry c := by
    rw [Pipeline.ownSems0_none]
    have hsplit := Pipeline.RDat.arrays_of_unscopedBufs (p := 4) (pcfgs (F := F)) adm (rdatsB m) launch4.win launch4.arr_whole c
      ((dat4 (V10 m) c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsB m 4 c).Φ 0 = Pipeline.ΦA spec4 c from rfl]; unfold Pipeline.ΦA
    iintro ⟨Hp, -, Hr⟩
    isplitl [Hr]; · iexact Hr
    iexact Hp
  hout c := by
    rw [Pipeline.ownSems0_none, show (rdatsB m 4 c).Φ (Fin.last _) = Pipeline.ΦA spec4 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as segments, and the launch -/

/-- @main's eleven items in order. -/
abbrev segsB : List (Pipeline.RDat.Seg (pcfgs (F := F)) adm (rdatsB m) () defs₀ 𝒱F LF lvF) :=
  [ .host (hsegF hostOps0 hostOps0_sub hostOps0_fresh (W0 m)),
    .host (hsegF hostOps0_1 hostOps0_1_sub hostOps0_1_fresh (W1 m)),
    .host (hsegF hostOps0_2 hostOps0_2_sub hostOps0_2_fresh (W2 m)),
    .region (reg0B m),
    .host (hsegF hostOps1 hostOps1_sub hostOps1_fresh (W4 m)),
    .region (reg1B m),
    .host (hsegF hostOps2 hostOps2_sub hostOps2_fresh (W6 m)),
    .region (reg2B m),
    .host (hsegF hostOps3 hostOps3_sub hostOps3_fresh (W8 m)),
    .region (reg3B m),
    .region (reg4B m) ]
/-- @main is the run of the segments. -/
theorem main_runB (c : Dev nD) : main (F := F) c = Pipeline.RDat.Seg.run (segsB m) := (main_chain c).trans (by chain_rfl)

/-- An unscoped reference that is no array of region 4 is among the buffers that region does not touch. -/
theorem mem_rest4 (r : Ref sig .tc) (hs : ¬ r.isScoped) (h : ∀ w : Fin cfg4.W, Pipeline.arrRef spec4 w ≠ r) :
    r ∈ (Finset.univ.filter fun b : Ref sig .tc => ¬ b.isScoped) \ Finset.univ.image (Pipeline.arrRef spec4) :=
  Finset.mem_sdiff.mpr ⟨Finset.mem_filter.mpr ⟨Finset.mem_univ _, hs⟩,
    fun hm => by obtain ⟨w, -, e⟩ := Finset.mem_image.mp hm; exact h w e⟩

set_option backward.isDefEq.respectTransparency.types false in
/-- THE FRAME: from any memory with zero counters every weakly fair execution of @main terminates, nothing faulting, and
    in every final state each argument array of each core holds its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.RDat.θ_run_regions_kit (pcfgs (F := F)) adm (rdatsB m) () cellOf_inj emb₁ defs₀ 𝒱F LF lvF m ρ main (segsB m)
    (fun c Q => by rw [main_runB m c])
    (by simp only [segsB, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RF c)) (Tₙ := TnB m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LF lvF fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => by
      iintro ⟨⟨Ha, Hrest, -⟩, HSI⟩
      ihave Hr := (Pipeline.RDat.arrays_read (pcfgs (F := F)) adm (rdatsB m) (p := 4) launch4.arr_whole c cfg4.N s') $$ [Ha HSI]
      · isplitl [Ha] <;> iassumption
      icases Hr with ⟨%hA, HSI⟩
      unfold Pipeline.unscopedRest
      ihave Hr2 := (pointsTo_read_all ((Finset.univ.filter fun b : Ref sig .tc => ¬ b.isScoped) \ Finset.univ.image (Pipeline.arrRef spec4))
        (fun b => ((c : Thread nD τ).loc b)) (V10 m c) s') $$ [Hrest HSI]
      · isplitl [Hrest] <;> iassumption
      icases Hr2 with ⟨%hR, HSI⟩
      imodintro
      isplitr
      · ipureintro
        have hin : ∀ w : Fin cfg4.W, (cfg4.win w).isOut = false →
            s'.mem.mem ((spec4 w).arr.view.loc (c : Thread nD τ)) = V10 m c (Pipeline.arrRef spec4 w) := fun w hw => by
          have h := hA w
          rw [Pipeline.RDat.ArrAt_in _ w hw] at h
          exact h
        exact ⟨(hR main_arg0 (mem_rest4 main_arg0 (by decide) (by decide))).trans (W10_main_arg0 m c),
          (hR main_arg1 (mem_rest4 main_arg1 (by decide) (by decide))).trans (W10_main_arg1 m c),
          (hR main_arg2 (mem_rest4 main_arg2 (by decide) (by decide))).trans (W10_main_arg2 m c),
          (hR main_arg3 (mem_rest4 main_arg3 (by decide) (by decide))).trans (W10_main_arg3 m c),
          (hR main_arg4 (mem_rest4 main_arg4 (by decide) (by decide))).trans (W10_main_arg4 m c),
          (hR main_arg5 (mem_rest4 main_arg5 (by decide) (by decide))).trans (W10_main_arg5 m c),
          (hR main_arg6 (mem_rest4 main_arg6 (by decide) (by decide))).trans (W10_main_arg6 m c),
          (hR main_arg7 (mem_rest4 main_arg7 (by decide) (by decide))).trans (W10_main_arg7 m c),
          (hR main_arg8 (mem_rest4 main_arg8 (by decide) (by decide))).trans (W10_main_arg8 m c),
          (hin 2 rfl).trans (W10_main_arg9 m c),
          (hR main_arg10 (mem_rest4 main_arg10 (by decide) (by decide))).trans (W10_main_arg10 m c),
          (hin 4 rfl).trans (W10_main_arg11 m c)⟩
      · iexact HSI)
    (hQ := fun s h c => h c)

end Cert.Kernel.Fr

end
-- ==== Proof.KIReg0.lean ====
/- The class-A half of region 0 of @main (custom_call 0, `cc0__clause_message_kernel`, pipeline 0), generic in the
   float instance and stated at a parameter `V`, the TensorCore's buffer contents when the region is entered:
   each window's block at a grid point, what the body leaves in the output window's buffer as a function of the
   seven input blocks, the body's triple, the pipeline's proof data and its body obligation. -/
import proofs.«421163_j37864431681664_3_alg».proof.Proof.Gen.KernelIdeal.Launch
import proofs.«421163_j37864431681664_3_alg».proof.Proof.Gen.KernelIdeal.Skeleton
import proofs.«421163_j37864431681664_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the first layer's scale, one third, is a named constant of the float instance
variable [Named F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched its block index has not moved since the point before), for any proof data whose array is `V`'s and
    whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (where it is not
    fetched its block index has not moved since the point before), for any proof data whose array is `V`'s and
    whose body leaves the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (where it is not
    fetched its block index has not moved since the point before), for any proof data whose array is `V`'s and
    whose body leaves the block in place; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not (where it is not
    fetched its block index has not moved since the point before), for any proof data whose array is `V`'s and
    whose body leaves the block in place; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not (where it is not
    fetched its block index has not moved since the point before), for any proof data whose array is `V`'s and
    whose body leaves the block in place; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not (where it is not
    fetched its block index has not moved since the point before), for any proof data whose array is `V`'s and
    whose body leaves the block in place; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not (where it is not
    fetched its block index has not moved since the point before), for any proof data whose array is `V`'s and
    whose body leaves the block in place; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read, and the output written, whole -/

abbrev r0_0 : Rect S4000x3x128 := Rect.unit (s := S4000x3x128) ![0, 0, 0] S4000x3x128.size inb_S4000x3x128_S4000x3x128_0_0_0
abbrev r0_1 : Rect S128x128 := Rect.unit (s := S128x128) ![0, 0] S128x128.size inb_S128x128_S128x128_0_0
abbrev r0_2 : Rect S128 := Rect.unit (s := S128) ![0] S128.size inb_S128_S128_0
abbrev r0_3 : Rect S128x128 := Rect.unit (s := S128x128) ![0, 0] S128x128.size inb_S128x128_S128x128_0_0
abbrev r0_4 : Rect S128 := Rect.unit (s := S128) ![0] S128.size inb_S128_S128_0
abbrev r0_5 : Rect S128x128 := Rect.unit (s := S128x128) ![0, 0] S128x128.size inb_S128x128_S128x128_0_0
abbrev r0_6 : Rect S128 := Rect.unit (s := S128) ![0] S128.size inb_S128_S128_0
abbrev r0_7 : Rect S4000x128 := Rect.unit (s := S4000x128) ![0, 0] S4000x128.size inb_S4000x128_S4000x128_0_0

/-! ## What the body leaves in the output window's buffer -/

/-- Window 7's staging buffer after the body, from the seven input blocks: its one store, over the whole buffer, of
    the three-layer message: the three rows' products with the first weight block, summed, scaled by the named
    constant one third, plus the first bias row; then twice more, rounded to bf16, a product with the next weight
    block plus the next bias row. -/
def out0_7 (x0 : Vec F S4000x3x128 .bf16) (x1 : Vec F S128x128 .bf16) (x2 : Vec F S128 .f32) (x3 : Vec F S128x128 .bf16) (x4 : Vec F S128 .f32) (x5 : Vec F S128x128 .bf16) (x6 : Vec F S128 .f32) : Vec F S4000x128 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The one store is of the whole buffer, so it covers it. -/
theorem cover0_7 (p0 : Vec F S4000x128 .f32) (y : S4000x128.Idx) :
    ∃ pc ∈ ([⟨r0_7, p0⟩] : List (View.Piece (Elt F) S4000x128 .f32)), y ∈ pc.1.set :=
  View.cover_of_tiled [⟨r0_7, p0⟩] S4000x128.size (by rfl) y

/-! ## The body's triple -/

set_option maxHeartbeats 1000000 in
/-- The kernel body on whole staging memrefs, the inputs' at contents `xW` and the output's at anything, runs to the
    continuation holding the inputs' as they were and the output's at `out0_7` of the inputs': seven whole loads (in
    the body's one part), a load of the output buffer whose value is unused, and the store. -/
theorem sound_kernel0 (c : Dev nD) (E : Set ℕ) (i : grid0.Coords) (arg0 : Memref sig .tc .vmem S4000x3x128 .bf16) (harg0 : arg0.IsWhole) (arg1 : Memref sig .tc .vmem S128x128 .bf16) (harg1 : arg1.IsWhole) (arg2 : Memref sig .tc .vmem S128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S128 .f32) (harg6 : arg6.IsWhole) (arg7 : Memref sig .tc .vmem S4000x128 .f32) (harg7 : arg7.IsWhole)
    (x0 : Vec F S4000x3x128 .bf16) (x1 : Vec F S128x128 .bf16) (x2 : Vec F S128 .f32) (x3 : Vec F S128x128 .bf16) (x4 : Vec F S128 .f32) (x5 : Vec F S128x128 .bf16) (x6 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__clause_message_kernel i arg0 harg0 arg1 harg1 arg2 harg2 arg3 harg3 arg4 harg4 arg5 harg5 arg6 harg6 arg7 harg7) K := by
  simp only [cc0__clause_message_kernel_eq_skeleton]; unfold cc0__clause_message_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at point `t`
    each input's buffer at its block and the output's at `out0_7` of the input blocks; the invariant "the scoped rest
    and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KIReg1.lean ====
/-
  REGION 1 of @main (the second kernel call: the node update that adds, to each of the four
  copies of a node block, the block of summed messages scaled row by row by the reciprocal of the
  row's count where that count is positive and by zero elsewhere), at the buffer contents `V` the
  region is entered with. For each grid point: the three input windows hold their blocks of the
  arrays; the body reads them, reads the output buffer once without using the value, and stores one
  full block; so the output buffer after the body is the canonical contents of that one store.
  The proof data, the facts about what each window holds before and after the body, and the body
  obligation of the pipeline follow.
-/
import proofs.«421163_j37864431681664_3_alg».proof.Proof.Gen.KernelIdeal.Launch
import proofs.«421163_j37864431681664_3_alg».proof.Proof.Gen.KernelIdeal.Skeleton
import proofs.«421163_j37864431681664_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the four node copies) holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the summed messages) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the row counts) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S4x2000x128 := Rect.unit (s := S4x2000x128) ![0, 0, 0] S4x2000x128.size inb_S4x2000x128_S4x2000x128_0_0_0
abbrev r1_1 : Rect S2000x128 := Rect.unit (s := S2000x128) ![0, 0] S2000x128.size inb_S2000x128_S2000x128_0_0
abbrev r1_2 : Rect S2000x1 := Rect.unit (s := S2000x1) ![0, 0] S2000x1.size inb_S2000x1_S2000x1_0_0

/-! ## What the body leaves in the output window's buffer -/

/-- The output buffer after the body, from the input windows' blocks: the one store, whose value
    is the node copies plus the scaled messages. -/
def out1_3 (x0 : Vec F S4x2000x128 .f32) (x1 : Vec F S2000x128 .f32) (x2 : Vec F S2000x1 .f32) : Vec F S4x2000x128 .f32 :=
  View.canon [⟨r1_0, k1_pay1 (View.ld x2 r1_2) (View.ld x1 r1_1) (View.ld x0 r1_0)⟩]

/-- The one store is the whole buffer, so it covers it. -/
theorem cover1_3 (p0 : Vec F S4x2000x128 .f32) (y : S4x2000x128.Idx) :
    ∃ pc ∈ ([⟨r1_0, p0⟩] : List (View.Piece (Elt F) S4x2000x128 .f32)), y ∈ pc.1.set :=
  View.cover_of_tiled [⟨r1_0, p0⟩] S4x2000x128.size (by rfl) y

/-! ## The body's triple -/

set_option maxHeartbeats 1000000 in
/-- The kernel body on whole staging memrefs, the inputs' at read contents `xW` and the output's at
    anything, runs to the continuation holding the inputs' as they were and the output's at
    `out1_3` of the inputs'. -/
theorem sound_kernel1 (c : Dev nD) (E : Set ℕ) (i : grid1.Coords) (arg0 : Memref sig .tc .vmem S4x2000x128 .f32) (harg0 : arg0.IsWhole) (arg1 : Memref sig .tc .vmem S2000x128 .f32) (harg1 : arg1.IsWhole) (arg2 : Memref sig .tc .vmem S2000x1 .f32) (harg2 : arg2.IsWhole) (arg3 : Memref sig .tc .vmem S4x2000x128 .f32) (harg3 : arg3.IsWhole)
    (x0 : Vec F S4x2000x128 .f32) (x1 : Vec F S2000x128 .f32) (x2 : Vec F S2000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__finalize_update_kernel i arg0 harg0 arg1 harg1 arg2 harg2 arg3 harg3) K := by
  simp only [cc1__finalize_update_kernel_eq_skeleton]; unfold cc1__finalize_update_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them (`V`); after
    the body at point `t` each input's buffer at its block and the output's at `out1_3` of the
    input blocks; the invariant leaves the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.KIReg2.lean ====
/- The class-A half of region 0 of @main (custom_call 0, `cc2__clause_message_kernel`, pipeline 0), generic in the
   float instance and stated at a parameter `V`, the TensorCore's buffer contents when the region is entered:
   each window's block at a grid point, what the body leaves in the output window's buffer as a function of the
   seven input blocks, the body's triple, the pipeline's proof data and its body obligation. -/
import proofs.«421163_j37864431681664_3_alg».proof.Proof.Gen.KernelIdeal.Launch
import proofs.«421163_j37864431681664_3_alg».proof.Proof.Gen.KernelIdeal.Skeleton
import proofs.«421163_j37864431681664_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the first layer's scale, one third, is a named constant of the float instance
variable [Named F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (where it is not
    fetched its block index has not moved since the point before), for any proof data whose array is `V`'s and
    whose body leaves the block in place; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (where it is not
    fetched its block index has not moved since the point before), for any proof data whose array is `V`'s and
    whose body leaves the block in place; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (where it is not
    fetched its block index has not moved since the point before), for any proof data whose array is `V`'s and
    whose body leaves the block in place; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not (where it is not
    fetched its block index has not moved since the point before), for any proof data whose array is `V`'s and
    whose body leaves the block in place; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not (where it is not
    fetched its block index has not moved since the point before), for any proof data whose array is `V`'s and
    whose body leaves the block in place; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not (where it is not
    fetched its block index has not moved since the point before), for any proof data whose array is `V`'s and
    whose body leaves the block in place; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not (where it is not
    fetched its block index has not moved since the point before), for any proof data whose array is `V`'s and
    whose body leaves the block in place; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read, and the output written, whole -/

abbrev r2_0 : Rect S4000x3x128 := Rect.unit (s := S4000x3x128) ![0, 0, 0] S4000x3x128.size inb_S4000x3x128_S4000x3x128_0_0_0
abbrev r2_1 : Rect S128x128 := Rect.unit (s := S128x128) ![0, 0] S128x128.size inb_S128x128_S128x128_0_0
abbrev r2_2 : Rect S128 := Rect.unit (s := S128) ![0] S128.size inb_S128_S128_0
abbrev r2_3 : Rect S128x128 := Rect.unit (s := S128x128) ![0, 0] S128x128.size inb_S128x128_S128x128_0_0
abbrev r2_4 : Rect S128 := Rect.unit (s := S128) ![0] S128.size inb_S128_S128_0
abbrev r2_5 : Rect S128x128 := Rect.unit (s := S128x128) ![0, 0] S128x128.size inb_S128x128_S128x128_0_0
abbrev r2_6 : Rect S128 := Rect.unit (s := S128) ![0] S128.size inb_S128_S128_0
abbrev r2_7 : Rect S4000x128 := Rect.unit (s := S4000x128) ![0, 0] S4000x128.size inb_S4000x128_S4000x128_0_0

/-! ## What the body leaves in the output window's buffer -/

/-- Window 7's staging buffer after the body, from the seven input blocks: its one store, over the whole buffer, of
    the three-layer message: the three rows' products with the first weight block, summed, scaled by the named
    constant one third, plus the first bias row; then twice more, rounded to bf16, a product with the next weight
    block plus the next bias row. -/
def out2_7 (x0 : Vec F S4000x3x128 .bf16) (x1 : Vec F S128x128 .bf16) (x2 : Vec F S128 .f32) (x3 : Vec F S128x128 .bf16) (x4 : Vec F S128 .f32) (x5 : Vec F S128x128 .bf16) (x6 : Vec F S128 .f32) : Vec F S4000x128 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store is of the whole buffer, so it covers it. -/
theorem cover2_7 (p0 : Vec F S4000x128 .f32) (y : S4000x128.Idx) :
    ∃ pc ∈ ([⟨r2_7, p0⟩] : List (View.Piece (Elt F) S4000x128 .f32)), y ∈ pc.1.set :=
  View.cover_of_tiled [⟨r2_7, p0⟩] S4000x128.size (by rfl) y

/-! ## The body's triple -/

set_option maxHeartbeats 1000000 in
/-- The kernel body on whole staging memrefs, the inputs' at contents `xW` and the output's at anything, runs to the
    continuation holding the inputs' as they were and the output's at `out2_7` of the inputs': seven whole loads (in
    the body's one part), a load of the output buffer whose value is unused, and the store. -/
theorem sound_kernel2 (c : Dev nD) (E : Set ℕ) (i : grid2.Coords) (arg0 : Memref sig .tc .vmem S4000x3x128 .bf16) (harg0 : arg0.IsWhole) (arg1 : Memref sig .tc .vmem S128x128 .bf16) (harg1 : arg1.IsWhole) (arg2 : Memref sig .tc .vmem S128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S128 .f32) (harg6 : arg6.IsWhole) (arg7 : Memref sig .tc .vmem S4000x128 .f32) (harg7 : arg7.IsWhole)
    (x0 : Vec F S4000x3x128 .bf16) (x1 : Vec F S128x128 .bf16) (x2 : Vec F S128 .f32) (x3 : Vec F S128x128 .bf16) (x4 : Vec F S128 .f32) (x5 : Vec F S128x128 .bf16) (x6 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__clause_message_kernel i arg0 harg0 arg1 harg1 arg2 harg2 arg3 harg3 arg4 harg4 arg5 harg5 arg6 harg6 arg7 harg7) K := by
  simp only [cc2__clause_message_kernel_eq_skeleton]; unfold cc2__clause_message_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 0 on core `c`: the arrays as the region finds them (`V`); after the body at point `t`
    each input's buffer at its block and the output's at `out2_7` of the input blocks; the invariant "the scoped rest
    and the generator register, untouched"; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Fr

end
-- ==== Proof.KIReg3.lean ====
/-
  REGION 1 of @main (the second kernel call: the node update that adds, to each of the four
  copies of a node block, the block of summed messages scaled row by row by the reciprocal of the
  row's count where that count is positive and by zero elsewhere), at the buffer contents `V` the
  region is entered with. For each grid point: the three input windows hold their blocks of the
  arrays; the body reads them, reads the output buffer once without using the value, and stores one
  full block; so the output buffer after the body is the canonical contents of that one store.
  The proof data, the facts about what each window holds before and after the body, and the body
  obligation of the pipeline follow.
-/
import proofs.«421163_j37864431681664_3_alg».proof.Proof.Gen.KernelIdeal.Launch
import proofs.«421163_j37864431681664_3_alg».proof.Proof.Gen.KernelIdeal.Skeleton
import proofs.«421163_j37864431681664_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region3
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the four node copies) holds its block at every point, for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the summed messages) likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the row counts) likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_0 : Rect S4x2000x128 := Rect.unit (s := S4x2000x128) ![0, 0, 0] S4x2000x128.size inb_S4x2000x128_S4x2000x128_0_0_0
abbrev r3_1 : Rect S2000x128 := Rect.unit (s := S2000x128) ![0, 0] S2000x128.size inb_S2000x128_S2000x128_0_0
abbrev r3_2 : Rect S2000x1 := Rect.unit (s := S2000x1) ![0, 0] S2000x1.size inb_S2000x1_S2000x1_0_0

/-! ## What the body leaves in the output window's buffer -/

/-- The output buffer after the body, from the input windows' blocks: the one store, whose value
    is the node copies plus the scaled messages. -/
def out3_3 (x0 : Vec F S4x2000x128 .f32) (x1 : Vec F S2000x128 .f32) (x2 : Vec F S2000x1 .f32) : Vec F S4x2000x128 .f32 :=
  View.canon [⟨r3_0, k3_pay1 (View.ld x2 r3_2) (View.ld x1 r3_1) (View.ld x0 r3_0)⟩]

/-- The one store is the whole buffer, so it covers it. -/
theorem cover3_3 (p0 : Vec F S4x2000x128 .f32) (y : S4x2000x128.Idx) :
    ∃ pc ∈ ([⟨r3_0, p0⟩] : List (View.Piece (Elt F) S4x2000x128 .f32)), y ∈ pc.1.set :=
  View.cover_of_tiled [⟨r3_0, p0⟩] S4x2000x128.size (by rfl) y

/-! ## The body's triple -/

set_option maxHeartbeats 1000000 in
/-- The kernel body on whole staging memrefs, the inputs' at read contents `xW` and the output's at
    anything, runs to the continuation holding the inputs' as they were and the output's at
    `out3_3` of the inputs'. -/
theorem sound_kernel3 (c : Dev nD) (E : Set ℕ) (i : grid3.Coords) (arg0 : Memref sig .tc .vmem S4x2000x128 .f32) (harg0 : arg0.IsWhole) (arg1 : Memref sig .tc .vmem S2000x128 .f32) (harg1 : arg1.IsWhole) (arg2 : Memref sig .tc .vmem S2000x1 .f32) (harg2 : arg2.IsWhole) (arg3 : Memref sig .tc .vmem S4x2000x128 .f32) (harg3 : arg3.IsWhole)
    (x0 : Vec F S4x2000x128 .f32) (x1 : Vec F S2000x128 .f32) (x2 : Vec F S2000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__finalize_update_kernel i arg0 harg0 arg1 harg1 arg2 harg2 arg3 harg3) K := by
  simp only [cc3__finalize_update_kernel_eq_skeleton]; unfold cc3__finalize_update_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`: the arrays as the region finds them (`V`); after
    the body at point `t` each input's buffer at its block and the output's at `out3_3` of the
    input blocks; the invariant leaves the scoped rest and the generator register untouched;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies;
    the invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Fr

end
-- ==== Proof.KIReg4Body.lean ====
import proofs.«421163_j37864431681664_3_alg».proof.Proof.Gen.KernelIdeal.Launch
import proofs.«421163_j37864431681664_3_alg».proof.Proof.Gen.KernelIdeal.Skeleton
import proofs.«421163_j37864431681664_3_alg».proof.Proof.Gen.KernelIdeal.Points
import Idealize.ShloMosaic.Lib.Pipeline.FrameBody
import Idealize.ShloMosaic.Lib.Ring
import Idealize.ShloMosaic.Lib.Tactic

/-! # The classifier body on one block of four rows

The body of the final classifier kernel reads its weights once and then, for each of the four rows
`b` of its block, reads row `b` of the input block, maps it through the two-layer classifier, and
writes the `2048` results to row `b` of the output block. This file states what the output block
holds afterwards, as a function of the five operands the body reads, and proves the body's triple. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's accesses -/

/-- Row `b` of the input block: a `[1,2048,128]` slab at offset `[b,0,0]`. -/
abbrev rX0 : Rect S4x2048x128 := Rect.unit (s := S4x2048x128) ![0, 0, 0] S1x2048x128.size inb_S4x2048x128_S1x2048x128_0_0_0
abbrev rX1 : Rect S4x2048x128 := Rect.unit (s := S4x2048x128) ![1, 0, 0] S1x2048x128.size inb_S4x2048x128_S1x2048x128_1_0_0
abbrev rX2 : Rect S4x2048x128 := Rect.unit (s := S4x2048x128) ![2, 0, 0] S1x2048x128.size inb_S4x2048x128_S1x2048x128_2_0_0
abbrev rX3 : Rect S4x2048x128 := Rect.unit (s := S4x2048x128) ![3, 0, 0] S1x2048x128.size inb_S4x2048x128_S1x2048x128_3_0_0
/-- The hidden layer's weight matrix, whole. -/
abbrev rW : Rect S128x128 := Rect.unit (s := S128x128) ![0, 0] S128x128.size inb_S128x128_S128x128_0_0
/-- A `128`-vector, whole: the hidden layer's bias and the output layer's weights. -/
abbrev rV : Rect S128 := Rect.unit (s := S128) ![0] S128.size inb_S128_S128_0
/-- The output layer's bias, one number. -/
abbrev rS : Rect S1 := Rect.unit (s := S1) ![0] S1.size inb_S1_S1_0
/-- Row `b` of the output block: a `[1,2048]` strip at offset `[b,0]`. -/
abbrev rY0 : Rect S4x2048 := Rect.unit (s := S4x2048) ![0, 0] S1x2048.size inb_S4x2048_S1x2048_0_0
abbrev rY1 : Rect S4x2048 := Rect.unit (s := S4x2048) ![1, 0] S1x2048.size inb_S4x2048_S1x2048_1_0
abbrev rY2 : Rect S4x2048 := Rect.unit (s := S4x2048) ![2, 0] S1x2048.size inb_S4x2048_S1x2048_2_0
abbrev rY3 : Rect S4x2048 := Rect.unit (s := S4x2048) ![3, 0] S1x2048.size inb_S4x2048_S1x2048_3_0

/-! ## What the body leaves in the output block -/

/-- The output block after the body, from the five operands: its four row stores as pieces, the last
    store first. Row `b` holds the classifier's value on row `b` of the input block `x0`, under the
    hidden layer's weights `x1` and bias `x2` and the output layer's weights `x3` and bias `x4`.
    The payloads are those of the generated skeleton; the weight matrix and the output weights
    enter rows 2 and 3 through their (identity) shape casts. -/
def out4_5 (x0 : Vec F S4x2048x128 .f32) (x1 : Vec F S128x128 .bf16) (x2 : Vec F S128 .f32) (x3 : Vec F S128 .bf16) (x4 : Vec F S1 .f32) : Vec F S4x2048 .f32 :=
  View.canon [⟨rY3, k4_pay1 (k4_pay8 (k4_pay2 (View.ld x1 rW)) (View.ld x2 rV) (k4_pay3 (View.ld x3 rV)) (View.ld x0 rX3)) (k4_pay9 (View.ld x4 rS))⟩,
    ⟨rY2, k4_pay7 (k4_pay2 (View.ld x1 rW)) (View.ld x2 rV) (k4_pay3 (View.ld x3 rV)) (View.ld x4 rS) (View.ld x0 rX2)⟩,
    ⟨rY1, k4_pay6 (View.ld x4 rS) (k4_pay5 (View.ld x1 rW) (View.ld x2 rV) (View.ld x3 rV) (View.ld x0 rX1))⟩,
    ⟨rY0, k4_pay4 (View.ld x1 rW) (View.ld x2 rV) (View.ld x3 rV) (View.ld x4 rS) (View.ld x0 rX0)⟩]

/-- The four row strips tile the output block (checked by evaluation), so they cover it. -/
theorem cover4_5 (p0 p1 p2 p3 : Vec F S1x2048 .f32) (y : S4x2048.Idx) :
    ∃ pc ∈ ([⟨rY3, p0⟩, ⟨rY2, p1⟩, ⟨rY1, p2⟩, ⟨rY0, p3⟩] : List (View.Piece (Elt F) S4x2048 .f32)), y ∈ pc.1.set :=
  View.cover_of_tiled [⟨rY3, p0⟩, ⟨rY2, p1⟩, ⟨rY1, p2⟩, ⟨rY0, p3⟩] S1x2048.size (by rfl) y

/-! ## The body's triple -/

set_option maxHeartbeats 4000000 in
/-- The body's triple. Given the five operand buffers, whole, holding `x0 … x4`, and the output
    block's buffer, whole, holding anything, the body runs to a continuation that receives the five
    operand buffers unchanged and the output block's buffer holding `out4_5 x0 x1 x2 x3 x4`. Before
    each row's store the body reads that row of the output block; the value read is not used. -/
theorem sound_kernel4 (c : Dev nD) (E : Set ℕ) (i : grid4.Coords) (arg1 : Memref sig .tc .vmem S4x2048x128 .f32) (harg1 : arg1.IsWhole) (arg2 : Memref sig .tc .vmem S128x128 .bf16) (harg2 : arg2.IsWhole) (arg3 : Memref sig .tc .vmem S128 .f32) (harg3 : arg3.IsWhole) (arg4 : Memref sig .tc .vmem S128 .bf16) (harg4 : arg4.IsWhole) (arg5 : Memref sig .tc .vmem S1 .f32) (harg5 : arg5.IsWhole) (arg6 : Memref sig .tc .vmem S4x2048 .f32) (harg6 : arg6.IsWhole)
    (x0 : Vec F S4x2048x128 .f32) (x1 : Vec F S128x128 .bf16) (x2 : Vec F S128 .f32) (x3 : Vec F S128 .bf16) (x4 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__final_classifier_kernel i arg1 harg1 arg2 harg2 arg3 harg3 arg4 harg4 arg5 harg5 arg6 harg6) K := by
  simp only [cc4__final_classifier_kernel_eq_skeleton]; unfold cc4__final_classifier_kernel_skel
  simp only [k4_part1_eq_skeleton]; unfold k4_part1_skel
  simp only [k4_part2_eq_skeleton]; unfold k4_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _ _ _ _)

end Cert.KernelIdeal.Fr

end
-- ==== Proof.ValHeadK.lean ====
/-
  The classifier head, one output cell at a time, at the ideal values. For each of the four rows of its
  [4, 2048, 128] input block and each of the 2048 positions the kernel computes
  h = max (x · W + b₁, 0) over the 128 hidden lanes, the lane sum of h ⊙ w₂ plus the bias b₂, and the
  logistic of that. Here each row's stored payload is read at a cell as that closed form.
-/
import proofs.«421163_j37864431681664_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.ValHeadK

open Cert.KernelIdeal Cert.KernelIdeal.Gen

/-- One output cell: the hidden layer's 128 lanes (input row times the weight matrix plus the first bias,
    clamped below by the zero word), weighted by the output weights, summed, shifted by the output bias,
    and passed through the logistic. \`w a o\` is the weight from input lane \`a\` to hidden lane \`o\`. -/
def headCellK (x : Fin 128 → EReal) (w : Fin 128 → Fin 128 → EReal) (b1 : Fin 128 → EReal) (w2 : Fin 128 → EReal)
    (b2 : EReal) : EReal :=
  Ideal.logistic ((∑ o : Fin 128, max ((∑ a : Fin 128, x a * w a o) + b1 o) (Ideal.ofBits .f32 0x00000000#32) * w2 o) + b2)

/-! ## The product's index maps -/

theorem lhs_0 (j : S2048x128.Idx) (k : dot_S2048x128_S128x128_S2048x128_1_0_0_1_n_n.contr.Idx) :
    (dot_S2048x128_S128x128_S2048x128_1_0_0_1_n_n.lhsIdx j k 0 : ℕ) = j 0 := by
  simp [DotDims.lhsIdx, dot_S2048x128_S128x128_S2048x128_1_0_0_1_n_n]; rfl
theorem lhs_1 (j : S2048x128.Idx) (k : dot_S2048x128_S128x128_S2048x128_1_0_0_1_n_n.contr.Idx) :
    (dot_S2048x128_S128x128_S2048x128_1_0_0_1_n_n.lhsIdx j k 1 : ℕ) = k ⟨0, by decide⟩ :=
  dot_S2048x128_S128x128_S2048x128_1_0_0_1_n_n.lhsIdx_val_of_single rfl j k
theorem rhs_0 (j : S2048x128.Idx) (k : dot_S2048x128_S128x128_S2048x128_1_0_0_1_n_n.contr.Idx) :
    (dot_S2048x128_S128x128_S2048x128_1_0_0_1_n_n.rhsIdx j k 0 : ℕ) = k ⟨0, by decide⟩ :=
  dot_S2048x128_S128x128_S2048x128_1_0_0_1_n_n.rhsIdx_val_of_single rfl j k
theorem rhs_1 (j : S2048x128.Idx) (k : dot_S2048x128_S128x128_S2048x128_1_0_0_1_n_n.contr.Idx) :
    (dot_S2048x128_S128x128_S2048x128_1_0_0_1_n_n.rhsIdx j k 1 : ℕ) = j 1 := by
  simp [DotDims.rhsIdx, dot_S2048x128_S128x128_S2048x128_1_0_0_1_n_n]; rfl

/-- The product into the zero accumulator, read at (r, o): the sum over the 128 input lanes. -/
theorem product_apply (lhs : FVec Ideal S2048x128 .bf16) (rhs : FVec Ideal S128x128 .bf16) (r : Fin 2048) (o : Fin 128) :
    matmul (F := Ideal) dot_S2048x128_S128x128_S2048x128_1_0_0_1_n_n none lhs rhs (constant S2048x128 .f32 0x00000000#32) (ix2 r o)
      = ∑ a : Fin 128, lhs (ix2 r a) * rhs (ix2 a o) := by
  refine (Ideal.matmul_constant_zero_apply dot_S2048x128_S128x128_S2048x128_1_0_0_1_n_n none lhs rhs (ix2 r o)).trans ?_
  rw [← Equiv.sum_comp (contrEquiv1 dot_S2048x128_S128x128_S2048x128_1_0_0_1_n_n 128 rfl rfl).symm]
  refine Finset.sum_congr rfl fun a _ => ?_
  congr 2
  · funext ax
    apply Fin.ext
    match ax with
    | ⟨0, _⟩ => exact lhs_0 _ _
    | ⟨1, _⟩ => exact (lhs_1 _ _).trans (contrEquiv1_symm_val _ 128 rfl rfl a)
  · funext ax
    apply Fin.ext
    match ax with
    | ⟨0, _⟩ => exact (rhs_0 _ _).trans (contrEquiv1_symm_val _ 128 rfl rfl a)
    | ⟨1, _⟩ => exact rhs_1 _ _

/-! ## The layout steps and the lane sum -/

/-- The lane sum over the 128 hidden lanes, read at position r. -/
theorem laneSum_apply (src : FVec Ideal S2048x128 .f32) (r : Fin 2048) :
    multiReduction (F := Ideal) .add [1] S2048 src 0x00000000#32 reduces_S2048x128_S2048 (.inl rfl) rfl (ix1 r)
      = ∑ o : Fin 128, src (ix2 r o) := by
  refine (Ideal.multiReduction_add_single src _ reduces_S2048x128_S2048 _ _ (ix1 r)).trans ?_
  refine Finset.sum_congr rfl fun o _ => congrArg src ?_
  funext ax
  apply Fin.ext
  match ax with
  | ⟨0, _⟩ => rfl
  | ⟨1, _⟩ => rfl

/-- The one-element bias broadcast over the 2048 positions reads its one element. -/
theorem biasOut_apply (b2 : Vec Ideal S1 .f32) (r : Fin 2048) :
    broadcastTo S2048 b2 broadcasts_S1_S2048 (ix1 r) = b2 (ix1 0) :=
  broadcastTo_apply b2 broadcasts_S1_S2048 (ix1 r) (ix1 0) fun a => by
    match a with
    | ⟨0, _⟩ => rfl

/-! ## The hidden layer times the output weights, at (r, o) -/

/-- The hidden layer of one row block, weighted lane by lane by the output weights: what the lane sum adds up. -/
def weighted (w : FVec Ideal S128x128 .bf16) (b1 : Vec Ideal S128 .f32) (w2 : FVec Ideal S128 .bf16)
    (x : Vec Ideal S1x2048x128 .f32) : FVec Ideal S2048x128 .f32 :=
  mulf
    (maximumf
      (addf
        (matmul dot_S2048x128_S128x128_S2048x128_1_0_0_1_n_n none
          (truncf .bf16 (shapeCast S2048x128 x shapeCasts_S1x2048x128_S2048x128) bitsLt_bf16_f32) w
          (constant S2048x128 .f32 0x00000000#32))
        (broadcastTo S2048x128 (shapeCast S1x128 b1 shapeCasts_S128_S1x128) broadcasts_S1x128_S2048x128))
      (broadcast S2048x128 (Scalar.ofBits .f32 0x00000000#32)))
    (broadcastTo S2048x128 (extf .f32 (shapeCast S1x128 w2 shapeCasts_S128_S1x128) bitsLt_bf16_f32) broadcasts_S1x128_S2048x128)

theorem weighted_apply (w : FVec Ideal S128x128 .bf16) (b1 : Vec Ideal S128 .f32) (w2 : FVec Ideal S128 .bf16)
    (x : Vec Ideal S1x2048x128 .f32) (r : Fin 2048) (o : Fin 128) :
    weighted w b1 w2 x (ix2 r o)
      = max ((∑ a : Fin 128, x (ix3 0 r a) * w (ix2 a o)) + b1 (ix1 o)) (Ideal.ofBits .f32 0x00000000#32) * w2 (ix1 o) := by
  unfold weighted
  rw [mulf_apply, maximumf_apply, addf_apply, product_apply, broadcastTo_1b_ab_apply, broadcastTo_1b_ab_apply,
    extf_apply, shapeCast_a_1a_apply, shapeCast_a_1a_apply]
  simp only [truncf_apply, shapeCast_1ab_ab_apply]
  rfl

/-- The rest of a row's computation from the weighted hidden layer: lane sum, bias, logistic, at position r. -/
theorem cell_of_weighted (b2 : Vec Ideal S1 .f32) (h : FVec Ideal S2048x128 .f32) (r : Fin 2048) :
    k4_pay6 (F := Ideal) b2 h (ix2 0 r) = Ideal.logistic ((∑ o : Fin 128, h (ix2 r o)) + b2 (ix1 0)) := by
  unfold k4_pay6
  rw [shapeCast_a_1a_apply]
  show Ideal.logistic (_ + _) = _
  rw [laneSum_apply, biasOut_apply]

/-- A row's cell from its weights and input block. -/
theorem cell_apply (w : FVec Ideal S128x128 .bf16) (b1 : Vec Ideal S128 .f32) (w2 : FVec Ideal S128 .bf16)
    (b2 : Vec Ideal S1 .f32) (x : Vec Ideal S1x2048x128 .f32) (r : Fin 2048) :
    k4_pay6 (F := Ideal) b2 (weighted w b1 w2 x) (ix2 0 r)
      = headCellK (fun a => x (ix3 0 r a)) (fun a o => w (ix2 a o)) (fun a => b1 (ix1 a)) (fun a => w2 (ix1 a)) (b2 (ix1 0)) := by
  rw [cell_of_weighted]
  unfold headCellK
  simp only [weighted_apply]

/-! ## The four rows -/

theorem row0_apply (v0 : Vec Ideal S128x128 .bf16) (v2 : Vec Ideal S128 .f32) (v3 : Vec Ideal S128 .bf16) (v5 : Vec Ideal S1 .f32)
    (v6 : Vec Ideal S1x2048x128 .f32) (r : Fin 2048) :
    k4_pay4 (F := Ideal) v0 v2 v3 v5 v6 (ix2 0 r)
      = headCellK (fun a => v6 (ix3 0 r a)) (fun a o => v0 (ix2 a o)) (fun a => v2 (ix1 a)) (fun a => v3 (ix1 a)) (v5 (ix1 0)) := by
  have e : k4_pay4 (F := Ideal) v0 v2 v3 v5 v6 = k4_pay6 v5 (weighted v0 v2 v3 v6) := by
    unfold k4_pay4 k4_pay6 weighted k4_pay2 k4_pay3
    rw [shapeCast_self, shapeCast_self]
  rw [e, cell_apply]

theorem row1_apply (v0 : Vec Ideal S128x128 .bf16) (v2 : Vec Ideal S128 .f32) (v3 : Vec Ideal S128 .bf16) (v5 : Vec Ideal S1 .f32)
    (v26 : Vec Ideal S1x2048x128 .f32) (r : Fin 2048) :
    k4_pay6 (F := Ideal) v5 (k4_pay5 v0 v2 v3 v26) (ix2 0 r)
      = headCellK (fun a => v26 (ix3 0 r a)) (fun a o => v0 (ix2 a o)) (fun a => v2 (ix1 a)) (fun a => v3 (ix1 a)) (v5 (ix1 0)) := by
  have e : k4_pay5 (F := Ideal) v0 v2 v3 v26 = weighted v0 v2 v3 v26 := by
    unfold k4_pay5 weighted k4_pay2 k4_pay3
    rw [shapeCast_self, shapeCast_self]
  rw [e, cell_apply]

theorem row2_apply (v0 : Vec Ideal S128x128 .bf16) (v2 : Vec Ideal S128 .f32) (v3 : Vec Ideal S128 .bf16) (v5 : Vec Ideal S1 .f32)
    (v46 : Vec Ideal S1x2048x128 .f32) (r : Fin 2048) :
    k4_pay7 (F := Ideal) (k4_pay2 v0) v2 (k4_pay3 v3) v5 v46 (ix2 0 r)
      = headCellK (fun a => v46 (ix3 0 r a)) (fun a o => v0 (ix2 a o)) (fun a => v2 (ix1 a)) (fun a => v3 (ix1 a)) (v5 (ix1 0)) := by
  have e : k4_pay7 (F := Ideal) (k4_pay2 v0) v2 (k4_pay3 v3) v5 v46 = k4_pay6 v5 (weighted v0 v2 v3 v46) := by
    unfold k4_pay7 k4_pay6 weighted k4_pay2 k4_pay3
    rw [shapeCast_self, shapeCast_self]
  rw [e, cell_apply]

theorem row3_apply (v0 : Vec Ideal S128x128 .bf16) (v2 : Vec Ideal S128 .f32) (v3 : Vec Ideal S128 .bf16) (v5 : Vec Ideal S1 .f32)
    (v66 : Vec Ideal S1x2048x128 .f32) (r : Fin 2048) :
    k4_pay1 (F := Ideal) (k4_pay8 (k4_pay2 v0) v2 (k4_pay3 v3) v66) (k4_pay9 v5) (ix2 0 r)
      = headCellK (fun a => v66 (ix3 0 r a)) (fun a o => v0 (ix2 a o)) (fun a => v2 (ix1 a)) (fun a => v3 (ix1 a)) (v5 (ix1 0)) := by
  have e : k4_pay1 (F := Ideal) (k4_pay8 (k4_pay2 v0) v2 (k4_pay3 v3) v66) (k4_pay9 v5) = k4_pay6 v5 (weighted v0 v2 v3 v66) := by
    unfold k4_pay1 k4_pay8 k4_pay9 k4_pay6 weighted k4_pay2 k4_pay3
    rw [shapeCast_self, shapeCast_self]
  rw [e, cell_apply]

end Cert.ValHeadK

end
-- ==== Proof.KIReg4.lean ====
/-
  REGION 4 of @main (the fifth kernel call: the final classifier), at the buffer contents `V` the
  region is entered with, over the extended reals. The grid walks the node axis of the state
  [4, 50000, 128] in 25 blocks of 2048 nodes; the last block reaches past the array's end: only its
  first 848 nodes are inside, so its fetch fills only that part of the staging buffer and its
  write-back writes only that part of the output block. The body reads the weights once and, for
  each of the four rows of the block, maps each node's 128 lanes through the two-layer classifier.
  An output cell at (row, position) depends on the state block at that row and position only: so
  what the body leaves on the part of the output block inside the array is determined by the part
  of the state block inside the array, whatever the rest of the staging buffer holds. This file
  gives the proof data of the pipeline, its body obligation (stated, for the two windows whose last
  block overhangs, on the part their transfers move), and the output array after the region in
  closed form: at copy `b`, node `n` the classifier's value on the state at (`b`, `n`).
-/
import proofs.«421163_j37864431681664_3_alg».proof.Proof.Gen.KernelIdeal.Launch
import proofs.«421163_j37864431681664_3_alg».proof.Proof.Gen.KernelIdeal.Skeleton
import proofs.«421163_j37864431681664_3_alg».proof.Proof.Gen.KernelIdeal.Points
import proofs.«421163_j37864431681664_3_alg».proof.Proof.KIReg4Body
import proofs.«421163_j37864431681664_3_alg».proof.Proof.ValHeadK
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ValHeadK (headCellK)

local notation "𝕄" => MT nD τ sig Unit (Elt Ideal) ℕ (UR sig nD τ) ℕ

/-! ## The output block, cell by cell -/

theorem hz1 : (![0] : Fin 1 → Nat) = fun _ => 0 := funext fun a => by fin_cases a <;> rfl
theorem hz2 : (![0, 0] : Fin 2 → Nat) = fun _ => 0 := funext fun a => by fin_cases a <;> rfl

/-- A position of a one-row strip is its column. -/
theorem strip_idx (x : S1x2048.Idx) : x = ix2 (0 : Fin 1) (x 1) := by
  funext a
  match a with
  | ⟨0, _⟩ =>
    exact Fin.ext (by have h : (x 0).val < 1 := (x 0).isLt; show (x 0).val = 0; omega)
  | ⟨1, _⟩ => rfl

/-- The classifier's value on every row and position of a `[4,2048,128]` block: at row `b`,
    position `r`, the two-layer classifier of the 128 lanes of the block at (`b`, `r`). -/
def headBlk (x0 : Vec Ideal S4x2048x128 .f32) (x1 : Vec Ideal S128x128 .bf16) (x2 : Vec Ideal S128 .f32) (x3 : Vec Ideal S128 .bf16) (x4 : Vec Ideal S1 .f32) :
    Vec Ideal S4x2048 .f32 :=
  fun y => headCellK (fun a => x0 (ix3 (y 0) (y 1) a)) (fun a o => x1 (ix2 a o)) (fun a => x2 (ix1 a)) (fun a => x3 (ix1 a)) (x4 (ix1 0))

/-- A row slab's cell is the block's cell, when the slab is row `b` of the block and the output
    index is (`b`, `r`). -/
theorem headBlk_row (x0 : Vec Ideal S4x2048x128 .f32) (x1 : Vec Ideal S128x128 .bf16) (x2 : Vec Ideal S128 .f32) (x3 : Vec Ideal S128 .bf16) (x4 : Vec Ideal S1 .f32)
    (b : Fin 4) (r : Fin 2048) (i : S4x2048.Idx) (h0 : (i 0).val = b.val) (h1 : (i 1).val = r.val)
    (x : Vec Ideal S1x2048x128 .f32) (hx : ∀ a : Fin 128, x (ix3 0 r a) = x0 (ix3 b r a)) :
    headCellK (fun a => x (ix3 0 r a)) (fun a o => x1 (ix2 a o)) (fun a => x2 (ix1 a)) (fun a => x3 (ix1 a)) (x4 (ix1 0))
      = headBlk x0 x1 x2 x3 x4 i := by
  unfold headBlk
  have e0 : i 0 = b := Fin.ext h0
  have e1 : i 1 = r := Fin.ext h1
  rw [e0, e1]
  simp only [hx]

/-- Row `b` of the block, loaded as a `[1,2048,128]` slab, at position `r` and lane `a`. -/
theorem ldX0 (x0 : Vec Ideal S4x2048x128 .f32) (r : Fin 2048) (a : Fin 128) : View.ld x0 rX0 (ix3 0 r a) = x0 (ix3 0 r a) := by
  show x0 (rX0.idx (ix3 0 r a)) = _
  refine congrArg x0 (funext fun ax => Fin.ext ?_)
  match ax with
  | ⟨0, _⟩ => rfl
  | ⟨1, _⟩ => show 0 + 1 * r.val = r.val; omega
  | ⟨2, _⟩ => show 0 + 1 * a.val = a.val; omega
theorem ldX1 (x0 : Vec Ideal S4x2048x128 .f32) (r : Fin 2048) (a : Fin 128) : View.ld x0 rX1 (ix3 0 r a) = x0 (ix3 1 r a) := by
  show x0 (rX1.idx (ix3 0 r a)) = _
  refine congrArg x0 (funext fun ax => Fin.ext ?_)
  match ax with
  | ⟨0, _⟩ => rfl
  | ⟨1, _⟩ => show 0 + 1 * r.val = r.val; omega
  | ⟨2, _⟩ => show 0 + 1 * a.val = a.val; omega
theorem ldX2 (x0 : Vec Ideal S4x2048x128 .f32) (r : Fin 2048) (a : Fin 128) : View.ld x0 rX2 (ix3 0 r a) = x0 (ix3 2 r a) := by
  show x0 (rX2.idx (ix3 0 r a)) = _
  refine congrArg x0 (funext fun ax => Fin.ext ?_)
  match ax with
  | ⟨0, _⟩ => rfl
  | ⟨1, _⟩ => show 0 + 1 * r.val = r.val; omega
  | ⟨2, _⟩ => show 0 + 1 * a.val = a.val; omega
theorem ldX3 (x0 : Vec Ideal S4x2048x128 .f32) (r : Fin 2048) (a : Fin 128) : View.ld x0 rX3 (ix3 0 r a) = x0 (ix3 3 r a) := by
  show x0 (rX3.idx (ix3 0 r a)) = _
  refine congrArg x0 (funext fun ax => Fin.ext ?_)
  match ax with
  | ⟨0, _⟩ => rfl
  | ⟨1, _⟩ => show 0 + 1 * r.val = r.val; omega
  | ⟨2, _⟩ => show 0 + 1 * a.val = a.val; omega

/-- What the body leaves in the output block is the classifier's value on the input block, cell
    by cell: each of the four row stores holds its row's values, and the four rows tile the block. -/
theorem out4_5_eq (x0 : Vec Ideal S4x2048x128 .f32) (x1 : Vec Ideal S128x128 .bf16) (x2 : Vec Ideal S128 .f32) (x3 : Vec Ideal S128 .bf16) (x4 : Vec Ideal S1 .f32) :
    out4_5 x0 x1 x2 x3 x4 = headBlk x0 x1 x2 x3 x4 := by
  funext y
  have hW : View.ld x1 rW = x1 := View.ld_unit_zero hz2 _ x1
  have hV2 : View.ld x2 rV = x2 := View.ld_unit_zero hz1 _ x2
  have hV3 : View.ld x3 rV = x3 := View.ld_unit_zero hz1 _ x3
  have hS : View.ld x4 rS = x4 := View.ld_unit_zero hz1 _ x4
  unfold out4_5
  rw [hW, hV2, hV3, hS]
  refine View.canon_apply_of_pieces (headBlk x0 x1 x2 x3 x4) _ ?_ y (cover4_5 _ _ _ _ y)
  intro p hp x
  simp only [List.mem_cons, List.mem_singleton, List.not_mem_nil, or_false] at hp
  rcases hp with rfl | rfl | rfl | rfl
  · obtain ⟨r, rfl⟩ : ∃ r, x = ix2 (0 : Fin 1) r := ⟨x 1, strip_idx x⟩
    show k4_pay1 (F := Ideal) _ _ (ix2 0 r) = headBlk x0 x1 x2 x3 x4 (rY3.emb (ix2 0 r))
    rw [Cert.ValHeadK.row3_apply]
    exact headBlk_row x0 x1 x2 x3 x4 3 r _ rfl (by show 0 + 1 * r.val = r.val; omega) _ (ldX3 x0 r)
  · obtain ⟨r, rfl⟩ : ∃ r, x = ix2 (0 : Fin 1) r := ⟨x 1, strip_idx x⟩
    show k4_pay7 (F := Ideal) _ _ _ _ _ (ix2 0 r) = headBlk x0 x1 x2 x3 x4 (rY2.emb (ix2 0 r))
    rw [Cert.ValHeadK.row2_apply]
    exact headBlk_row x0 x1 x2 x3 x4 2 r _ rfl (by show 0 + 1 * r.val = r.val; omega) _ (ldX2 x0 r)
  · obtain ⟨r, rfl⟩ : ∃ r, x = ix2 (0 : Fin 1) r := ⟨x 1, strip_idx x⟩
    show k4_pay6 (F := Ideal) _ _ (ix2 0 r) = headBlk x0 x1 x2 x3 x4 (rY1.emb (ix2 0 r))
    rw [Cert.ValHeadK.row1_apply]
    exact headBlk_row x0 x1 x2 x3 x4 1 r _ rfl (by show 0 + 1 * r.val = r.val; omega) _ (ldX1 x0 r)
  · obtain ⟨r, rfl⟩ : ∃ r, x = ix2 (0 : Fin 1) r := ⟨x 1, strip_idx x⟩
    show k4_pay4 (F := Ideal) _ _ _ _ _ (ix2 0 r) = headBlk x0 x1 x2 x3 x4 (rY0.emb (ix2 0 r))
    rw [Cert.ValHeadK.row0_apply]
    exact headBlk_row x0 x1 x2 x3 x4 0 r _ rfl (by show 0 + 1 * r.val = r.val; omega) _ (ldX0 x0 r)

/-- The output block at row `b`, position `r`. -/
theorem out4_5_apply (x0 : Vec Ideal S4x2048x128 .f32) (x1 : Vec Ideal S128x128 .bf16) (x2 : Vec Ideal S128 .f32) (x3 : Vec Ideal S128 .bf16) (x4 : Vec Ideal S1 .f32)
    (b : Fin 4) (r : Fin 2048) :
    out4_5 x0 x1 x2 x3 x4 (ix2 b r) = headCellK (fun a => x0 (ix3 b r a)) (fun a o => x1 (ix2 a o)) (fun a => x2 (ix1 a)) (fun a => x3 (ix1 a)) (x4 (ix1 0)) := by
  rw [out4_5_eq]; rfl

section Region4
-- the core's buffer contents when the region is entered
variable (V : (c : Dev nD) → (b : Ref sig .tc) → Buf (Elt Ideal) ((c : Thread nD τ).loc b))

/-! ## The windows' blocks -/

/-- Window `w`'s block at point `t`, read off its array as the region finds it: for the two windows
    whose last block overhangs the node axis, the part of the block inside the array. -/
def iblk4 (c : Dev nD) (w : Fin cfg4.W) (t : Fin cfg4.N) : ((cfg4.win w).xblock (cfg4.grid.coords t)).Idx → Elt Ideal (cfg4.win w).elt :=
  ((cfg4.win w).blk t).view.read (Elt Ideal) (V c (Pipeline.arrRef spec4 w))

/-- The state block at point `t` as a full `[4,2048,128]` block: its part inside the array, and the
    zero word on the rows past the array's end (at the last point only). -/
def xblk4 (c : Dev nD) (t : Fin cfg4.N) : Vec Ideal S4x2048x128 .f32 :=
  win4_0.fill (grid4.coords t) (fun _ => Scalar.ofBits (F := Ideal) .f32 0#32) (iblk4 V c 0 t)

/-- The weights and biases (windows 1 to 4: whole arrays, fetched at the first point only) hold
    their arrays at every point, for any proof data whose array is `V`'s and whose body leaves the
    block in place. -/
theorem before4_1_of {c : Dev nD} (dat : Dat τ (Elt Ideal) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt Ideal) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt Ideal) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt Ideal) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The pipeline's proof data -/

/-- The proof data of this pipeline on core `c`: the arrays as the region finds them (`V`); after
    the body at point `t` the state's buffer at its block filled out with the zero word, the weights'
    and biases' at their arrays, and the output's at the classifier's value on those; the invariant
    leaves the scoped rest untouched; nothing owed; full shares. -/
def dat4 (c : Dev nD) : Dat τ (Elt Ideal) Unit ℕ (UR sig nD τ) ℕ cfg4 c where
  A w := V c (Pipeline.arrRef spec4 w)
  after w t := match w with
    | ⟨0, _⟩ => xblk4 V c t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (xblk4 V c t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = xblk4 V c t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (xblk4 V c t) (iblk4 V c 1 t) (iblk4 V c 2 t) (iblk4 V c 3 t) (iblk4 V c 4 t) := by dsimp only [dat4]

/-- The state's buffer, fetched at every point, holds its block on the rows inside the array and
    whatever it held (`d`) past the array's end. -/
theorem before4_0 (c : Dev nD) (t : Fin cfg4.N) (d) :
    (dat4 V c).before 0 t d = win4_0.fill (grid4.coords t) d (iblk4 V c 0 t) := by
  unfold Dat.before; rw [if_pos (fetch4_0 t)]; rfl
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The cut sizes, decided over the grid -/

/-- The parts of the state's and the output's blocks inside their arrays: all four rows and all 128
    lanes, and on the node axis the same number of positions for both windows: 2048, but for the
    last point, whose block has 848 positions inside the arrays. -/
theorem xs_facts4 : ∀ t : Fin cfg4.N,
    win4_0.xsize (grid4.coords t) (0 : Fin 3) = 4 ∧ win4_0.xsize (grid4.coords t) (1 : Fin 3) = win4_5.xsize (grid4.coords t) (1 : Fin 2)
    ∧ win4_0.xsize (grid4.coords t) (2 : Fin 3) = 128 ∧ win4_5.xsize (grid4.coords t) (0 : Fin 2) = 4
    ∧ win4_5.xsize (grid4.coords t) (1 : Fin 2) = min 2048 (50000 - 2048 * t.val) :=
  (by decide +kernel : ∀ t : Fin grid4.N, _)

/-- Two fillings of one block agree wherever the fetch lands. -/
theorem fill_agree4 (t : Fin cfg4.N) (d d' : S4x2048x128.Idx → Elt Ideal .f32)
    (g : (win4_0.xblock (grid4.coords t)).Idx → Elt Ideal .f32) (j : S4x2048x128.Idx)
    (hj : win4_0.moved (grid4.coords t) j = true) :
    win4_0.fill (grid4.coords t) d g j = win4_0.fill (grid4.coords t) d' g j := by
  unfold Window.fill; rw [dif_pos hj, dif_pos hj]

/-- The output cell at row `b`, position `r` reads position `r` of row `b` of the state block only: so
    the part of the output block inside the array is the same for two state blocks that agree on
    their parts inside the array. -/
theorem out_cut_congr4 (t : Fin cfg4.N) (X X' : Vec Ideal S4x2048x128 .f32) (x1 : Vec Ideal S128x128 .bf16) (x2 : Vec Ideal S128 .f32)
    (x3 : Vec Ideal S128 .bf16) (x4 : Vec Ideal S1 .f32)
    (h : ∀ j, win4_0.moved (grid4.coords t) j = true → X j = X' j) :
    win4_5.cut (grid4.coords t) (out4_5 X x1 x2 x3 x4) = win4_5.cut (grid4.coords t) (out4_5 X' x1 x2 x3 x4) := by
  obtain ⟨e0, e1, e2, e3, e4⟩ := xs_facts4 t
  funext j
  show out4_5 X x1 x2 x3 x4 (win4_5.xinj (grid4.coords t) j) = out4_5 X' x1 x2 x3 x4 (win4_5.xinj (grid4.coords t) j)
  rw [out4_5_eq, out4_5_eq]
  unfold headBlk
  refine congrArg (fun f => headCellK f (fun a o => x1 (ix2 a o)) (fun a => x2 (ix1 a)) (fun a => x3 (ix1 a)) (x4 (ix1 0))) (funext fun a => h _ ?_)
  rw [Window.moved_iff]
  intro ax
  match ax with
  | ⟨0, _⟩ =>
    show ((win4_5.xinj (grid4.coords t) j) 0).val < win4_0.xsize (grid4.coords t) (0 : Fin 3)
    rw [e0]; exact ((win4_5.xinj (grid4.coords t) j) 0).isLt
  | ⟨1, _⟩ =>
    show (j 1).val < win4_0.xsize (grid4.coords t) (1 : Fin 3)
    rw [e1]; exact (j 1).isLt
  | ⟨2, _⟩ =>
    show a.val < win4_0.xsize (grid4.coords t) (2 : Fin 3)
    rw [e2]; exact a.isLt

/-! ## The body obligation -/

/-- The pipeline's body obligation, at every point: the state's buffer arrives holding its block
    on the rows inside the array and anything past them, the weights' and biases' theirs, the
    output's anything; the body leaves the inputs as they were and the output at the classifier's
    value on them, which on the positions inside the array is its value on the block filled out
    with the zero word: all the obligation states of the two windows whose last block overhangs. -/
theorem body_obligation4 (c : Dev nD) : BodyObligationLoose (dat4 V c) (defs₀ (F := Ideal)) Variants.none () Set.univ := fun t => by
  rw [bigSep_W4, bigSep_W4]
  simp only
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before4_0 V c t d0, before4_1 V c t d1, before4_2 V c t d2, before4_3 V c t d3, before4_4 V c t d4]
  iapply (sound_kernel4 (F := Ideal) c Set.univ _ _ _ _ _ _ _ _ _ _ _ _ _
    (win4_0.fill (grid4.coords t) d0 (iblk4 V c 0 t)) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  have hx : win4_0.cut (grid4.coords t) (xblk4 V c t) = iblk4 V c 0 t := win4_0.cut_fill _ _ _
  have hy : win4_5.fill (grid4.coords t)
        (out4_5 (win4_0.fill (grid4.coords t) d0 (iblk4 V c 0 t)) (iblk4 V c 1 t) (iblk4 V c 2 t) (iblk4 V c 3 t) (iblk4 V c 4 t))
        (win4_5.cut (grid4.coords t) (out4_5 (xblk4 V c t) (iblk4 V c 1 t) (iblk4 V c 2 t) (iblk4 V c 3 t) (iblk4 V c 4 t)))
      = out4_5 (win4_0.fill (grid4.coords t) d0 (iblk4 V c 0 t)) (iblk4 V c 1 t) (iblk4 V c 2 t) (iblk4 V c 3 t) (iblk4 V c 4 t) :=
    win4_5.fill_congr_cut _ (out_cut_congr4 t _ _ _ _ _ _ fun j hj => fill_agree4 t _ _ _ j hj)
  isplitl [H0]
  · iexists d0
    change _ ⊢ owns (c : Thread nD τ) (st4_0 t) fullShare (win4_0.fill (grid4.coords t) d0 (win4_0.cut (grid4.coords t) (xblk4 V c t)))
    rw [hx]; try iexact H0
  isplitl [H1]; · iexact H1
  isplitl [H2]; · iexact H2
  isplitl [H3]; · iexact H3
  isplitl [H4]; · iexact H4
  · have hy' : (win4 5).fill (grid4.coords t) (out4_5 (win4_0.fill (grid4.coords t) d0 (iblk4 V c 0 t)) (iblk4 V c 1 t) (iblk4 V c 2 t) (iblk4 V c 3 t) (iblk4 V c 4 t))
        ((win4 5).cut (grid4.coords t) ((dat4 V c).after 5 t)) = (out4_5 (win4_0.fill (grid4.coords t) d0 (iblk4 V c 0 t)) (iblk4 V c 1 t) (iblk4 V c 2 t) (iblk4 V c 3 t) (iblk4 V c 4 t)) := by
      rw [after4_5 V c t]; exact hy
    iexists (out4_5 (win4_0.fill (grid4.coords t) d0 (iblk4 V c 0 t)) (iblk4 V c 1 t) (iblk4 V c 2 t) (iblk4 V c 3 t) (iblk4 V c 4 t))
    rw [hy']; try iexact H5

/-! ## The output array in closed form -/

/-- The state array (four copies of every node row) as the region finds it. -/
abbrev arr4_0 (c : Dev nD) : Vec Ideal S4x50000x128 .f32 := V c (Pipeline.arrRef spec4 0)
/-- The hidden layer's weight matrix. -/
abbrev arr4_1 (c : Dev nD) : Vec Ideal S128x128 .bf16 := V c (Pipeline.arrRef spec4 1)
/-- The hidden layer's bias. -/
abbrev arr4_2 (c : Dev nD) : Vec Ideal S128 .f32 := V c (Pipeline.arrRef spec4 2)
/-- The output layer's weights. -/
abbrev arr4_3 (c : Dev nD) : Vec Ideal S128 .bf16 := V c (Pipeline.arrRef spec4 3)
/-- The output layer's bias. -/
abbrev arr4_4 (c : Dev nD) : Vec Ideal S1 .f32 := V c (Pipeline.arrRef spec4 4)

/-- The classifier's value on every copy and node, from the five arrays. -/
def head4 (a0 : Vec Ideal S4x50000x128 .f32) (a1 : Vec Ideal S128x128 .bf16) (a2 : Vec Ideal S128 .f32) (a3 : Vec Ideal S128 .bf16) (a4 : Vec Ideal S1 .f32) :
    Vec Ideal S4x50000 .f32 :=
  fun i => headCellK (fun a => a0 (ix3 (i 0) (i 1) a)) (fun a o => a1 (ix2 a o)) (fun a => a2 (ix1 a)) (fun a => a3 (ix1 a)) (a4 (ix1 0))

/-- The printed index maps, decided over the grid: on the node axis the state's and the output's
    block index is the point itself, on every other axis and for every other window it is zero. -/
theorem idx_facts4 : ∀ t : Fin cfg4.N,
    win4_0.index t (0 : Fin 3) = 0 ∧ win4_0.index t (1 : Fin 3) = t.val ∧ win4_0.index t (2 : Fin 3) = 0
    ∧ win4_1.index t (0 : Fin 2) = 0 ∧ win4_1.index t (1 : Fin 2) = 0
    ∧ win4_2.index t (0 : Fin 1) = 0 ∧ win4_3.index t (0 : Fin 1) = 0 ∧ win4_4.index t (0 : Fin 1) = 0
    ∧ win4_5.index t (0 : Fin 2) = 0 ∧ win4_5.index t (1 : Fin 2) = t.val :=
  (by decide +kernel : ∀ t : Fin grid4.N, _)

/-! ### Each input block, read where the output's rectangle says -/

/-- The weight matrix's block is the matrix. -/
theorem blk4_1_at (c : Dev nD) (t : Fin cfg4.N) (a o : Fin 128) :
    (iblk4 V c 1 t : Vec Ideal S128x128 .bf16) (ix2 a o) = arr4_1 V c (ix2 a o) := by
  obtain ⟨e00, e01, e02, e10, e11, e2, e3, e4, e50, e51⟩ := idx_facts4 t
  show V c (Pipeline.arrRef spec4 1) (((cfg4.win 1).blk t).view.emb (ix2 a o)) = V c (Pipeline.arrRef spec4 1) _
  refine congrArg _ ?_
  funext ax; apply Fin.ext
  match ax with
  | ⟨0, _⟩ => show win4_1.index t (0 : Fin 2) * 128 + 1 * a.val = a.val; omega
  | ⟨1, _⟩ => show win4_1.index t (1 : Fin 2) * 128 + 1 * o.val = o.val; omega
/-- The hidden bias's block is the bias. -/
theorem blk4_2_at (c : Dev nD) (t : Fin cfg4.N) (a : Fin 128) :
    (iblk4 V c 2 t : Vec Ideal S128 .f32) (ix1 a) = arr4_2 V c (ix1 a) := by
  obtain ⟨e00, e01, e02, e10, e11, e2, e3, e4, e50, e51⟩ := idx_facts4 t
  show V c (Pipeline.arrRef spec4 2) (((cfg4.win 2).blk t).view.emb (ix1 a)) = V c (Pipeline.arrRef spec4 2) _
  refine congrArg _ ?_
  funext ax; apply Fin.ext
  match ax with
  | ⟨0, _⟩ => show win4_2.index t (0 : Fin 1) * 128 + 1 * a.val = a.val; omega
/-- The output weights' block is the weights. -/
theorem blk4_3_at (c : Dev nD) (t : Fin cfg4.N) (a : Fin 128) :
    (iblk4 V c 3 t : Vec Ideal S128 .bf16) (ix1 a) = arr4_3 V c (ix1 a) := by
  obtain ⟨e00, e01, e02, e10, e11, e2, e3, e4, e50, e51⟩ := idx_facts4 t
  show V c (Pipeline.arrRef spec4 3) (((cfg4.win 3).blk t).view.emb (ix1 a)) = V c (Pipeline.arrRef spec4 3) _
  refine congrArg _ ?_
  funext ax; apply Fin.ext
  match ax with
  | ⟨0, _⟩ => show win4_3.index t (0 : Fin 1) * 128 + 1 * a.val = a.val; omega
/-- The output bias's block is the bias. -/
theorem blk4_4_at (c : Dev nD) (t : Fin cfg4.N) :
    (iblk4 V c 4 t : Vec Ideal S1 .f32) (ix1 0) = arr4_4 V c (ix1 0) := by
  obtain ⟨e00, e01, e02, e10, e11, e2, e3, e4, e50, e51⟩ := idx_facts4 t
  show V c (Pipeline.arrRef spec4 4) (((cfg4.win 4).blk t).view.emb (ix1 0)) = V c (Pipeline.arrRef spec4 4) _
  refine congrArg _ ?_
  funext ax; apply Fin.ext
  match ax with
  | ⟨0, _⟩ => show win4_4.index t (0 : Fin 1) * 1 + 1 * 0 = 0; omega

/-- The filled-out state block at point `t`, at a row, a position inside the array and a lane, is
    the state array at that row, lane and the position's node: `2048 t` plus the position. -/
theorem xblk4_at (c : Dev nD) (t : Fin cfg4.N) (j : (win4_5.xblock (grid4.coords t)).Idx) (a : Fin 128) :
    xblk4 V c t (ix3 ((win4_5.xinj (grid4.coords t) j) 0) ((win4_5.xinj (grid4.coords t) j) 1) a)
      = arr4_0 V c (ix3 ((((cfg4.win 5).blk t).view.emb j) 0) ((((cfg4.win 5).blk t).view.emb j) 1) a) := by
  obtain ⟨e00, e01, e02, e10, e11, e2, e3, e4, e50, e51⟩ := idx_facts4 t
  obtain ⟨s0, s1, s2, s3, s4⟩ := xs_facts4 t
  have hm : win4_0.moved (grid4.coords t) (ix3 ((win4_5.xinj (grid4.coords t) j) 0) ((win4_5.xinj (grid4.coords t) j) 1) a) = true := by
    rw [Window.moved_iff]
    intro ax
    match ax with
    | ⟨0, _⟩ =>
      show ((win4_5.xinj (grid4.coords t) j) 0).val < win4_0.xsize (grid4.coords t) (0 : Fin 3)
      rw [s0]; exact ((win4_5.xinj (grid4.coords t) j) 0).isLt
    | ⟨1, _⟩ =>
      show (j 1).val < win4_0.xsize (grid4.coords t) (1 : Fin 3)
      rw [s1]; exact (j 1).isLt
    | ⟨2, _⟩ =>
      show a.val < win4_0.xsize (grid4.coords t) (2 : Fin 3)
      rw [s2]; exact a.isLt
  unfold xblk4 Window.fill
  rw [dif_pos hm]
  show V c (Pipeline.arrRef spec4 0) (((cfg4.win 0).blk t).view.emb _) = V c (Pipeline.arrRef spec4 0) _
  refine congrArg _ ?_
  funext ax; apply Fin.ext
  match ax with
  | ⟨0, _⟩ => show win4_0.index t (0 : Fin 3) * 4 + 1 * (j 0).val = win4_5.index t (0 : Fin 2) * 4 + 1 * (j 0).val; omega
  | ⟨1, _⟩ => show win4_0.index t (1 : Fin 3) * 2048 + 1 * (j 1).val = win4_5.index t (1 : Fin 2) * 2048 + 1 * (j 1).val; omega
  | ⟨2, _⟩ => show win4_0.index t (2 : Fin 3) * 128 + 1 * a.val = a.val; omega

/-! ### What each point writes back -/

/-- WHAT POINT `t` WRITES BACK, the part of the output block inside the array, is block `t` of the
    classifier's value on the arrays as the region finds them. -/
theorem flushed4_5_eq (c : Dev nD) (t : Fin cfg4.N) :
    (dat4 V c).flushed 5 t
      = ((cfg4.win 5).blk t).view.read (Elt Ideal) (head4 (arr4_0 V c) (arr4_1 V c) (arr4_2 V c) (arr4_3 V c) (arr4_4 V c)) := by
  show (cfg4.win 5).cut (grid4.coords t) ((dat4 V c).after 5 t) = _
  rw [after4_5, out4_5_eq]
  funext j
  show headBlk (xblk4 V c t) (iblk4 V c 1 t) (iblk4 V c 2 t) (iblk4 V c 3 t) (iblk4 V c 4 t) (win4_5.xinj (grid4.coords t) j)
    = head4 (arr4_0 V c) (arr4_1 V c) (arr4_2 V c) (arr4_3 V c) (arr4_4 V c) (((cfg4.win 5).blk t).view.emb j)
  unfold headBlk head4
  simp only [xblk4_at V c t j, blk4_1_at V c t, blk4_2_at V c t, blk4_3_at V c t, blk4_4_at V c t]

/-! ### The blocks' parts inside the array tile it -/

/-- An index of the array is in point `t`'s block iff each coordinate is in the range of the block's
    part inside the array on its axis. -/
theorem mem_blk4_5 (t : Fin cfg4.N) (i : S4x50000.Idx) :
    i ∈ ((cfg4.win 5).blk t).view.set ↔ ∀ a : Fin 2, win4_5.index t a * S4x2048.size a ≤ (i a).val ∧ (i a).val < win4_5.index t a * S4x2048.size a + win4_5.xsize (grid4.coords t) a := by
  show i ∈ ((View.whole (Pipeline.arrRef spec4 5)).slice (win4_5.rect t)).set ↔ _
  rw [View.set_slice_whole, Rect.mem_set_unit]
  exact Iff.rfl

/-- Every cell of the array is in the block of the point its node falls in: node `r` is in block
    `r / 2048`, whose part inside the array reaches the array's end at the last point. -/
theorem cover4_5_arr (i : S4x50000.Idx) :
    ∃ t : Fin cfg4.N, (cfg4.win 5).flush t = true ∧ i ∈ ((cfg4.win 5).blk t).view.set := by
  have hN : cfg4.N = 25 := N_4
  have hi0 : (i 0).val < 4 := (i 0).isLt
  have hi1 : (i 1).val < 50000 := (i 1).isLt
  have ht : (i 1).val / 2048 < cfg4.N := by omega
  refine ⟨⟨(i 1).val / 2048, ht⟩, flush4_5 _, ?_⟩
  obtain ⟨e00, e01, e02, e10, e11, e2, e3, e4, e50, e51⟩ := idx_facts4 ⟨(i 1).val / 2048, ht⟩
  obtain ⟨s0, s1, s2, s3, s4⟩ := xs_facts4 ⟨(i 1).val / 2048, ht⟩
  have e51' : win4_5.index ⟨(i 1).val / 2048, ht⟩ (1 : Fin 2) = (i 1).val / 2048 := e51
  have s4' : win4_5.xsize (grid4.coords ⟨(i 1).val / 2048, ht⟩) (1 : Fin 2) = min 2048 (50000 - 2048 * ((i 1).val / 2048)) := s4
  rw [mem_blk4_5]
  intro a
  match a with
  | ⟨0, _⟩ =>
    show win4_5.index ⟨(i 1).val / 2048, ht⟩ (0 : Fin 2) * 4 ≤ (i 0).val ∧ (i 0).val < win4_5.index ⟨(i 1).val / 2048, ht⟩ (0 : Fin 2) * 4 + win4_5.xsize (grid4.coords ⟨(i 1).val / 2048, ht⟩) (0 : Fin 2)
    omega
  | ⟨1, _⟩ =>
    show win4_5.index ⟨(i 1).val / 2048, ht⟩ (1 : Fin 2) * 2048 ≤ (i 1).val ∧ (i 1).val < win4_5.index ⟨(i 1).val / 2048, ht⟩ (1 : Fin 2) * 2048 + win4_5.xsize (grid4.coords ⟨(i 1).val / 2048, ht⟩) (1 : Fin 2)
    omega

/-! ### The array after the region -/

/-- THE ARRAY behind the output window after the region's last write-back: the classifier's value
    on the arrays behind the input windows, copy by copy and node by node. -/
theorem final4 (c : Dev nD) :
    (dat4 V c).arrAt 5 cfg4.N
      = fun i => headCellK (fun a => arr4_0 V c (ix3 (i 0) (i 1) a)) (fun a o => arr4_1 V c (ix2 a o)) (fun a => arr4_2 V c (ix1 a)) (fun a => arr4_3 V c (ix1 a)) (arr4_4 V c (ix1 0)) :=
  (dat4 V c).arrAt_eq_of_cover 5 (head4 (arr4_0 V c) (arr4_1 V c) (arr4_2 V c) (arr4_3 V c) (arr4_4 V c)) (fun t _ => flushed4_5_eq V c t) cover4_5_arr

end Region4

end Cert.KernelIdeal.Fr

end
-- ==== Proof.KIRun.lean ====
/-
  The run of @main: five kernel regions among six stretches of host operations, composed in program order.
  Between two items every unscoped buffer of a core is held whole at a known valuation: the launch contents, then the
  fold of each host stretch over it, then — after a region — the same valuation with the region's arrays at what its
  write-backs leave. The post reads every unscoped buffer off the last valuation; the arguments are never written, so
  they end as launched, and the result buffer ends at what the last region's write-backs leave in it.
-/
import proofs.«421163_j37864431681664_3_alg».proof.Proof.Gen.KernelIdeal.Launch
import proofs.«421163_j37864431681664_3_alg».proof.Proof.Gen.KernelIdeal.Skeleton
import proofs.«421163_j37864431681664_3_alg».proof.Proof.Gen.KernelIdeal.Points
import proofs.«421163_j37864431681664_3_alg».proof.Proof.Gen.KernelIdeal.Regions
import proofs.«421163_j37864431681664_3_alg».proof.Proof.KIReg0
import proofs.«421163_j37864431681664_3_alg».proof.Proof.KIReg1
import proofs.«421163_j37864431681664_3_alg».proof.Proof.KIReg2
import proofs.«421163_j37864431681664_3_alg».proof.Proof.KIReg3
import proofs.«421163_j37864431681664_3_alg».proof.Proof.KIReg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The buffer contents at each boundary -/

/-- Core `c`'s buffers at launch. -/
abbrev W0 : Dev nD → Valuation τ sig (Elt Ideal) := fun c b => m (c, b)
/-- After the host stretch `hostOps0`. -/
abbrev W1 : Dev nD → Valuation τ sig (Elt Ideal) := fun c => StableHlo.after hostOps0 (W0 m c)
/-- After the host stretch `hostOps0_1`. -/
abbrev W2 : Dev nD → Valuation τ sig (Elt Ideal) := fun c => StableHlo.after hostOps0_1 (W1 m c)
/-- After the host stretch `hostOps0_2`. -/
abbrev W3 : Dev nD → Valuation τ sig (Elt Ideal) := fun c => StableHlo.after hostOps0_2 (W2 m c)
/-- The valuation region 0 is entered with, read at the TensorCore's references. -/
abbrev V3 : (c : Dev nD) → (b : Ref sig .tc) → Buf (Elt Ideal) ((c : Thread nD τ).loc b) := fun c b => W3 m c b
/-- After region 0: its arrays at what the write-backs leave, every other buffer as entered. -/
def W4 (c : Dev nD) : Valuation τ sig (Elt Ideal) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt Ideal) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- After the host stretch `hostOps1`. -/
abbrev W5 : Dev nD → Valuation τ sig (Elt Ideal) := fun c => StableHlo.after hostOps1 (W4 m c)
/-- The valuation region 1 is entered with, read at the TensorCore's references. -/
abbrev V5 : (c : Dev nD) → (b : Ref sig .tc) → Buf (Elt Ideal) ((c : Thread nD τ).loc b) := fun c b => W5 m c b
/-- After region 1: its arrays at what the write-backs leave, every other buffer as entered. -/
def W6 (c : Dev nD) : Valuation τ sig (Elt Ideal) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt Ideal) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the host stretch `hostOps2`. -/
abbrev W7 : Dev nD → Valuation τ sig (Elt Ideal) := fun c => StableHlo.after hostOps2 (W6 m c)
/-- The valuation region 2 is entered with, read at the TensorCore's references. -/
abbrev V7 : (c : Dev nD) → (b : Ref sig .tc) → Buf (Elt Ideal) ((c : Thread nD τ).loc b) := fun c b => W7 m c b
/-- After region 2: its arrays at what the write-backs leave, every other buffer as entered. -/
def W8 (c : Dev nD) : Valuation τ sig (Elt Ideal) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt Ideal) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- After the host stretch `hostOps3`. -/
abbrev W9 : Dev nD → Valuation τ sig (Elt Ideal) := fun c => StableHlo.after hostOps3 (W8 m c)
/-- The valuation region 3 is entered with, read at the TensorCore's references. -/
abbrev V9 : (c : Dev nD) → (b : Ref sig .tc) → Buf (Elt Ideal) ((c : Thread nD τ).loc b) := fun c b => W9 m c b
/-- After region 3: its arrays at what the write-backs leave, every other buffer as entered. -/
def W10 (c : Dev nD) : Valuation τ sig (Elt Ideal) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt Ideal) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)
/-- After region 4: its arrays at what the write-backs leave, every other buffer as entered. -/
def W11 (c : Dev nD) : Valuation τ sig (Elt Ideal) :=
  Pipeline.withArrays spec4 c (W10 m c) fun w => (dat4 (V10 m) c).arrAt w cfg4.N
theorem W11_arr (c : Dev nD) (w : Fin cfg4.W) :
    W11 m c (Proc.devRef .tc (Pipeline.arrRef spec4 w)) = (dat4 (V10 m) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) := by
  unfold W11; exact Pipeline.withArrays_of_ne spec4 c _ _ b hb
abbrev V11 : (c : Dev nD) → (b : Ref sig .tc) → Buf (Elt Ideal) ((c : Thread nD τ).loc b) := fun c b => W11 m c b
theorem hF4 (c : Dev nD) (w : Fin cfg4.W) : (dat4 (V10 m) c).arrAt w cfg4.N = V11 m c (Pipeline.arrRef spec4 w) :=
  (W11_arr m c w).symm
theorem hrest4 (c : Dev nD) : ∀ b, b ∉ Finset.univ.image (Pipeline.arrRef spec4) → V11 m c b = V10 m c b :=
  fun b hb => W11_of_ne m c b fun w e => hb (Finset.mem_image.mpr ⟨w, Finset.mem_univ _, e⟩)

/-! ## What each item leaves unchanged -/
theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
/-- Region 0 writes back only into the array behind its output window: every other buffer leaves as it entered. -/
theorem W4_keep (c : Dev nD) (r : Ref sig .tc) (hr : r ≠ main_v44) : W4 m c r = W3 m c r := by
  by_cases h : ∃ w, Pipeline.arrRef spec0 w = r
  · obtain ⟨w, rfl⟩ := h
    refine (W4_arr m c w).trans ?_
    match w with
    | ⟨0, _⟩ => exact ((dat0 _ c).arrAt_in 0 rfl _).trans (A_eq0 _ c 0)
    | ⟨1, _⟩ => exact ((dat0 _ c).arrAt_in 1 rfl _).trans (A_eq0 _ c 1)
    | ⟨2, _⟩ => exact ((dat0 _ c).arrAt_in 2 rfl _).trans (A_eq0 _ c 2)
    | ⟨3, _⟩ => exact ((dat0 _ c).arrAt_in 3 rfl _).trans (A_eq0 _ c 3)
    | ⟨4, _⟩ => exact ((dat0 _ c).arrAt_in 4 rfl _).trans (A_eq0 _ c 4)
    | ⟨5, _⟩ => exact ((dat0 _ c).arrAt_in 5 rfl _).trans (A_eq0 _ c 5)
    | ⟨6, _⟩ => exact ((dat0 _ c).arrAt_in 6 rfl _).trans (A_eq0 _ c 6)
    | ⟨7, _⟩ => exact absurd rfl hr
  · exact W4_of_ne m c r fun w e => h ⟨w, e⟩
theorem W5_of (c : Dev nD) (r : Ref sig .tc) (h : r ∉ hostOps1_W) : W5 m c r = W4 m c r :=
  StableHlo.after_of_writes_sub hostOps1 _ hostOps1_writes h
/-- Region 1 writes back only into the array behind its output window: every other buffer leaves as it entered. -/
theorem W6_keep (c : Dev nD) (r : Ref sig .tc) (hr : r ≠ main_v55) : W6 m c r = W5 m c r := by
  by_cases h : ∃ w, Pipeline.arrRef spec1 w = r
  · obtain ⟨w, rfl⟩ := h
    refine (W6_arr m c w).trans ?_
    match w with
    | ⟨0, _⟩ => exact ((dat1 _ c).arrAt_in 0 rfl _).trans (A_eq1 _ c 0)
    | ⟨1, _⟩ => exact ((dat1 _ c).arrAt_in 1 rfl _).trans (A_eq1 _ c 1)
    | ⟨2, _⟩ => exact ((dat1 _ c).arrAt_in 2 rfl _).trans (A_eq1 _ c 2)
    | ⟨3, _⟩ => exact absurd rfl hr
  · exact W6_of_ne m c r fun w e => h ⟨w, e⟩
theorem W7_of (c : Dev nD) (r : Ref sig .tc) (h : r ∉ hostOps2_W) : W7 m c r = W6 m c r :=
  StableHlo.after_of_writes_sub hostOps2 _ hostOps2_writes h
/-- Region 2 writes back only into the array behind its output window: every other buffer leaves as it entered. -/
theorem W8_keep (c : Dev nD) (r : Ref sig .tc) (hr : r ≠ main_v73) : W8 m c r = W7 m c r := by
  by_cases h : ∃ w, Pipeline.arrRef spec2 w = r
  · obtain ⟨w, rfl⟩ := h
    refine (W8_arr m c w).trans ?_
    match w with
    | ⟨0, _⟩ => exact ((dat2 _ c).arrAt_in 0 rfl _).trans (A_eq2 _ c 0)
    | ⟨1, _⟩ => exact ((dat2 _ c).arrAt_in 1 rfl _).trans (A_eq2 _ c 1)
    | ⟨2, _⟩ => exact ((dat2 _ c).arrAt_in 2 rfl _).trans (A_eq2 _ c 2)
    | ⟨3, _⟩ => exact ((dat2 _ c).arrAt_in 3 rfl _).trans (A_eq2 _ c 3)
    | ⟨4, _⟩ => exact ((dat2 _ c).arrAt_in 4 rfl _).trans (A_eq2 _ c 4)
    | ⟨5, _⟩ => exact ((dat2 _ c).arrAt_in 5 rfl _).trans (A_eq2 _ c 5)
    | ⟨6, _⟩ => exact ((dat2 _ c).arrAt_in 6 rfl _).trans (A_eq2 _ c 6)
    | ⟨7, _⟩ => exact absurd rfl hr
  · exact W8_of_ne m c r fun w e => h ⟨w, e⟩
theorem W9_of (c : Dev nD) (r : Ref sig .tc) (h : r ∉ hostOps3_W) : W9 m c r = W8 m c r :=
  StableHlo.after_of_writes_sub hostOps3 _ hostOps3_writes h
/-- Region 3 writes back only into the array behind its output window: every other buffer leaves as it entered. -/
theorem W10_keep (c : Dev nD) (r : Ref sig .tc) (hr : r ≠ main_v84) : W10 m c r = W9 m c r := by
  by_cases h : ∃ w, Pipeline.arrRef spec3 w = r
  · obtain ⟨w, rfl⟩ := h
    refine (W10_arr m c w).trans ?_
    match w with
    | ⟨0, _⟩ => exact ((dat3 _ c).arrAt_in 0 rfl _).trans (A_eq3 _ c 0)
    | ⟨1, _⟩ => exact ((dat3 _ c).arrAt_in 1 rfl _).trans (A_eq3 _ c 1)
    | ⟨2, _⟩ => exact ((dat3 _ c).arrAt_in 2 rfl _).trans (A_eq3 _ c 2)
    | ⟨3, _⟩ => exact absurd rfl hr
  · exact W10_of_ne m c r fun w e => h ⟨w, e⟩
/-- Region 4 writes back only into the array behind its output window: every other buffer leaves as it entered. -/
theorem W11_keep (c : Dev nD) (r : Ref sig .tc) (hr : r ≠ main_v85) : W11 m c r = W10 m c r := by
  by_cases h : ∃ w, Pipeline.arrRef spec4 w = r
  · obtain ⟨w, rfl⟩ := h
    refine (W11_arr m c w).trans ?_
    match w with
    | ⟨0, _⟩ => exact ((dat4 _ c).arrAt_in 0 rfl _).trans (A_eq4 _ c 0)
    | ⟨1, _⟩ => exact ((dat4 _ c).arrAt_in 1 rfl _).trans (A_eq4 _ c 1)
    | ⟨2, _⟩ => exact ((dat4 _ c).arrAt_in 2 rfl _).trans (A_eq4 _ c 2)
    | ⟨3, _⟩ => exact ((dat4 _ c).arrAt_in 3 rfl _).trans (A_eq4 _ c 3)
    | ⟨4, _⟩ => exact ((dat4 _ c).arrAt_in 4 rfl _).trans (A_eq4 _ c 4)
    | ⟨5, _⟩ => exact absurd rfl hr
  · exact W11_of_ne m c r fun w e => h ⟨w, e⟩

/-! ## No item writes an argument -/
theorem W11_main_arg0 (c : Dev nD) : W11 m c main_arg0 = m ((c : Thread nD τ).loc main_arg0) :=
  (W11_keep m c main_arg0 (by decide)).trans <| (W10_keep m c main_arg0 (by decide)).trans <| (W9_of m c main_arg0 (by decide)).trans <| (W8_keep m c main_arg0 (by decide)).trans <| (W7_of m c main_arg0 (by decide)).trans <| (W6_keep m c main_arg0 (by decide)).trans <| (W5_of m c main_arg0 (by decide)).trans <| (W4_keep m c main_arg0 (by decide)).trans <| (W3_of m c main_arg0 (by decide)).trans <| (W2_of m c main_arg0 (by decide)).trans <| (W1_of m c main_arg0 (by decide)).trans rfl
theorem W11_main_arg1 (c : Dev nD) : W11 m c main_arg1 = m ((c : Thread nD τ).loc main_arg1) :=
  (W11_keep m c main_arg1 (by decide)).trans <| (W10_keep m c main_arg1 (by decide)).trans <| (W9_of m c main_arg1 (by decide)).trans <| (W8_keep m c main_arg1 (by decide)).trans <| (W7_of m c main_arg1 (by decide)).trans <| (W6_keep m c main_arg1 (by decide)).trans <| (W5_of m c main_arg1 (by decide)).trans <| (W4_keep m c main_arg1 (by decide)).trans <| (W3_of m c main_arg1 (by decide)).trans <| (W2_of m c main_arg1 (by decide)).trans <| (W1_of m c main_arg1 (by decide)).trans rfl
theorem W11_main_arg2 (c : Dev nD) : W11 m c main_arg2 = m ((c : Thread nD τ).loc main_arg2) :=
  (W11_keep m c main_arg2 (by decide)).trans <| (W10_keep m c main_arg2 (by decide)).trans <| (W9_of m c main_arg2 (by decide)).trans <| (W8_keep m c main_arg2 (by decide)).trans <| (W7_of m c main_arg2 (by decide)).trans <| (W6_keep m c main_arg2 (by decide)).trans <| (W5_of m c main_arg2 (by decide)).trans <| (W4_keep m c main_arg2 (by decide)).trans <| (W3_of m c main_arg2 (by decide)).trans <| (W2_of m c main_arg2 (by decide)).trans <| (W1_of m c main_arg2 (by decide)).trans rfl
theorem W11_main_arg3 (c : Dev nD) : W11 m c main_arg3 = m ((c : Thread nD τ).loc main_arg3) :=
  (W11_keep m c main_arg3 (by decide)).trans <| (W10_keep m c main_arg3 (by decide)).trans <| (W9_of m c main_arg3 (by decide)).trans <| (W8_keep m c main_arg3 (by decide)).trans <| (W7_of m c main_arg3 (by decide)).trans <| (W6_keep m c main_arg3 (by decide)).trans <| (W5_of m c main_arg3 (by decide)).trans <| (W4_keep m c main_arg3 (by decide)).trans <| (W3_of m c main_arg3 (by decide)).trans <| (W2_of m c main_arg3 (by decide)).trans <| (W1_of m c main_arg3 (by decide)).trans rfl
theorem W11_main_arg4 (c : Dev nD) : W11 m c main_arg4 = m ((c : Thread nD τ).loc main_arg4) :=
  (W11_keep m c main_arg4 (by decide)).trans <| (W10_keep m c main_arg4 (by decide)).trans <| (W9_of m c main_arg4 (by decide)).trans <| (W8_keep m c main_arg4 (by decide)).trans <| (W7_of m c main_arg4 (by decide)).trans <| (W6_keep m c main_arg4 (by decide)).trans <| (W5_of m c main_arg4 (by decide)).trans <| (W4_keep m c main_arg4 (by decide)).trans <| (W3_of m c main_arg4 (by decide)).trans <| (W2_of m c main_arg4 (by decide)).trans <| (W1_of m c main_arg4 (by decide)).trans rfl
theorem W11_main_arg5 (c : Dev nD) : W11 m c main_arg5 = m ((c : Thread nD τ).loc main_arg5) :=
  (W11_keep m c main_arg5 (by decide)).trans <| (W10_keep m c main_arg5 (by decide)).trans <| (W9_of m c main_arg5 (by decide)).trans <| (W8_keep m c main_arg5 (by decide)).trans <| (W7_of m c main_arg5 (by decide)).trans <| (W6_keep m c main_arg5 (by decide)).trans <| (W5_of m c main_arg5 (by decide)).trans <| (W4_keep m c main_arg5 (by decide)).trans <| (W3_of m c main_arg5 (by decide)).trans <| (W2_of m c main_arg5 (by decide)).trans <| (W1_of m c main_arg5 (by decide)).trans rfl
theorem W11_main_arg6 (c : Dev nD) : W11 m c main_arg6 = m ((c : Thread nD τ).loc main_arg6) :=
  (W11_keep m c main_arg6 (by decide)).trans <| (W10_keep m c main_arg6 (by decide)).trans <| (W9_of m c main_arg6 (by decide)).trans <| (W8_keep m c main_arg6 (by decide)).trans <| (W7_of m c main_arg6 (by decide)).trans <| (W6_keep m c main_arg6 (by decide)).trans <| (W5_of m c main_arg6 (by decide)).trans <| (W4_keep m c main_arg6 (by decide)).trans <| (W3_of m c main_arg6 (by decide)).trans <| (W2_of m c main_arg6 (by decide)).trans <| (W1_of m c main_arg6 (by decide)).trans rfl
theorem W11_main_arg7 (c : Dev nD) : W11 m c main_arg7 = m ((c : Thread nD τ).loc main_arg7) :=
  (W11_keep m c main_arg7 (by decide)).trans <| (W10_keep m c main_arg7 (by decide)).trans <| (W9_of m c main_arg7 (by decide)).trans <| (W8_keep m c main_arg7 (by decide)).trans <| (W7_of m c main_arg7 (by decide)).trans <| (W6_keep m c main_arg7 (by decide)).trans <| (W5_of m c main_arg7 (by decide)).trans <| (W4_keep m c main_arg7 (by decide)).trans <| (W3_of m c main_arg7 (by decide)).trans <| (W2_of m c main_arg7 (by decide)).trans <| (W1_of m c main_arg7 (by decide)).trans rfl
theorem W11_main_arg8 (c : Dev nD) : W11 m c main_arg8 = m ((c : Thread nD τ).loc main_arg8) :=
  (W11_keep m c main_arg8 (by decide)).trans <| (W10_keep m c main_arg8 (by decide)).trans <| (W9_of m c main_arg8 (by decide)).trans <| (W8_keep m c main_arg8 (by decide)).trans <| (W7_of m c main_arg8 (by decide)).trans <| (W6_keep m c main_arg8 (by decide)).trans <| (W5_of m c main_arg8 (by decide)).trans <| (W4_keep m c main_arg8 (by decide)).trans <| (W3_of m c main_arg8 (by decide)).trans <| (W2_of m c main_arg8 (by decide)).trans <| (W1_of m c main_arg8 (by decide)).trans rfl
theorem W11_main_arg9 (c : Dev nD) : W11 m c main_arg9 = m ((c : Thread nD τ).loc main_arg9) :=
  (W11_keep m c main_arg9 (by decide)).trans <| (W10_keep m c main_arg9 (by decide)).trans <| (W9_of m c main_arg9 (by decide)).trans <| (W8_keep m c main_arg9 (by decide)).trans <| (W7_of m c main_arg9 (by decide)).trans <| (W6_keep m c main_arg9 (by decide)).trans <| (W5_of m c main_arg9 (by decide)).trans <| (W4_keep m c main_arg9 (by decide)).trans <| (W3_of m c main_arg9 (by decide)).trans <| (W2_of m c main_arg9 (by decide)).trans <| (W1_of m c main_arg9 (by decide)).trans rfl
theorem W11_main_arg10 (c : Dev nD) : W11 m c main_arg10 = m ((c : Thread nD τ).loc main_arg10) :=
  (W11_keep m c main_arg10 (by decide)).trans <| (W10_keep m c main_arg10 (by decide)).trans <| (W9_of m c main_arg10 (by decide)).trans <| (W8_keep m c main_arg10 (by decide)).trans <| (W7_of m c main_arg10 (by decide)).trans <| (W6_keep m c main_arg10 (by decide)).trans <| (W5_of m c main_arg10 (by decide)).trans <| (W4_keep m c main_arg10 (by decide)).trans <| (W3_of m c main_arg10 (by decide)).trans <| (W2_of m c main_arg10 (by decide)).trans <| (W1_of m c main_arg10 (by decide)).trans rfl
theorem W11_main_arg11 (c : Dev nD) : W11 m c main_arg11 = m ((c : Thread nD τ).loc main_arg11) :=
  (W11_keep m c main_arg11 (by decide)).trans <| (W10_keep m c main_arg11 (by decide)).trans <| (W9_of m c main_arg11 (by decide)).trans <| (W8_keep m c main_arg11 (by decide)).trans <| (W7_of m c main_arg11 (by decide)).trans <| (W6_keep m c main_arg11 (by decide)).trans <| (W5_of m c main_arg11 (by decide)).trans <| (W4_keep m c main_arg11 (by decide)).trans <| (W3_of m c main_arg11 (by decide)).trans <| (W2_of m c main_arg11 (by decide)).trans <| (W1_of m c main_arg11 (by decide)).trans rfl

/-! ## The proof data family and the thread state -/

/-- Every pipeline's proof data, each at its region's entry contents. -/
def pdatsF : (p : Fin 5) → (c : Dev nD) → Dat τ (Elt Ideal) Unit ℕ (UR sig nD τ) ℕ (Pipeline.pin (pcfgs (F := Ideal)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
  | ⟨4, _⟩ => fun c => dat4 (V10 m) c
abbrev 𝒱F : Variants := Variants.none
/-- No core owes another anything: no level is assigned. -/
abbrev LF : GSem nD τ sig → Finset Unit := fun _ => ∅
abbrev lvF : GSem nD τ sig → Unit → ℕ := fun _ _ => 0
/-- What rides beside the buffers through every item: the core's generator register at some state and its dues, none. -/
abbrev RF (c : Dev nD) : sProp 𝕄 := iprop((∃ r, prngReg c r) ∗ ∃ W, owes (c : Thread nD τ) (0 : CellTallies nD τ sig Unit) W)
/-- A host stretch as a segment over the unscoped references from the contents `W`, `RF` riding along. -/
abbrev hsegF (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
/-- An unscoped TensorCore reference is among those the thread state holds. -/
theorem mem_ucF (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at some state. -/
abbrev TnF (c : Dev nD) : sProp 𝕄 := iprop(StableHlo.held (c : Thread nD τ) (Pipeline.ucRefs τ sig) (W11 m c) ∗ ∃ r, prngReg c r)

/-! ## The regions as segments -/

set_option backward.isDefEq.respectTransparency.types false in
/-- Region 0 over the thread state: entered with every unscoped buffer at `W3`, left at `W4`. Its arrays are split out of
    the unscoped buffers and put back at the exit contents; the generator register goes into the region's invariant and comes
    back; nothing is owed; the kernel has no semaphore of its own. -/
def reg0F : Pipeline.RegionSeg (pcfgs (F := Ideal)) adm (pdatsF m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ LF lvF 0 fun _ _ => rfl
  pre c := iprop(StableHlo.held (c : Thread nD τ) (Pipeline.ucRefs τ sig) (W3 m c) ∗ RF c)
  post c := iprop(StableHlo.held (c : Thread nD τ) (Pipeline.ucRefs τ sig) (W4 m c) ∗ RF c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := Ideal)) adm (pdatsF m) launch0.win launch0.arr_whole c
      ((pdatsF m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdatsF m) ((pdatsF m 0 c).share_full fun _ => rfl)
      (V3 m c) (V4 m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left at `W6`. Its arrays are split out of
    the unscoped buffers and put back at the exit contents; the generator register goes into the region's invariant and comes
    back; nothing is owed; the kernel has no semaphore of its own. -/
def reg1F : Pipeline.RegionSeg (pcfgs (F := Ideal)) adm (pdatsF m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ LF lvF 1 fun _ _ => rfl
  pre c := iprop(StableHlo.held (c : Thread nD τ) (Pipeline.ucRefs τ sig) (W5 m c) ∗ RF c)
  post c := iprop(StableHlo.held (c : Thread nD τ) (Pipeline.ucRefs τ sig) (W6 m c) ∗ RF c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := Ideal)) adm (pdatsF m) launch1.win launch1.arr_whole c
      ((pdatsF m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdatsF m) ((pdatsF m 1 c).share_full fun _ => rfl)
      (V5 m c) (V6 m c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left at `W8`. Its arrays are split out of
    the unscoped buffers and put back at the exit contents; the generator register goes into the region's invariant and comes
    back; nothing is owed; the kernel has no semaphore of its own. -/
def reg2F : Pipeline.RegionSeg (pcfgs (F := Ideal)) adm (pdatsF m) () defs₀ 𝒱F LF lvF 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ LF lvF 2 fun _ _ => rfl
  pre c := iprop(StableHlo.held (c : Thread nD τ) (Pipeline.ucRefs τ sig) (W7 m c) ∗ RF c)
  post c := iprop(StableHlo.held (c : Thread nD τ) (Pipeline.ucRefs τ sig) (W8 m c) ∗ RF c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := Ideal)) adm (pdatsF m) launch2.win launch2.arr_whole c
      ((pdatsF m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdatsF m) ((pdatsF m 2 c).share_full fun _ => rfl)
      (V7 m c) (V8 m c) ((pdatsF m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left at `W10`. Its arrays are split out of
    the unscoped buffers and put back at the exit contents; the generator register goes into the region's invariant and comes
    back; nothing is owed; the kernel has no semaphore of its own. -/
def reg3F : Pipeline.RegionSeg (pcfgs (F := Ideal)) adm (pdatsF m) () defs₀ 𝒱F LF lvF 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ LF lvF 3 fun _ _ => rfl
  pre c := iprop(StableHlo.held (c : Thread nD τ) (Pipeline.ucRefs τ sig) (W9 m c) ∗ RF c)
  post c := iprop(StableHlo.held (c : Thread nD τ) (Pipeline.ucRefs τ sig) (W10 m c) ∗ RF c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := Ideal)) adm (pdatsF m) launch3.win launch3.arr_whole c
      ((pdatsF m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsF m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := Ideal)) adm (Ix := Unit) (Name := ℕ) (U := UR sig nD τ) (Lvl := ℕ)
      launch3.win launch3.arr_whole c (pdatsF m) ((pdatsF m 3 c).share_full fun _ => rfl)
      (V9 m c) (V10 m c) ((pdatsF m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W10`, left at `W11`. Its arrays are split out of
    the unscoped buffers and put back at the exit contents; the generator register goes into the region's invariant and comes
    back; nothing is owed; the kernel has no semaphore of its own. -/
def reg4F : Pipeline.RegionSeg (pcfgs (F := Ideal)) adm (pdatsF m) () defs₀ 𝒱F LF lvF 4 where
  win := launch4.win.to₀
  block_pos := launch4.block_pos
  stage_whole := launch4.stage_whole
  K := PEmpty
  osem k := k.elim
  ho := Pipeline.OwnSemFacts.none _
  hbody c := body_obligation4 (V10 m) c
  hwaits := Pipeline.hwaits_of_owed_zero _ _ _ _ LF lvF 4 fun _ _ => rfl
  pre c := iprop(StableHlo.held (c : Thread nD τ) (Pipeline.ucRefs τ sig) (W10 m c) ∗ RF c)
  post c := iprop(TnF m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V10 m c)
  hentry c := by
    rw [Pipeline.ownSems0_none]
    have hsplit := Pipeline.arrays_of_unscopedBufs (p := 4) (pcfgs (F := Ideal)) adm (pdatsF m) launch4.win launch4.arr_whole c
      ((pdatsF m 4 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsF m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := Ideal)) adm (Ix := Unit) (Name := ℕ) (U := UR sig nD τ) (Lvl := ℕ)
      launch4.win launch4.arr_whole c (pdatsF m) ((pdatsF m 4 c).share_full fun _ => rfl)
      (V10 m c) (V11 m c) ((pdatsF m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eleven items in order. -/
abbrev segsF : List (Pipeline.Seg (pcfgs (F := Ideal)) adm (pdatsF m) () defs₀ 𝒱F LF lvF) :=
  [ .host (hsegF hostOps0 hostOps0_sub hostOps0_fresh (W0 m)),
    .host (hsegF hostOps0_1 hostOps0_1_sub hostOps0_1_fresh (W1 m)),
    .host (hsegF hostOps0_2 hostOps0_2_sub hostOps0_2_fresh (W2 m)),
    .region (reg0F m),
    .host (hsegF hostOps1 hostOps1_sub hostOps1_fresh (W4 m)),
    .region (reg1F m),
    .host (hsegF hostOps2 hostOps2_sub hostOps2_fresh (W6 m)),
    .region (reg2F m),
    .host (hsegF hostOps3 hostOps3_sub hostOps3_fresh (W8 m)),
    .region (reg3F m),
    .region (reg4F m) ]
/-- @main is the run of the segments. -/
theorem main_runF (c : Dev nD) : main (F := Ideal) c = Pipeline.Seg.run (segsF m) := (main_chain c).trans (by chain_rfl)

set_option backward.isDefEq.respectTransparency.types false in
/-- THE RUN: from any memory with zero counters every weakly fair execution of @main terminates, nothing faulting, and in
    every final state each unscoped buffer of each core holds what the last valuation says. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := Ideal)) adm (pdatsF m) () cellOf_inj emb₁ defs₀ 𝒱F LF lvF m ρ main (segsF m)
    (fun c Q => by rw [main_runF m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RF c)) (Tₙ := TnF m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LF lvF fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-- THE FRAME: every argument array ends as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_ucF main_arg0 (by decide))).trans (W11_main_arg0 m c),
      (h c _ (mem_ucF main_arg1 (by decide))).trans (W11_main_arg1 m c),
      (h c _ (mem_ucF main_arg2 (by decide))).trans (W11_main_arg2 m c),
      (h c _ (mem_ucF main_arg3 (by decide))).trans (W11_main_arg3 m c),
      (h c _ (mem_ucF main_arg4 (by decide))).trans (W11_main_arg4 m c),
      (h c _ (mem_ucF main_arg5 (by decide))).trans (W11_main_arg5 m c),
      (h c _ (mem_ucF main_arg6 (by decide))).trans (W11_main_arg6 m c),
      (h c _ (mem_ucF main_arg7 (by decide))).trans (W11_main_arg7 m c),
      (h c _ (mem_ucF main_arg8 (by decide))).trans (W11_main_arg8 m c),
      (h c _ (mem_ucF main_arg9 (by decide))).trans (W11_main_arg9 m c),
      (h c _ (mem_ucF main_arg10 (by decide))).trans (W11_main_arg10 m c),
      (h c _ (mem_ucF main_arg11 (by decide))).trans (W11_main_arg11 m c)⟩) (run_all m ρ)

/-- THE RUN WITH ITS RESULT: besides the frame, the result buffer ends at what the last region's write-backs leave in it. -/
theorem run_value : θ_run defs (onTc (τ := τ) (main (F := Ideal))) ⟨m, fun _ => 0, ρ⟩ (fun r => ∀ c : Dev nD,
      r.2.mem ((c.tc : Thread nD τ).loc main_v85) = W11 m c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_ucF main_v85 (by decide)),
      (h c _ (mem_ucF main_arg0 (by decide))).trans (W11_main_arg0 m c),
      (h c _ (mem_ucF main_arg1 (by decide))).trans (W11_main_arg1 m c),
      (h c _ (mem_ucF main_arg2 (by decide))).trans (W11_main_arg2 m c),
      (h c _ (mem_ucF main_arg3 (by decide))).trans (W11_main_arg3 m c),
      (h c _ (mem_ucF main_arg4 (by decide))).trans (W11_main_arg4 m c),
      (h c _ (mem_ucF main_arg5 (by decide))).trans (W11_main_arg5 m c),
      (h c _ (mem_ucF main_arg6 (by decide))).trans (W11_main_arg6 m c),
      (h c _ (mem_ucF main_arg7 (by decide))).trans (W11_main_arg7 m c),
      (h c _ (mem_ucF main_arg8 (by decide))).trans (W11_main_arg8 m c),
      (h c _ (mem_ucF main_arg9 (by decide))).trans (W11_main_arg9 m c),
      (h c _ (mem_ucF main_arg10 (by decide))).trans (W11_main_arg10 m c),
      (h c _ (mem_ucF main_arg11 (by decide))).trans (W11_main_arg11 m c)⟩) (run_all m ρ)

end Cert.KernelIdeal.Fr

end
-- ==== Proof.KHost.lean ====
import proofs.«421163_j37864431681664_3_alg».proof.Proof.Gen.KernelIdeal.Launch
import Idealize.ShloMosaic.Lib.StableHlo.Run

/-! # What the host stretches of the program write

Between its five kernels the program runs stretches of tensor operations on the host side. For an
arbitrary valuation `W` of the buffers before a stretch, this file states what each stretch leaves
in the buffers the kernels (and later stretches) read, as closed terms of `W` at the buffers the
stretch reads.

The mathematics: `a0 : [4,20000,3]` holds, per batch and clause, the three variable indices of the
clause's literals; `S : [4,50000,128]` is the per-variable state. A clause's slot is a *first
occurrence* if no earlier slot of the same clause names the same variable (`firstMask`); the
per-variable counts add the mask at each variable index; a message round gathers the state's rows
at the clause's variables (`gatherRows`) and, after the message kernel, adds each clause's
message back into its variables' rows, weighted by the mask (`scatterRows`). -/

noncomputable section

namespace Cert.KernelIdeal.Fr

open Cert.KernelIdeal Cert.KernelIdeal.Gen
open Idealize.ShloMosaic Idealize.ShloMosaic.TcCoe Idealize.SL.Sem Idealize.ShloMosaic.StableHlo

variable {F : FTy → Type} [FloatOps F] [Named F]

/-- The contents of a tensor of shape `s` and element type `e`. -/
local notation "𝕋[" s ", " e "]" => BufTy.Contents (Elt F) (BufTy.mk s e)

/-! ## The named sub-terms -/

/-- The strictly lower triangle of a `3 × 3` matrix: `j < k` at row `k`, column `j` (`k - 1 ≥ j`). -/
def lowerTri : 𝕋[S3x3, .i1] :=
  cmpi .sge (addi (iotaInDim S3x3 32 0 : 𝕋[S3x3, .i32]) (broadcastInDim S3x3 ![] bcast_S_S3x3 (constantI S_ 32 4294967295#32 : 𝕋[S_, .i32]))) (iotaInDim S3x3 32 1 : 𝕋[S3x3, .i32])

/-- Slot `k` and slot `j` of one clause name the same variable. -/
def sameVar (a0 : 𝕋[S4x20000x3, .i32]) : 𝕋[S4x20000x3x3, .i1] :=
  cmpi .eq (broadcastInDim S4x20000x3x3 ![0, 1, 2, 3] bcast_S4x20000x3x1_S4x20000x3x3_0_1_2_3 (broadcastInDim S4x20000x3x1 ![0, 1, 2] bcast_S4x20000x3_S4x20000x3x1_0_1_2 a0 : 𝕋[S4x20000x3x1, .i32]) : 𝕋[S4x20000x3x3, .i32])
    (broadcastInDim S4x20000x3x3 ![0, 1, 2, 3] bcast_S4x20000x1x3_S4x20000x3x3_0_1_2_3 (broadcastInDim S4x20000x1x3 ![0, 1, 3] bcast_S4x20000x3_S4x20000x1x3_0_1_3 a0 : 𝕋[S4x20000x1x3, .i32]) : 𝕋[S4x20000x3x3, .i32])

/-- Slot `k` repeats an earlier slot `j < k` of its clause: `sameVar` kept on the strictly lower triangle. -/
def repeatsEarlier (a0 : 𝕋[S4x20000x3, .i32]) : 𝕋[S4x20000x3x3, .i1] :=
  select (broadcastInDim S4x20000x3x3 ![2, 3] bcast_S3x3_S4x20000x3x3_2_3 (lowerTri (F := F)) : 𝕋[S4x20000x3x3, .i1]) (sameVar a0)
    (broadcastInDim S4x20000x3x3 ![] bcast_S_S4x20000x3x3 (constantI S_ 1 0#1 : 𝕋[S_, .i1]) : 𝕋[S4x20000x3x3, .i1])

/-- The first-occurrence mask, flat over the `240000` slots: `1.0` where no earlier slot of the clause
    names the same variable, else `0.0`. -/
def firstMask (a0 : 𝕋[S4x20000x3, .i32]) : 𝕋[S240000, .f32] :=
  uitofp (F := F) .f32 (shapeCast S240000 (noti (Host.reduce IntOp.ori (repeatsEarlier a0) (constantI S_ 1 0#1 : 𝕋[S_, .i1]) reducesTo_S4x20000x3x3_S4x20000x3_d3 h_S_ : 𝕋[S4x20000x3, .i1]) : 𝕋[S4x20000x3, .i1]) shapeCasts_S4x20000x3_S240000 : 𝕋[S240000, .i1])

/-- The variable indices, flat over the `240000` slots. -/
def flatIdx (a0 : 𝕋[S4x20000x3, .i32]) : 𝕋[S240000, .i32] :=
  shapeCast S240000 a0 shapeCasts_S4x20000x3_S240000

/-- Per variable, the number of first-occurrence slots that name it, as a `[50000,1]` column. -/
def varCounts (a0 : 𝕋[S4x20000x3, .i32]) : 𝕋[S50000x1, .f32] :=
  shapeCast S50000x1 (Host.scatterAdd scatter_S50000_S240000x1_S240000_n_0_0_1
    (broadcastInDim S50000 ![] bcast_S_S50000 (constant (F := F) S_ .f32 0x00000000#32 : 𝕋[S_, .f32]) : 𝕋[S50000, .f32])
    (broadcastInDim S240000x1 ![0] bcast_S240000_S240000x1_0 (flatIdx a0) : 𝕋[S240000x1, .i32])
    (firstMask a0) : 𝕋[S50000, .f32]) shapeCasts_S50000_S50000x1

/-- The batch index `0, 1, 2, 3` as a `[4,1,1]` tensor. -/
def batchIota : 𝕋[S4x1x1, .i32] :=
  broadcastInDim S4x1x1 ![0] bcast_S4_S4x1x1_0 (iotaInDim S4 32 0 : 𝕋[S4, .i32])

/-- A `128 × 128` weight matrix transposed and rounded to bf16. -/
def wT (w : 𝕋[S128x128, .f32]) : 𝕋[S128x128, .bf16] :=
  truncf .bf16 (transpose S128x128 [1, 0] w transposes_S128x128_S128x128_1_0 : 𝕋[S128x128, .f32]) bitsLt_bf16_f32

/-- The output layer's `[1,128]` weight row as a `128`-vector rounded to bf16. -/
def wRow (w : 𝕋[S1x128, .f32]) : 𝕋[S128, .bf16] :=
  truncf .bf16 (shapeCast S128 w shapeCasts_S1x128_S128 : 𝕋[S128, .f32]) bitsLt_bf16_f32

/-- The gather's index pairs `(batch, variable)` per slot, each index wrapped once if negative. -/
def gatherIdx (i4 : 𝕋[S4x1x1, .i32]) (a0 : 𝕋[S4x20000x3, .i32]) : 𝕋[S4x20000x3x2, .i32] :=
  concatenate S4x20000x3x2 3
    [⟨S4x20000x3x1, (broadcastInDim S4x20000x3x1 ![0, 1, 2] bcast_S4x20000x3_S4x20000x3x1_0_1_2
        (broadcastInDim S4x20000x3 ![0, 1, 2] bcast_S4x1x1_S4x20000x3_0_1_2
          (select (cmpi .slt i4 (broadcastInDim S4x1x1 ![] bcast_S_S4x1x1 (constantI S_ 32 0#32 : 𝕋[S_, .i32]) : 𝕋[S4x1x1, .i32]) : 𝕋[S4x1x1, .i1])
            (addi i4 (broadcastInDim S4x1x1 ![] bcast_S_S4x1x1 (constantI S_ 32 4#32 : 𝕋[S_, .i32]) : 𝕋[S4x1x1, .i32]) : 𝕋[S4x1x1, .i32]) i4 : 𝕋[S4x1x1, .i32]) : 𝕋[S4x20000x3, .i32]) : 𝕋[S4x20000x3x1, .i32])⟩,
     ⟨S4x20000x3x1, (broadcastInDim S4x20000x3x1 ![0, 1, 2] bcast_S4x20000x3_S4x20000x3x1_0_1_2
        (select (cmpi .slt a0 (broadcastInDim S4x20000x3 ![] bcast_S_S4x20000x3 (constantI S_ 32 0#32 : 𝕋[S_, .i32]) : 𝕋[S4x20000x3, .i32]) : 𝕋[S4x20000x3, .i1])
          (addi a0 (broadcastInDim S4x20000x3 ![] bcast_S_S4x20000x3 (constantI S_ 32 50000#32 : 𝕋[S_, .i32]) : 𝕋[S4x20000x3, .i32]) : 𝕋[S4x20000x3, .i32]) a0 : 𝕋[S4x20000x3, .i32]) : 𝕋[S4x20000x3x1, .i32])⟩]
    concatenates_S4x20000x3x1_S4x20000x3x1_S4x20000x3x2_d3

/-- The state's rows at each slot's `(batch, variable)`. -/
def gathered (S : 𝕋[S4x50000x128, .f32]) (i4 : 𝕋[S4x1x1, .i32]) (a0 : 𝕋[S4x20000x3, .i32]) : 𝕋[S4x20000x3x128, .f32] :=
  Host.gather gather_S4x50000x128_S4x20000x3x2_S4x20000x3x128_3_01_n_n_01_3_11128 S (gatherIdx i4 a0)

/-- The gathered rows rounded to bf16, the batch and clause axes merged: the message kernel's `[80000,3,128]` operand. -/
def gatherRows (S : 𝕋[S4x50000x128, .f32]) (i4 : 𝕋[S4x1x1, .i32]) (a0 : 𝕋[S4x20000x3, .i32]) : 𝕋[S80000x3x128, .bf16] :=
  shapeCast S80000x3x128 (truncf .bf16 (gathered S i4 a0) bitsLt_bf16_f32 : 𝕋[S4x20000x3x128, .bf16]) shapeCasts_S4x20000x3x128_S80000x3x128

/-- The clause messages `M : [80000,128]` repeated over the three slots, weighted by `wts`, and added into
    the rows `flat` names of a zero `[50000,128]` table. -/
def scatterRows (M : 𝕋[S80000x128, .f32]) (flat : 𝕋[S240000, .i32]) (wts : 𝕋[S240000, .f32]) : 𝕋[S50000x128, .f32] :=
  Host.scatterAdd scatter_S50000x128_S240000x1_S240000x128_1_0_0_1
    (broadcastInDim S50000x128 ![] bcast_S_S50000x128 (constant (F := F) S_ .f32 0x00000000#32 : 𝕋[S_, .f32]) : 𝕋[S50000x128, .f32])
    (broadcastInDim S240000x1 ![0] bcast_S240000_S240000x1_0 flat : 𝕋[S240000x1, .i32])
    (mulf (shapeCast S240000x128 (broadcastInDim S4x20000x3x128 ![0, 1, 2, 3] bcast_S4x20000x1x128_S4x20000x3x128_0_1_2_3
              (broadcastInDim S4x20000x1x128 ![0, 1, 3] bcast_S4x20000x128_S4x20000x1x128_0_1_3
                (shapeCast S4x20000x128 M shapeCasts_S80000x128_S4x20000x128 : 𝕋[S4x20000x128, .f32]) : 𝕋[S4x20000x1x128, .f32]) : 𝕋[S4x20000x3x128, .f32])
            shapeCasts_S4x20000x3x128_S240000x128 : 𝕋[S240000x128, .f32])
          (broadcastInDim S240000x128 ![0, 1] bcast_S240000x1_S240000x128_0_1
            (broadcastInDim S240000x1 ![0] bcast_S240000_S240000x1_0 wts : 𝕋[S240000x1, .f32]) : 𝕋[S240000x128, .f32]) : 𝕋[S240000x128, .f32])

/-! ## The first three stretches, composed -/

/-- The buffers' contents after the first three stretches (the pairwise comparison of a clause's
    slots, the triangle mask, and the long stretch up to the first message kernel), from contents `W`. -/
abbrev A3 (W : Valuation τ sig (Elt F)) : Valuation τ sig (Elt F) :=
  StableHlo.after hostOps0_2 (StableHlo.after hostOps0_1 (StableHlo.after hostOps0 W))

/-- Contents moved to a typed reference's buffer type and back are unchanged. -/
theorem ofBuf_toBuf {T : BufTy} (x : TRef sig T) (v : T.Contents (Elt F)) : x.ofBuf (x.toBuf v) = v := by
  unfold TRef.ofBuf TRef.toBuf
  simp

/-- At the triangle mask's result buffer the move to the buffer's type is the identity. -/
theorem toBuf_v5 (p1 p2 p3) (v : 𝕋[S4x20000x3x3, .i1]) : (TRef.of (sig := sig) (T := ⟨S4x20000x3x3, .i1⟩) main_v5 p1 p2 p3).toBuf (Val := Elt F) v = v := rfl

/-- At the triangle mask's argument buffer the move from the buffer's type is the identity. -/
theorem ofBuf_v4 (p1 p2 p3) (v : 𝕋[S4x20000x3x3, .i1]) : (TRef.of (sig := sig) (T := ⟨S4x20000x3x3, .i1⟩) main_v4 p1 p2 p3).ofBuf (Val := Elt F) v = v := rfl

/-- Reads one buffer after a list of host operations as the operations' composed term. -/
local macro "host_results" : tactic =>
  `(tactic| (after_results_simp <;> (try simp only [ofBuf_toBuf, toBuf_v5, ofBuf_v4]) <;> rfl))

set_option maxHeartbeats 4000000 in
theorem A3_v9 (W : Valuation τ sig (Elt F)) :
    A3 W (Proc.devRef .tc main_v9) = firstMask (F := F) (W (Proc.devRef .tc main_arg0)) := by
  show StableHlo.after hostOps0_2 (StableHlo.after hostOps0_1 (StableHlo.after hostOps0 W)) (Proc.devRef .tc main_v9) = _
  host_results

set_option maxHeartbeats 4000000 in
theorem A3_v10 (W : Valuation τ sig (Elt F)) :
    A3 W (Proc.devRef .tc main_v10) = flatIdx (F := F) (W (Proc.devRef .tc main_arg0)) := by
  show StableHlo.after hostOps0_2 (StableHlo.after hostOps0_1 (StableHlo.after hostOps0 W)) (Proc.devRef .tc main_v10) = _
  host_results

set_option maxHeartbeats 4000000 in
theorem A3_v14 (W : Valuation τ sig (Elt F)) :
    A3 W (Proc.devRef .tc main_v14) = varCounts (F := F) (W (Proc.devRef .tc main_arg0)) := by
  show StableHlo.after hostOps0_2 (StableHlo.after hostOps0_1 (StableHlo.after hostOps0 W)) (Proc.devRef .tc main_v14) = _
  host_results

set_option maxHeartbeats 4000000 in
theorem A3_v16 (W : Valuation τ sig (Elt F)) :
    A3 W (Proc.devRef .tc main_v16) = batchIota (F := F) := by
  show StableHlo.after hostOps0_2 (StableHlo.after hostOps0_1 (StableHlo.after hostOps0 W)) (Proc.devRef .tc main_v16) = _
  host_results

set_option maxHeartbeats 4000000 in
theorem A3_v18 (W : Valuation τ sig (Elt F)) :
    A3 W (Proc.devRef .tc main_v18) = wT (F := F) (W (Proc.devRef .tc main_arg2)) := by
  show StableHlo.after hostOps0_2 (StableHlo.after hostOps0_1 (StableHlo.after hostOps0 W)) (Proc.devRef .tc main_v18) = _
  host_results

set_option maxHeartbeats 4000000 in
theorem A3_v20 (W : Valuation τ sig (Elt F)) :
    A3 W (Proc.devRef .tc main_v20) = wT (F := F) (W (Proc.devRef .tc main_arg4)) := by
  show StableHlo.after hostOps0_2 (StableHlo.after hostOps0_1 (StableHlo.after hostOps0 W)) (Proc.devRef .tc main_v20) = _
  host_results

set_option maxHeartbeats 4000000 in
theorem A3_v22 (W : Valuation τ sig (Elt F)) :
    A3 W (Proc.devRef .tc main_v22) = wT (F := F) (W (Proc.devRef .tc main_arg6)) := by
  show StableHlo.after hostOps0_2 (StableHlo.after hostOps0_1 (StableHlo.after hostOps0 W)) (Proc.devRef .tc main_v22) = _
  host_results

set_option maxHeartbeats 4000000 in
theorem A3_v24 (W : Valuation τ sig (Elt F)) :
    A3 W (Proc.devRef .tc main_v24) = wT (F := F) (W (Proc.devRef .tc main_arg8)) := by
  show StableHlo.after hostOps0_2 (StableHlo.after hostOps0_1 (StableHlo.after hostOps0 W)) (Proc.devRef .tc main_v24) = _
  host_results

set_option maxHeartbeats 4000000 in
theorem A3_v26 (W : Valuation τ sig (Elt F)) :
    A3 W (Proc.devRef .tc main_v26) = wRow (F := F) (W (Proc.devRef .tc main_arg10)) := by
  show StableHlo.after hostOps0_2 (StableHlo.after hostOps0_1 (StableHlo.after hostOps0 W)) (Proc.devRef .tc main_v26) = _
  host_results

set_option maxHeartbeats 4000000 in
theorem A3_v43 (W : Valuation τ sig (Elt F)) :
    A3 W (Proc.devRef .tc main_v43) = gatherRows (F := F) (W (Proc.devRef .tc main_arg1)) (batchIota (F := F)) (W (Proc.devRef .tc main_arg0)) := by
  show StableHlo.after hostOps0_2 (StableHlo.after hostOps0_1 (StableHlo.after hostOps0 W)) (Proc.devRef .tc main_v43) = _
  host_results

/-! ## The stretch after the first message kernel -/

theorem hostOps1_v54 (W : Valuation τ sig (Elt F)) :
    StableHlo.after hostOps1 W (Proc.devRef .tc main_v54) = scatterRows (F := F) (W (Proc.devRef .tc main_v44)) (W (Proc.devRef .tc main_v10)) (W (Proc.devRef .tc main_v9)) := by
  host_results

theorem hostOps1_v55 (W : Valuation τ sig (Elt F)) :
    StableHlo.after hostOps1 W (Proc.devRef .tc main_v55) = W (Proc.devRef .tc main_arg1) := by
  host_results

/-! ## The stretch before the second message kernel -/

theorem hostOps2_v72 (W : Valuation τ sig (Elt F)) :
    StableHlo.after hostOps2 W (Proc.devRef .tc main_v72) = gatherRows (F := F) (W (Proc.devRef .tc main_v55)) (W (Proc.devRef .tc main_v16)) (W (Proc.devRef .tc main_arg0)) := by
  host_results

/-! ## The stretch after the second message kernel -/

theorem hostOps3_v83 (W : Valuation τ sig (Elt F)) :
    StableHlo.after hostOps3 W (Proc.devRef .tc main_v83) = scatterRows (F := F) (W (Proc.devRef .tc main_v73)) (W (Proc.devRef .tc main_v10)) (W (Proc.devRef .tc main_v9)) := by
  host_results

theorem hostOps3_v84 (W : Valuation τ sig (Elt F)) :
    StableHlo.after hostOps3 W (Proc.devRef .tc main_v84) = W (Proc.devRef .tc main_v55) := by
  host_results

end Cert.KernelIdeal.Fr

end
-- ==== Proof.Bridge0.lean ====
/- The arguments, what the first host stretches hand on, and the buffers that later items read unchanged: each needed buffer of each boundary valuation as a closed term of the launch memory. -/
import proofs.«421163_j37864431681664_3_alg».proof.Proof.KIRun
import proofs.«421163_j37864431681664_3_alg».proof.Proof.KHost

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-! ## The arguments -/
abbrev a0 := W0 m c main_arg0
abbrev a1 := W0 m c main_arg1
abbrev a2 := W0 m c main_arg2
abbrev a3 := W0 m c main_arg3
abbrev a4 := W0 m c main_arg4
abbrev a5 := W0 m c main_arg5
abbrev a6 := W0 m c main_arg6
abbrev a7 := W0 m c main_arg7
abbrev a8 := W0 m c main_arg8
abbrev a9 := W0 m c main_arg9
abbrev a10 := W0 m c main_arg10
abbrev a11 := W0 m c main_arg11

/-! ## What the first stretches hand on -/
theorem W3_v43 : W3 m c main_v43 = gatherRows (F := Ideal) (a1 m c) (batchIota (F := Ideal)) (a0 m c) := A3_v43 (W0 m c)
theorem W3_v9 : W3 m c main_v9 = firstMask (F := Ideal) (a0 m c) := A3_v9 (W0 m c)
theorem W3_v10 : W3 m c main_v10 = flatIdx (F := Ideal) (a0 m c) := A3_v10 (W0 m c)
theorem W3_v14 : W3 m c main_v14 = varCounts (F := Ideal) (a0 m c) := A3_v14 (W0 m c)
theorem W3_v16 : W3 m c main_v16 = batchIota (F := Ideal) := A3_v16 (W0 m c)
theorem W3_v18 : W3 m c main_v18 = wT (F := Ideal) (a2 m c) := A3_v18 (W0 m c)
theorem W3_v20 : W3 m c main_v20 = wT (F := Ideal) (a4 m c) := A3_v20 (W0 m c)
theorem W3_v22 : W3 m c main_v22 = wT (F := Ideal) (a6 m c) := A3_v22 (W0 m c)
theorem W3_v24 : W3 m c main_v24 = wT (F := Ideal) (a8 m c) := A3_v24 (W0 m c)
theorem W3_v26 : W3 m c main_v26 = wRow (F := Ideal) (a10 m c) := A3_v26 (W0 m c)

/-! ## Buffers that later items read unchanged -/
theorem W4_v9 : W4 m c main_v9 = firstMask (F := Ideal) (a0 m c) := ((W4_keep m c main_v9 (by decide))).trans (W3_v9 m c)
theorem W4_v10 : W4 m c main_v10 = flatIdx (F := Ideal) (a0 m c) := ((W4_keep m c main_v10 (by decide))).trans (W3_v10 m c)
theorem W8_v9 : W8 m c main_v9 = firstMask (F := Ideal) (a0 m c) := ((W8_keep m c main_v9 (by decide)).trans <| (W7_of m c main_v9 (by decide)).trans <| (W6_keep m c main_v9 (by decide)).trans <| (W5_of m c main_v9 (by decide)).trans <| (W4_keep m c main_v9 (by decide))).trans (W3_v9 m c)
theorem W8_v10 : W8 m c main_v10 = flatIdx (F := Ideal) (a0 m c) := ((W8_keep m c main_v10 (by decide)).trans <| (W7_of m c main_v10 (by decide)).trans <| (W6_keep m c main_v10 (by decide)).trans <| (W5_of m c main_v10 (by decide)).trans <| (W4_keep m c main_v10 (by decide))).trans (W3_v10 m c)
theorem W5_v14 : W5 m c main_v14 = varCounts (F := Ideal) (a0 m c) := ((W5_of m c main_v14 (by decide)).trans <| (W4_keep m c main_v14 (by decide))).trans (W3_v14 m c)
theorem W9_v14 : W9 m c main_v14 = varCounts (F := Ideal) (a0 m c) := ((W9_of m c main_v14 (by decide)).trans <| (W8_keep m c main_v14 (by decide)).trans <| (W7_of m c main_v14 (by decide)).trans <| (W6_keep m c main_v14 (by decide)).trans <| (W5_of m c main_v14 (by decide)).trans <| (W4_keep m c main_v14 (by decide))).trans (W3_v14 m c)
theorem W6_v16 : W6 m c main_v16 = batchIota (F := Ideal) := ((W6_keep m c main_v16 (by decide)).trans <| (W5_of m c main_v16 (by decide)).trans <| (W4_keep m c main_v16 (by decide))).trans (W3_v16 m c)
theorem W6_arg0 : W6 m c main_arg0 = (a0 m c) := (W6_keep m c main_arg0 (by decide)).trans <| (W5_of m c main_arg0 (by decide)).trans <| (W4_keep m c main_arg0 (by decide)).trans <| (W3_of m c main_arg0 (by decide)).trans <| (W2_of m c main_arg0 (by decide)).trans <| (W1_of m c main_arg0 (by decide))
theorem W4_arg1 : W4 m c main_arg1 = (a1 m c) := (W4_keep m c main_arg1 (by decide)).trans <| (W3_of m c main_arg1 (by decide)).trans <| (W2_of m c main_arg1 (by decide)).trans <| (W1_of m c main_arg1 (by decide))
theorem W5_arg1 : W5 m c main_arg1 = (a1 m c) := (W5_of m c main_arg1 (by decide)).trans <| (W4_keep m c main_arg1 (by decide)).trans <| (W3_of m c main_arg1 (by decide)).trans <| (W2_of m c main_arg1 (by decide)).trans <| (W1_of m c main_arg1 (by decide))
theorem W3_arg3 : W3 m c main_arg3 = (a3 m c) := (W3_of m c main_arg3 (by decide)).trans <| (W2_of m c main_arg3 (by decide)).trans <| (W1_of m c main_arg3 (by decide))
theorem W3_arg5 : W3 m c main_arg5 = (a5 m c) := (W3_of m c main_arg5 (by decide)).trans <| (W2_of m c main_arg5 (by decide)).trans <| (W1_of m c main_arg5 (by decide))
theorem W3_arg7 : W3 m c main_arg7 = (a7 m c) := (W3_of m c main_arg7 (by decide)).trans <| (W2_of m c main_arg7 (by decide)).trans <| (W1_of m c main_arg7 (by decide))
theorem W7_arg3 : W7 m c main_arg3 = (a3 m c) := (W7_of m c main_arg3 (by decide)).trans <| (W6_keep m c main_arg3 (by decide)).trans <| (W5_of m c main_arg3 (by decide)).trans <| (W4_keep m c main_arg3 (by decide)).trans <| (W3_of m c main_arg3 (by decide)).trans <| (W2_of m c main_arg3 (by decide)).trans <| (W1_of m c main_arg3 (by decide))
theorem W7_arg5 : W7 m c main_arg5 = (a5 m c) := (W7_of m c main_arg5 (by decide)).trans <| (W6_keep m c main_arg5 (by decide)).trans <| (W5_of m c main_arg5 (by decide)).trans <| (W4_keep m c main_arg5 (by decide)).trans <| (W3_of m c main_arg5 (by decide)).trans <| (W2_of m c main_arg5 (by decide)).trans <| (W1_of m c main_arg5 (by decide))
theorem W7_arg7 : W7 m c main_arg7 = (a7 m c) := (W7_of m c main_arg7 (by decide)).trans <| (W6_keep m c main_arg7 (by decide)).trans <| (W5_of m c main_arg7 (by decide)).trans <| (W4_keep m c main_arg7 (by decide)).trans <| (W3_of m c main_arg7 (by decide)).trans <| (W2_of m c main_arg7 (by decide)).trans <| (W1_of m c main_arg7 (by decide))
theorem W7_v18 : W7 m c main_v18 = wT (F := Ideal) (a2 m c) := ((W7_of m c main_v18 (by decide)).trans <| (W6_keep m c main_v18 (by decide)).trans <| (W5_of m c main_v18 (by decide)).trans <| (W4_keep m c main_v18 (by decide))).trans (W3_v18 m c)
theorem W7_v20 : W7 m c main_v20 = wT (F := Ideal) (a4 m c) := ((W7_of m c main_v20 (by decide)).trans <| (W6_keep m c main_v20 (by decide)).trans <| (W5_of m c main_v20 (by decide)).trans <| (W4_keep m c main_v20 (by decide))).trans (W3_v20 m c)
theorem W7_v22 : W7 m c main_v22 = wT (F := Ideal) (a6 m c) := ((W7_of m c main_v22 (by decide)).trans <| (W6_keep m c main_v22 (by decide)).trans <| (W5_of m c main_v22 (by decide)).trans <| (W4_keep m c main_v22 (by decide))).trans (W3_v22 m c)
theorem W10_v24 : W10 m c main_v24 = wT (F := Ideal) (a8 m c) := ((W10_keep m c main_v24 (by decide)).trans <| (W9_of m c main_v24 (by decide)).trans <| (W8_keep m c main_v24 (by decide)).trans <| (W7_of m c main_v24 (by decide)).trans <| (W6_keep m c main_v24 (by decide)).trans <| (W5_of m c main_v24 (by decide)).trans <| (W4_keep m c main_v24 (by decide))).trans (W3_v24 m c)
theorem W10_v26 : W10 m c main_v26 = wRow (F := Ideal) (a10 m c) := ((W10_keep m c main_v26 (by decide)).trans <| (W9_of m c main_v26 (by decide)).trans <| (W8_keep m c main_v26 (by decide)).trans <| (W7_of m c main_v26 (by decide)).trans <| (W6_keep m c main_v26 (by decide)).trans <| (W5_of m c main_v26 (by decide)).trans <| (W4_keep m c main_v26 (by decide))).trans (W3_v26 m c)
theorem W10_arg9 : W10 m c main_arg9 = (a9 m c) := (W10_keep m c main_arg9 (by decide)).trans <| (W9_of m c main_arg9 (by decide)).trans <| (W8_keep m c main_arg9 (by decide)).trans <| (W7_of m c main_arg9 (by decide)).trans <| (W6_keep m c main_arg9 (by decide)).trans <| (W5_of m c main_arg9 (by decide)).trans <| (W4_keep m c main_arg9 (by decide)).trans <| (W3_of m c main_arg9 (by decide)).trans <| (W2_of m c main_arg9 (by decide)).trans <| (W1_of m c main_arg9 (by decide))
theorem W10_arg11 : W10 m c main_arg11 = (a11 m c) := (W10_keep m c main_arg11 (by decide)).trans <| (W9_of m c main_arg11 (by decide)).trans <| (W8_keep m c main_arg11 (by decide)).trans <| (W7_of m c main_arg11 (by decide)).trans <| (W6_keep m c main_arg11 (by decide)).trans <| (W5_of m c main_arg11 (by decide)).trans <| (W4_keep m c main_arg11 (by decide)).trans <| (W3_of m c main_arg11 (by decide)).trans <| (W2_of m c main_arg11 (by decide)).trans <| (W1_of m c main_arg11 (by decide))
theorem W8_v55 : W8 m c main_v55 = W6 m c main_v55 := (W8_keep m c main_v55 (by decide)).trans <| (W7_of m c main_v55 (by decide))
theorem W9_v55 : W9 m c main_v55 = W6 m c main_v55 := (W9_of m c main_v55 (by decide)).trans <| (W8_keep m c main_v55 (by decide)).trans <| (W7_of m c main_v55 (by decide))

end Cert.KernelIdeal.Fr

end
-- ==== Proof.ValMsgK.lean ====
/-
  The clause-message regions' payload read at an index, at the ideal values (a float an extended real, every
  operation exact, the format changes the identity). From a block of 4000 gathered rows, three slots of 128 lanes each,
  the payload computes per row: the three slots' products with the first weight matrix, each into zero rows and added
  left to right from zero; that sum scaled by one third plus the first bias (the mean stage); then two affine stages
  `x @ w + b`. The weights arrive already transposed, so `w a o` is the weight from input lane `a` to output lane
  `o`. `msgRowK` is that row function written with sums over `Fin 128`, in the order the operations leave it, and
  `k0_pay1_apply` / `k2_pay1_apply` say the payload at row `p`, lane `j` is `msgRowK` of row `p` at `j`.
  The steps: a product into zero rows is the sum over the contracted lane (the dimension numbers read axis by axis);
  a slot is a unit-thick slice viewed without its unit axis; a bias is a vector viewed as one row and spread over the
  rows; the zero word is `0` and the named constant is one third.
-/
import proofs.«421163_j37864431681664_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.ValMsgK

open Cert.KernelIdeal Cert.KernelIdeal.Gen

/-! ### The product's dimension numbers, axis by axis -/

theorem lhs_dot_0 (j : S4000x128.Idx) (k : dot_S4000x128_S128x128_S4000x128_1_0_0_1_n_n.contr.Idx) :
    (dot_S4000x128_S128x128_S4000x128_1_0_0_1_n_n.lhsIdx j k 0 : ℕ) = j 0 := by
  simp [DotDims.lhsIdx, dot_S4000x128_S128x128_S4000x128_1_0_0_1_n_n]; rfl
theorem lhs_dot_1 (j : S4000x128.Idx) (k : dot_S4000x128_S128x128_S4000x128_1_0_0_1_n_n.contr.Idx) :
    (dot_S4000x128_S128x128_S4000x128_1_0_0_1_n_n.lhsIdx j k 1 : ℕ) = k ⟨0, by decide⟩ :=
  DotDims.lhsIdx_val_of_single _ rfl j k
theorem rhs_dot_0 (j : S4000x128.Idx) (k : dot_S4000x128_S128x128_S4000x128_1_0_0_1_n_n.contr.Idx) :
    (dot_S4000x128_S128x128_S4000x128_1_0_0_1_n_n.rhsIdx j k 0 : ℕ) = k ⟨0, by decide⟩ :=
  DotDims.rhsIdx_val_of_single _ rfl j k
theorem rhs_dot_1 (j : S4000x128.Idx) (k : dot_S4000x128_S128x128_S4000x128_1_0_0_1_n_n.contr.Idx) :
    (dot_S4000x128_S128x128_S4000x128_1_0_0_1_n_n.rhsIdx j k 1 : ℕ) = j 1 := by
  simp [DotDims.rhsIdx, dot_S4000x128_S128x128_S4000x128_1_0_0_1_n_n]; rfl

/-- A product into the zero rows, read at row `p`, lane `o`: the sum over the 128 input lanes. -/
theorem matmul_zero_apply (x : FVec Ideal S4000x128 .bf16) (w : FVec Ideal S128x128 .bf16) (p : Fin 4000) (o : Fin 128) :
    matmul dot_S4000x128_S128x128_S4000x128_1_0_0_1_n_n none x w (constant S4000x128 .f32 0x00000000#32) (ix2 p o)
      = ∑ a : Fin 128, x (ix2 p a) * w (ix2 a o) := by
  refine (Ideal.matmul_constant_zero_apply dot_S4000x128_S128x128_S4000x128_1_0_0_1_n_n none x w (ix2 p o)).trans ?_
  rw [← Equiv.sum_comp (contrEquiv1 dot_S4000x128_S128x128_S4000x128_1_0_0_1_n_n 128 rfl rfl).symm]
  refine Finset.sum_congr rfl fun a _ => ?_
  refine congrArg₂ (· * ·) (congrArg x (Shape.idx_ext₂ ?_ ?_)) (congrArg w (Shape.idx_ext₂ ?_ ?_))
  · exact lhs_dot_0 _ _
  · exact (lhs_dot_1 _ _).trans (contrEquiv1_symm_val _ 128 rfl rfl a)
  · exact (rhs_dot_0 _ _).trans (contrEquiv1_symm_val _ 128 rfl rfl a)
  · exact rhs_dot_1 _ _

/-! ### The layout steps, read at an index -/

/-- Slot `k` of the gathered block, taken as a [4000,1,128] slice from offset `o = k` and viewed [4000,128],
    reads at `(p, a)` the block at `(p, k, a)`. -/
theorem slab_apply (v : FVec Ideal S4000x3x128 .bf16) (o : Nat) (h : S4000x3x128.Slices ![0, o, 0] S4000x1x128)
    (hc : S4000x1x128.ShapeCasts S4000x128) (k : Fin 3) (hk : k.val = o) (p : Fin 4000) (a : Fin 128) :
    shapeCast S4000x128 (extractStridedSlice S4000x1x128 ![0, o, 0] v h) hc (ix2 p a) = v (ix3 p k a) := by
  refine (shapeCast_apply _ hc (ix2 p a) (ix3 p (0 : Fin 1) a) ?_).trans
    (slice3_axis1_apply o v h p 0 a k (by rw [hk]; rfl))
  rw [Shape.rowMajor_val_three, Shape.rowMajor_val_two]
  show (p.val * 1 + 0) * 128 + a.val = p.val * 128 + a.val
  omega

/-- A [128] bias viewed [1,128] and spread over the 4000 rows reads at `(p, o)` the bias at `o`. -/
theorem bias_apply (b : FVec Ideal S128 .f32) (hc : S128.ShapeCasts S1x128) (hb : S1x128.Broadcasts S4000x128)
    (p : Fin 4000) (o : Fin 128) :
    broadcastTo S4000x128 (shapeCast S1x128 b hc) hb (ix2 p o) = b (ix1 o) :=
  (broadcastTo_1b_ab_apply _ hb p o).trans (shapeCast_a_1a_apply b hc 0 o)

/-- The named constant `inv_3` is the extended real one third. -/
theorem inv_3_eq : (Named.named (F := Ideal) κ "inv_3" (φ := .f32) 0x3EAAAAAB#32 : Ideal .f32) = ((1 / 3 : ℝ) : EReal) := rfl

/-- The three slots, at the literal offsets the slices are taken at. -/
theorem slab0_apply (v : FVec Ideal S4000x3x128 .bf16) (h : S4000x3x128.Slices ![0, 0, 0] S4000x1x128)
    (hc : S4000x1x128.ShapeCasts S4000x128) (p : Fin 4000) (a : Fin 128) :
    shapeCast S4000x128 (extractStridedSlice S4000x1x128 ![0, 0, 0] v h) hc (ix2 p a) = v (ix3 p (0 : Fin 3) a) :=
  slab_apply v 0 h hc 0 rfl p a
theorem slab1_apply (v : FVec Ideal S4000x3x128 .bf16) (h : S4000x3x128.Slices ![0, 1, 0] S4000x1x128)
    (hc : S4000x1x128.ShapeCasts S4000x128) (p : Fin 4000) (a : Fin 128) :
    shapeCast S4000x128 (extractStridedSlice S4000x1x128 ![0, 1, 0] v h) hc (ix2 p a) = v (ix3 p (1 : Fin 3) a) :=
  slab_apply v 1 h hc 1 rfl p a
theorem slab2_apply (v : FVec Ideal S4000x3x128 .bf16) (h : S4000x3x128.Slices ![0, 2, 0] S4000x1x128)
    (hc : S4000x1x128.ShapeCasts S4000x128) (p : Fin 4000) (a : Fin 128) :
    shapeCast S4000x128 (extractStridedSlice S4000x1x128 ![0, 2, 0] v h) hc (ix2 p a) = v (ix3 p (2 : Fin 3) a) :=
  slab_apply v 2 h hc 2 rfl p a

/-- The zero word the first sum starts from is the extended real zero. -/
theorem zero_word : (FloatOps.ofBits (F := Ideal) .f32 0x00000000#32 : Ideal .f32) = (0 : EReal) := Ideal.ofBits_zero_f32

/-! ### One row's result -/

/-- The mean stage at output lane `b`: the three slots' products into zero rows, added left to right, scaled by one
    third, plus the bias. -/
def meanRowK (g : Fin 3 → Fin 128 → EReal) (w1 : Fin 128 → Fin 128 → EReal) (b1 : Fin 128 → EReal) : Fin 128 → EReal :=
  fun b => (((0 + ∑ a : Fin 128, g 0 a * w1 a b) + ∑ a : Fin 128, g 1 a * w1 a b) + ∑ a : Fin 128, g 2 a * w1 a b)
    * ((1 / 3 : ℝ) : EReal) + b1 b

/-- An affine stage: `x @ w + b` at output lane `o` (`w a o` the weight from input lane `a` to output lane `o`). -/
def affRowK (x : Fin 128 → EReal) (w : Fin 128 → Fin 128 → EReal) (b : Fin 128 → EReal) : Fin 128 → EReal :=
  fun o => (∑ a : Fin 128, x a * w a o) + b o

/-- The row's result: the mean stage, then two affine stages, written out. -/
def msgRowK (g : Fin 3 → Fin 128 → EReal) (w1 : Fin 128 → Fin 128 → EReal) (b1 : Fin 128 → EReal)
    (w2 : Fin 128 → Fin 128 → EReal) (b2 : Fin 128 → EReal) (w3 : Fin 128 → Fin 128 → EReal) (b3 : Fin 128 → EReal) :
    Fin 128 → EReal :=
  fun j => (∑ c : Fin 128, ((∑ b : Fin 128,
      ((((0 + ∑ a : Fin 128, g 0 a * w1 a b) + ∑ a : Fin 128, g 1 a * w1 a b) + ∑ a : Fin 128, g 2 a * w1 a b)
        * ((1 / 3 : ℝ) : EReal) + b1 b) * w2 b c) + b2 c) * w3 c j) + b3 j

/-- The written-out form is the three stages composed. -/
theorem msgRowK_eq (g : Fin 3 → Fin 128 → EReal) (w1 : Fin 128 → Fin 128 → EReal) (b1 : Fin 128 → EReal)
    (w2 : Fin 128 → Fin 128 → EReal) (b2 : Fin 128 → EReal) (w3 : Fin 128 → Fin 128 → EReal) (b3 : Fin 128 → EReal) :
    msgRowK g w1 b1 w2 b2 w3 b3 = affRowK (affRowK (meanRowK g w1 b1) w2 b2) w3 b3 := rfl

/-- Region 0's payload at row `p`, lane `j` of its block: the row's result of the block's row `p` and the weights. -/
theorem k0_pay1_apply (v0 : Vec Ideal S4000x3x128 .bf16) (v2 : Vec Ideal S128x128 .bf16) (v19 : Vec Ideal S128 .f32)
    (v24 : Vec Ideal S128x128 .bf16) (v27 : Vec Ideal S128 .f32) (v32 : Vec Ideal S128x128 .bf16) (v35 : Vec Ideal S128 .f32)
    (p : Fin 4000) (j : Fin 128) :
    Gen.k0_pay1 (F := Ideal) v0 v2 v19 v24 v27 v32 v35 (ix2 p j)
      = msgRowK (fun k a => v0 (ix3 p k a)) (fun a o => v2 (ix2 a o)) (fun a => v19 (ix1 a))
          (fun a o => v24 (ix2 a o)) (fun a => v27 (ix1 a)) (fun a o => v32 (ix2 a o)) (fun a => v35 (ix1 a)) j := by
  unfold Gen.k0_pay1 msgRowK
  simp only [shapeCast_self, addf_apply, mulf_apply, truncf_apply, broadcast_apply, matmul_zero_apply, bias_apply,
    slab0_apply, slab1_apply, slab2_apply, zero_word, inv_3_eq]

/-- Region 2's payload is the same function as region 0's. -/
theorem k2_pay1_eq : @Gen.k2_pay1 = @Gen.k0_pay1 := rfl

/-- Region 2's payload at row `p`, lane `j` of its block. -/
theorem k2_pay1_apply (v0 : Vec Ideal S4000x3x128 .bf16) (v2 : Vec Ideal S128x128 .bf16) (v19 : Vec Ideal S128 .f32)
    (v24 : Vec Ideal S128x128 .bf16) (v27 : Vec Ideal S128 .f32) (v32 : Vec Ideal S128x128 .bf16) (v35 : Vec Ideal S128 .f32)
    (p : Fin 4000) (j : Fin 128) :
    Gen.k2_pay1 (F := Ideal) v0 v2 v19 v24 v27 v32 v35 (ix2 p j)
      = msgRowK (fun k a => v0 (ix3 p k a)) (fun a o => v2 (ix2 a o)) (fun a => v19 (ix1 a))
          (fun a o => v24 (ix2 a o)) (fun a => v27 (ix1 a)) (fun a o => v32 (ix2 a o)) (fun a => v35 (ix1 a)) j :=
  k0_pay1_apply v0 v2 v19 v24 v27 v32 v35 p j

end Cert.ValMsgK

end
-- ==== Proof.KIFinal0.lean ====
/- Region 0 of @main (the first clause-message call, pipeline 0) at the ideal values: the array behind its output
   window after all twenty write-backs, as ONE function of the arrays behind its seven input windows.
   Point t writes rows 4000 t … 4000 t + 3999 of the [80000,128] result; row r, lane l of the result is the row function
   (mean stage, then two affine stages) of row r of the [80000,3,128] gathered array and of the weight and bias arrays,
   whose windows' blocks are their whole arrays at every point. The argument: the block index of each window at each
   of the twenty grid points; each input block read at an index is its array read at the matching index; what a point
   writes back is its block of the whole-array function; the twenty blocks cover the array. -/
import proofs.«421163_j37864431681664_3_alg».proof.Proof.KIReg0
import proofs.«421163_j37864431681664_3_alg».proof.Proof.ValMsgK
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Final0
-- the TensorCore's buffer contents when the region is entered, at the ideal values
variable (V : (c : Dev nD) → (b : Ref sig .tc) → Buf (Elt Ideal) ((c : Thread nD τ).loc b))

/-! ## The arrays behind the input windows -/

/-- The gathered rows: 80000 rows of three slots of 128 lanes. -/
abbrev arr0_0 (c : Dev nD) : Vec Ideal S80000x3x128 .bf16 := V c (Pipeline.arrRef spec0 0)
/-- The first weight matrix. -/
abbrev arr0_1 (c : Dev nD) : Vec Ideal S128x128 .bf16 := V c (Pipeline.arrRef spec0 1)
/-- The first bias. -/
abbrev arr0_2 (c : Dev nD) : Vec Ideal S128 .f32 := V c (Pipeline.arrRef spec0 2)
/-- The second weight matrix. -/
abbrev arr0_3 (c : Dev nD) : Vec Ideal S128x128 .bf16 := V c (Pipeline.arrRef spec0 3)
/-- The second bias. -/
abbrev arr0_4 (c : Dev nD) : Vec Ideal S128 .f32 := V c (Pipeline.arrRef spec0 4)
/-- The third weight matrix. -/
abbrev arr0_5 (c : Dev nD) : Vec Ideal S128x128 .bf16 := V c (Pipeline.arrRef spec0 5)
/-- The third bias. -/
abbrev arr0_6 (c : Dev nD) : Vec Ideal S128 .f32 := V c (Pipeline.arrRef spec0 6)

/-! ## The whole result as one function of the seven arrays -/

/-- Row `i 0`, lane `i 1` of the result: the row function of row `i 0` of the gathered array and the weights. -/
abbrev msgArr0 (a0 : Vec Ideal S80000x3x128 .bf16) (a1 : Vec Ideal S128x128 .bf16) (a2 : Vec Ideal S128 .f32)
    (a3 : Vec Ideal S128x128 .bf16) (a4 : Vec Ideal S128 .f32) (a5 : Vec Ideal S128x128 .bf16) (a6 : Vec Ideal S128 .f32) :
    Vec Ideal S80000x128 .f32 :=
  fun i => Cert.ValMsgK.msgRowK (fun k a => a0 (ix3 (i 0 : Fin 80000) k a)) (fun a o => a1 (ix2 a o)) (fun a => a2 (ix1 a))
    (fun a o => a3 (ix2 a o)) (fun a => a4 (ix1 a)) (fun a o => a5 (ix2 a o)) (fun a => a6 (ix1 a)) (i 1)

/-- Zero offsets, on one, two or three axes, are the constant zero. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-! ## The windows' block indices at the twenty grid points -/

/-- At point `t` the gathered rows' window and the output window are on block `t` of their row axis and block 0 of
    the others; every weight and bias window is on block 0 of every axis. -/
theorem idx_facts0 : ∀ t : Fin cfg0.N, win0_0.index t (0 : Fin 3) = t.val
    ∧ win0_0.index t (1 : Fin 3) = 0
    ∧ win0_0.index t (2 : Fin 3) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = t.val
    ∧ win0_7.index t (1 : Fin 2) = 0 :=
  (by decide +kernel : ∀ t : Fin grid0.N, _)

/-! ## Each input block, read at an index, is its array read at the matching index

A block's coordinate in its array is the block index times the block's size plus the coordinate inside the block. -/

/-- Row `z 0` of point `t`'s block of gathered rows is row `4000 t + z 0` of the gathered array. -/
theorem blk0_0_at (c : Dev nD) (t : Fin cfg0.N) (z : S4000x3x128.Idx) (i : S80000x3x128.Idx)
    (h0 : (i 0).val = 4000 * t.val + (z 0).val) (h1 : (i 1).val = (z 1).val) (h2 : (i 2).val = (z 2).val) :
    (iblk0 (F := Ideal) V c 0 t : Vec Ideal S4000x3x128 .bf16) z = arr0_0 V c i := by
  obtain ⟨e0, e1, e2, -⟩ := idx_facts0 t
  show V c (Pipeline.arrRef spec0 0) (((cfg0.win 0).blk t).view.emb z) = V c (Pipeline.arrRef spec0 0) i
  refine congrArg _ (funext fun a => Fin.ext ?_)
  match a with
  | ⟨0, _⟩ => show win0_0.index t (0 : Fin 3) * 4000 + 1 * (z 0).val = (i 0).val; omega
  | ⟨1, _⟩ => show win0_0.index t (1 : Fin 3) * 3 + 1 * (z 1).val = (i 1).val; omega
  | ⟨2, _⟩ => show win0_0.index t (2 : Fin 3) * 128 + 1 * (z 2).val = (i 2).val; omega

/-- The first weight matrix's block is the matrix at every point. -/
theorem blk0_1_at (c : Dev nD) (t : Fin cfg0.N) (z : S128x128.Idx) :
    (iblk0 (F := Ideal) V c 1 t : Vec Ideal S128x128 .bf16) z = arr0_1 V c z := by
  obtain ⟨-, -, -, e0, e1, -⟩ := idx_facts0 t
  show V c (Pipeline.arrRef spec0 1) (((cfg0.win 1).blk t).view.emb z) = V c (Pipeline.arrRef spec0 1) z
  refine congrArg _ (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- The first bias's block is the bias at every point. -/
theorem blk0_2_at (c : Dev nD) (t : Fin cfg0.N) (z : S128.Idx) :
    (iblk0 (F := Ideal) V c 2 t : Vec Ideal S128 .f32) z = arr0_2 V c z := by
  obtain ⟨-, -, -, -, -, e0, -⟩ := idx_facts0 t
  show V c (Pipeline.arrRef spec0 2) (((cfg0.win 2).blk t).view.emb z) = V c (Pipeline.arrRef spec0 2) z
  refine congrArg _ (funext fun a => Fin.ext ?_)
  match a with
  | ⟨0, _⟩ => show win0_2.index t (0 : Fin 1) * 128 + 1 * (z 0).val = (z 0).val; omega

/-- The second weight matrix's block is the matrix at every point. -/
theorem blk0_3_at (c : Dev nD) (t : Fin cfg0.N) (z : S128x128.Idx) :
    (iblk0 (F := Ideal) V c 3 t : Vec Ideal S128x128 .bf16) z = arr0_3 V c z := by
  obtain ⟨-, -, -, -, -, -, e0, e1, -⟩ := idx_facts0 t
  show V c (Pipeline.arrRef spec0 3) (((cfg0.win 3).blk t).view.emb z) = V c (Pipeline.arrRef spec0 3) z
  refine congrArg _ (funext fun a => Fin.ext ?_)
  match a with
  | ⟨0, _⟩ => show win0_3.index t (0 : Fin 2) * 128 + 1 * (z 0).val = (z 0).val; omega
  | ⟨1, _⟩ => show win0_3.index t (1 : Fin 2) * 128 + 1 * (z 1).val = (z 1).val; omega

/-- The second bias's block is the bias at every point. -/
theorem blk0_4_at (c : Dev nD) (t : Fin cfg0.N) (z : S128.Idx) :
    (iblk0 (F := Ideal) V c 4 t : Vec Ideal S128 .f32) z = arr0_4 V c z := by
  obtain ⟨-, -, -, -, -, -, -, -, e0, -⟩ := idx_facts0 t
  show V c (Pipeline.arrRef spec0 4) (((cfg0.win 4).blk t).view.emb z) = V c (Pipeline.arrRef spec0 4) z
  refine congrArg _ (funext fun a => Fin.ext ?_)
  match a with
  | ⟨0, _⟩ => show win0_4.index t (0 : Fin 1) * 128 + 1 * (z 0).val = (z 0).val; omega

/-- The third weight matrix's block is the matrix at every point. -/
theorem blk0_5_at (c : Dev nD) (t : Fin cfg0.N) (z : S128x128.Idx) :
    (iblk0 (F := Ideal) V c 5 t : Vec Ideal S128x128 .bf16) z = arr0_5 V c z := by
  obtain ⟨-, -, -, -, -, -, -, -, -, e0, e1, -⟩ := idx_facts0 t
  show V c (Pipeline.arrRef spec0 5) (((cfg0.win 5).blk t).view.emb z) = V c (Pipeline.arrRef spec0 5) z
  refine congrArg _ (funext fun a => Fin.ext ?_)
  match a with
  | ⟨0, _⟩ => show win0_5.index t (0 : Fin 2) * 128 + 1 * (z 0).val = (z 0).val; omega
  | ⟨1, _⟩ => show win0_5.index t (1 : Fin 2) * 128 + 1 * (z 1).val = (z 1).val; omega

/-- The third bias's block is the bias at every point. -/
theorem blk0_6_at (c : Dev nD) (t : Fin cfg0.N) (z : S128.Idx) :
    (iblk0 (F := Ideal) V c 6 t : Vec Ideal S128 .f32) z = arr0_6 V c z := by
  obtain ⟨-, -, -, -, -, -, -, -, -, -, -, e0, -⟩ := idx_facts0 t
  show V c (Pipeline.arrRef spec0 6) (((cfg0.win 6).blk t).view.emb z) = V c (Pipeline.arrRef spec0 6) z
  refine congrArg _ (funext fun a => Fin.ext ?_)
  match a with
  | ⟨0, _⟩ => show win0_6.index t (0 : Fin 1) * 128 + 1 * (z 0).val = (z 0).val; omega

/-- Where element `y` of point `t`'s output block sits in the result: row `4000 t + y 0`, lane `y 1`. -/
theorem emb0_7_at (t : Fin cfg0.N) (y : S4000x128.Idx) :
    (((((cfg0.win 7).blk t).view.emb y : S80000x128.Idx) 0).val = 4000 * t.val + (y 0).val)
    ∧ (((((cfg0.win 7).blk t).view.emb y : S80000x128.Idx) 1).val = (y 1).val) := by
  obtain ⟨-, -, -, -, -, -, -, -, -, -, -, -, e0, e1⟩ := idx_facts0 t
  constructor
  · show win0_7.index t (0 : Fin 2) * 4000 + 1 * (y 0).val = _; omega
  · show win0_7.index t (1 : Fin 2) * 128 + 1 * (y 1).val = _; omega

/-! ## The payload at an element of a block whose inputs are the arrays' matching rows -/

/-- If block row `y 0` of the gathered block is row `i 0` of the gathered array, the weight and bias blocks are their
    arrays, and the lanes agree, the payload at `y` is the whole-array function at `i`. -/
theorem pay0_at (x0 : Vec Ideal S4000x3x128 .bf16) (x1 : Vec Ideal S128x128 .bf16) (x2 : Vec Ideal S128 .f32)
    (x3 : Vec Ideal S128x128 .bf16) (x4 : Vec Ideal S128 .f32) (x5 : Vec Ideal S128x128 .bf16) (x6 : Vec Ideal S128 .f32)
    (a0 : Vec Ideal S80000x3x128 .bf16) (a1 : Vec Ideal S128x128 .bf16) (a2 : Vec Ideal S128 .f32)
    (a3 : Vec Ideal S128x128 .bf16) (a4 : Vec Ideal S128 .f32) (a5 : Vec Ideal S128x128 .bf16) (a6 : Vec Ideal S128 .f32)
    (y : S4000x128.Idx) (i : S80000x128.Idx)
    (h0 : ∀ (k : Fin 3) (a : Fin 128), x0 (ix3 (y 0 : Fin 4000) k a) = a0 (ix3 (i 0 : Fin 80000) k a))
    (h1 : ∀ a o : Fin 128, x1 (ix2 a o) = a1 (ix2 a o)) (h2 : ∀ a : Fin 128, x2 (ix1 a) = a2 (ix1 a))
    (h3 : ∀ a o : Fin 128, x3 (ix2 a o) = a3 (ix2 a o)) (h4 : ∀ a : Fin 128, x4 (ix1 a) = a4 (ix1 a))
    (h5 : ∀ a o : Fin 128, x5 (ix2 a o) = a5 (ix2 a o)) (h6 : ∀ a : Fin 128, x6 (ix1 a) = a6 (ix1 a))
    (hl : (y 1).val = (i 1).val) :
    k0_pay1 (F := Ideal) x0 x1 x2 x3 x4 x5 x6 y = msgArr0 a0 a1 a2 a3 a4 a5 a6 i := by
  refine (congrArg (k0_pay1 (F := Ideal) x0 x1 x2 x3 x4 x5 x6) (eq_ix2 y)).trans ?_
  refine (Cert.ValMsgK.k0_pay1_apply x0 x1 x2 x3 x4 x5 x6 (y 0) (y 1)).trans ?_
  simp only [h0, h1, h2, h3, h4, h5, h6]
  exact congrArg _ (Fin.ext hl)

/-! ## What a point writes back -/

/-- WHAT POINT `t` WRITES BACK is block `t` of the whole-array function of the arrays as the region finds them. -/
theorem flushed0_7_eq (c : Dev nD) (t : Fin cfg0.N) :
    (dat0 (F := Ideal) V c).flushed 7 t = ((cfg0.win 7).blk t).view.read (Elt Ideal)
      (msgArr0 (arr0_0 V c) (arr0_1 V c) (arr0_2 V c) (arr0_3 V c) (arr0_4 V c) (arr0_5 V c) (arr0_6 V c)) := by
  show (cfg0.win 7).cut (grid0.coords t) ((dat0 (F := Ideal) V c).after 7 t) = _
  rw [after0_7]
  unfold out0_7
  rw [View.canon_unit_zero hz2]
  simp only [View.ld_unit_zero (S := S4000x3x128) hz3, View.ld_unit_zero (S := S128x128) hz2, View.ld_unit_zero (S := S128) hz1]
  funext y
  show k0_pay1 (F := Ideal) (iblk0 V c 0 t) (iblk0 V c 1 t) (iblk0 V c 2 t) (iblk0 V c 3 t) (iblk0 V c 4 t) (iblk0 V c 5 t) (iblk0 V c 6 t) y
    = msgArr0 (arr0_0 V c) (arr0_1 V c) (arr0_2 V c) (arr0_3 V c) (arr0_4 V c) (arr0_5 V c) (arr0_6 V c) (((cfg0.win 7).blk t).view.emb y)
  obtain ⟨hr, hl⟩ := emb0_7_at t y
  refine pay0_at _ _ _ _ _ _ _ _ _ _ _ _ _ _ y _ (fun k a => ?_) (fun a o => ?_) (fun a => ?_) (fun a o => ?_) (fun a => ?_) (fun a o => ?_) (fun a => ?_) hl.symm
  · exact blk0_0_at V c t _ _ hr rfl rfl
  · exact blk0_1_at V c t _
  · exact blk0_2_at V c t _
  · exact blk0_3_at V c t _
  · exact blk0_4_at V c t _
  · exact blk0_5_at V c t _
  · exact blk0_6_at V c t _

/-! ## The twenty blocks cover the result -/

/-- An index of the result is in point `t`'s block iff each coordinate is in the block's range on its axis. -/
theorem mem_blk0_7 (t : Fin cfg0.N) (i : S80000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v44).slice (win0_7.rect t)).set ↔ _
  rw [View.set_slice_whole, Rect.mem_set_unit]
  exact Iff.rfl

/-- Row `r` of the result is in the block of point `r / 4000`, which writes back. -/
theorem covered0_7 (i : S80000x128.Idx) :
    ∃ t : Fin cfg0.N, (cfg0.win 7).flush t = true ∧ i ∈ ((cfg0.win 7).blk t).view.set := by
  have hi0 : (i 0).val < 80000 := (i 0).isLt
  have hi1 : (i 1).val < 128 := (i 1).isLt
  obtain ⟨t, ht⟩ : ∃ t : Fin cfg0.N, t.val = (i 0).val / 4000 :=
    ⟨⟨(i 0).val / 4000, by show _ < grid0.N; rw [N_0]; omega⟩, rfl⟩
  refine ⟨t, flush0_7 t, ?_⟩
  rw [mem_blk0_7]
  obtain ⟨-, -, -, -, -, -, -, -, -, -, -, -, e0, e1⟩ := idx_facts0 t
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

/-! ## The result array after the region -/

/-- THE ARRAY behind the output window after the region: row `i 0`, lane `i 1` is the row function of row `i 0` of the
    gathered array and of the weight and bias arrays, all as the region finds them. -/
theorem final0 (c : Dev nD) :
    (dat0 (F := Ideal) V c).arrAt 7 cfg0.N = fun (i : S80000x128.Idx) =>
      Cert.ValMsgK.msgRowK (fun k a => arr0_0 V c (ix3 (i 0 : Fin 80000) k a)) (fun a o => arr0_1 V c (ix2 a o))
        (fun a => arr0_2 V c (ix1 a)) (fun a o => arr0_3 V c (ix2 a o)) (fun a => arr0_4 V c (ix1 a))
        (fun a o => arr0_5 V c (ix2 a o)) (fun a => arr0_6 V c (ix1 a)) (i 1) :=
  (dat0 (F := Ideal) V c).arrAt_eq_of_cover 7
    (msgArr0 (arr0_0 V c) (arr0_1 V c) (arr0_2 V c) (arr0_3 V c) (arr0_4 V c) (arr0_5 V c) (arr0_6 V c))
    (fun t _ => flushed0_7_eq V c t) covered0_7

end Final0

end Cert.KernelIdeal.Fr

end
-- ==== Proof.ValUpdK.lean ====
import proofs.«421163_j37864431681664_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

/-!
# The state update of one block, read at one cell

The update step adds to every state row of a variable the mean of the messages its clauses sent:
from the counts `cnt : [2000, 1]`, the message sums `sum : [2000, 128]` and the state block
`s : [4, 2000, 128]` it forms the inverse count `inv = if 0 < cnt then 1 / max cnt 1 else 0`, spreads it
along the feature axis, multiplies the sums by it, and adds the product to each of the four batch
slices of the state. Over the extended reals every operation is exact, so at the cell
`(b, p, h)` the result is `s (b, p, h) + sum (p, h) * inv (p)`.
-/

noncomputable section

namespace Cert.ValUpdK

open Idealize.ShloMosaic Idealize.ShloMosaic.ValueIdx Cert.KernelIdeal

/-- One cell of the updated state: the old state plus the message sum scaled by the inverse count,
    where a variable no clause mentions (count not above zero) keeps its state. The quotient is the
    extended reals' division with its documented corners; the divisor `max cnt 1` is never zero. -/
def updCellK (s : EReal) (sum : EReal) (cnt : EReal) : EReal :=
  s + sum * (if 0 < cnt then Ideal.div 1 (max cnt 1) else 0)

/-- The inverse count of one variable as the operations leave it: a select on the comparison
    `cnt > 0` between the quotient `1 / max cnt 1` and zero, the three literals being the words of
    `0` and `1`. -/
theorem invCount_eq (c : EReal) :
    Scalar.select (Ideal.cmp .ogt c (Ideal.ofBits .f32 0x00000000#32))
        (Ideal.div (Ideal.ofBits .f32 0x3F800000#32) (max c (Ideal.ofBits .f32 0x3F800000#32)))
        (Ideal.ofBits .f32 0x00000000#32)
      = if 0 < c then Ideal.div 1 (max c 1) else 0 := by
  rw [Ideal.ofBits_zero_f32, Ideal.ofBits_one_f32]
  unfold Scalar.select Ideal.cmp
  by_cases h : 0 < c
  · simp [h]
  · simp [h]

/-- A `[2000, 1]` column spread along the feature axis reads, at `(p, h)`, the column at `(p, 0)`. -/
theorem spreadFeature_apply {α : Type} (x : S2000x1.Idx → α) (hb : S2000x1.Broadcasts S2000x128)
    (p : Fin 2000) (h : Fin 128) :
    broadcastTo S2000x128 x hb (ix2 p h) = x (ix2 p (0 : Fin 1)) := by
  refine broadcastTo_apply x hb (ix2 p h) (ix2 p (0 : Fin 1)) fun ax => ?_
  match ax with
  | ⟨0, _⟩ => rfl
  | ⟨1, _⟩ => rfl

/-- A `[1, 2000, 128]` block spread over the four batch slices reads, at `(b, p, h)`, the block at
    `(0, p, h)`. -/
theorem spreadBatch_apply {α : Type} (x : S1x2000x128.Idx → α) (hb : S1x2000x128.Broadcasts S4x2000x128)
    (b : Fin 4) (p : Fin 2000) (h : Fin 128) :
    broadcastTo S4x2000x128 x hb (ix3 b p h) = x (ix3 (0 : Fin 1) p h) := by
  refine broadcastTo_apply x hb (ix3 b p h) (ix3 (0 : Fin 1) p h) fun ax => ?_
  match ax with
  | ⟨0, _⟩ => rfl
  | ⟨1, _⟩ => rfl
  | ⟨2, _⟩ => rfl

/-- The update's value at the cell `(b, p, h)` of the block. -/
theorem k1_pay1_apply (v0 : Vec Ideal S2000x1 .f32) (v2 : Vec Ideal S2000x128 .f32)
    (v14 : Vec Ideal S4x2000x128 .f32) (b : Fin 4) (p : Fin 2000) (h : Fin 128) :
    Gen.k1_pay1 (F := Ideal) v0 v2 v14 (ix3 b p h)
      = updCellK (v14 (ix3 b p h)) (v2 (ix2 p h)) (v0 (ix2 p 0)) := by
  unfold Gen.k1_pay1 updCellK
  simp only [shapeCast_self]
  rw [addf_apply, spreadBatch_apply, shapeCast_ab_1ab_apply, mulf_apply, spreadFeature_apply]
  exact congrArg (fun t => v14 (ix3 b p h) + v2 (ix2 p h) * t) (invCount_eq (v0 (ix2 p 0)))

/-- The second update step runs the same operations on the same shapes. -/
theorem k3_pay1_eq : @Gen.k3_pay1 = @Gen.k1_pay1 := rfl

/-- So the second update's value at a cell is the same function of its three blocks. -/
theorem k3_pay1_apply (v0 : Vec Ideal S2000x1 .f32) (v2 : Vec Ideal S2000x128 .f32)
    (v14 : Vec Ideal S4x2000x128 .f32) (b : Fin 4) (p : Fin 2000) (h : Fin 128) :
    Gen.k3_pay1 (F := Ideal) v0 v2 v14 (ix3 b p h)
      = updCellK (v14 (ix3 b p h)) (v2 (ix2 p h)) (v0 (ix2 p 0)) :=
  k1_pay1_apply v0 v2 v14 b p h

end Cert.ValUpdK
-- ==== Proof.KIFinal1.lean ====
/-
  REGION 1's OUTPUT ARRAY IN CLOSED FORM, over the extended reals. The region's grid walks the node
  axis in 25 blocks of 2000 rows; at each point the body adds, to each of the four copies of the
  node block, the block of summed messages scaled row by row by the inverse count. All three input
  windows move with the point, each block is written back once, and the 25 blocks tile the array:
  so the array behind the output window ends as ONE function of the arrays behind the input
  windows, cell by cell: the old state plus the message sum of the cell's row scaled by the inverse
  of that row's count.
-/
import proofs.«421163_j37864431681664_3_alg».proof.Proof.KIReg1
import proofs.«421163_j37864431681664_3_alg».proof.Proof.ValUpdK
import Idealize.ShloMosaic.Lib.Pipeline.Value
import Idealize.ShloMosaic.Lib.ValueIdx

-- membership in a rectangle of long extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Final1
-- the core's buffer contents when the region is entered
variable (V : (c : Dev nD) → (b : Ref sig .tc) → Buf (Elt Ideal) ((c : Thread nD τ).loc b))

/-! ## The arrays behind the input windows -/

/-- The state array (four copies of every node row) as the region finds it. -/
abbrev arr1_0 (c : Dev nD) : Vec Ideal S4x50000x128 .f32 := V c (Pipeline.arrRef spec1 0)
/-- The summed messages, one row per node. -/
abbrev arr1_1 (c : Dev nD) : Vec Ideal S50000x128 .f32 := V c (Pipeline.arrRef spec1 1)
/-- The counts, one per node. -/
abbrev arr1_2 (c : Dev nD) : Vec Ideal S50000x1 .f32 := V c (Pipeline.arrRef spec1 2)

/-- The updated state as one function of the three arrays: at copy `i 0`, node `i 1`, feature `i 2`,
    the old state plus the node's message sum at that feature scaled by the node's inverse count. -/
def upd1 (a0 : Vec Ideal S4x50000x128 .f32) (a1 : Vec Ideal S50000x128 .f32) (a2 : Vec Ideal S50000x1 .f32) :
    Vec Ideal S4x50000x128 .f32 :=
  fun i => Cert.ValUpdK.updCellK (a0 i) (a1 (ix2 (i 1) (i 2))) (a2 (ix2 (i 1) 0))

theorem hz1_3 : (![0, 0, 0] : Fin 3 → Nat) = fun _ => 0 := funext fun a => by fin_cases a <;> rfl
theorem hz1_2 : (![0, 0] : Fin 2 → Nat) = fun _ => 0 := funext fun a => by fin_cases a <;> rfl

/-- The body's payload read at one cell of the block. -/
theorem pay1_at (x0 : Vec Ideal S4x2000x128 .f32) (x1 : Vec Ideal S2000x128 .f32) (x2 : Vec Ideal S2000x1 .f32)
    (j : S4x2000x128.Idx) :
    k1_pay1 (F := Ideal) x2 x1 x0 j = Cert.ValUpdK.updCellK (x0 j) (x1 (ix2 (j 1) (j 2))) (x2 (ix2 (j 1) 0)) := by
  obtain ⟨b, p, h, rfl⟩ : ∃ (b : Fin 4) (p : Fin 2000) (h : Fin 128), j = ix3 b p h := ⟨j 0, j 1, j 2, eq_ix3 j⟩
  exact Cert.ValUpdK.k1_pay1_apply x2 x1 x0 b p h

/-- The printed index maps, decided over the grid: on the node axis every window's block index is
    the point itself, on every other axis it is zero. -/
theorem idx_facts1 : ∀ t : Fin cfg1.N,
    win1_0.index t (0 : Fin 3) = 0 ∧ win1_0.index t (1 : Fin 3) = t.val ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = t.val ∧ win1_3.index t (2 : Fin 3) = 0 :=
  (by decide +kernel : ∀ t : Fin grid1.N, _)

/-! ## Each input block, read where the output's rectangle says -/

/-- The state block at point `t`, at a cell, is the state array at the cell's place in the output's block. -/
theorem blk1_0_at (c : Dev nD) (t : Fin cfg1.N) (j : S4x2000x128.Idx) :
    (iblk1 V c 0 t : Vec Ideal S4x2000x128 .f32) j = arr1_0 V c (((cfg1.win 3).blk t).view.emb j) := by
  obtain ⟨e00, e01, e02, e10, e11, e20, e21, e30, e31, e32⟩ := idx_facts1 t
  show V c (Pipeline.arrRef spec1 0) (((cfg1.win 0).blk t).view.emb j) = V c (Pipeline.arrRef spec1 0) (((cfg1.win 3).blk t).view.emb j)
  refine congrArg _ ?_
  funext a; apply Fin.ext
  match a with
  | ⟨0, _⟩ => show win1_0.index t (0 : Fin 3) * 4 + 1 * (j 0).val = win1_3.index t (0 : Fin 3) * 4 + 1 * (j 0).val; omega
  | ⟨1, _⟩ => show win1_0.index t (1 : Fin 3) * 2000 + 1 * (j 1).val = win1_3.index t (1 : Fin 3) * 2000 + 1 * (j 1).val; omega
  | ⟨2, _⟩ => show win1_0.index t (2 : Fin 3) * 128 + 1 * (j 2).val = win1_3.index t (2 : Fin 3) * 128 + 1 * (j 2).val; omega

/-- The message-sum block at point `t`, at the cell's row and feature, is the message array at the
    row and feature of the cell's place in the output's block. -/
theorem blk1_1_at (c : Dev nD) (t : Fin cfg1.N) (j : S4x2000x128.Idx) :
    (iblk1 V c 1 t : Vec Ideal S2000x128 .f32) (ix2 (j 1) (j 2))
      = arr1_1 V c (ix2 ((((cfg1.win 3).blk t).view.emb j) 1) ((((cfg1.win 3).blk t).view.emb j) 2)) := by
  obtain ⟨e00, e01, e02, e10, e11, e20, e21, e30, e31, e32⟩ := idx_facts1 t
  show V c (Pipeline.arrRef spec1 1) (((cfg1.win 1).blk t).view.emb (ix2 (j 1) (j 2))) = V c (Pipeline.arrRef spec1 1) _
  refine congrArg _ ?_
  funext a; apply Fin.ext
  match a with
  | ⟨0, _⟩ => show win1_1.index t (0 : Fin 2) * 2000 + 1 * (j 1).val = win1_3.index t (1 : Fin 3) * 2000 + 1 * (j 1).val; omega
  | ⟨1, _⟩ => show win1_1.index t (1 : Fin 2) * 128 + 1 * (j 2).val = win1_3.index t (2 : Fin 3) * 128 + 1 * (j 2).val; omega

/-- The count block at point `t`, at the cell's row, is the count array at the row of the cell's
    place in the output's block. -/
theorem blk1_2_at (c : Dev nD) (t : Fin cfg1.N) (j : S4x2000x128.Idx) :
    (iblk1 V c 2 t : Vec Ideal S2000x1 .f32) (ix2 (j 1) 0)
      = arr1_2 V c (ix2 ((((cfg1.win 3).blk t).view.emb j) 1) 0) := by
  obtain ⟨e00, e01, e02, e10, e11, e20, e21, e30, e31, e32⟩ := idx_facts1 t
  show V c (Pipeline.arrRef spec1 2) (((cfg1.win 2).blk t).view.emb (ix2 (j 1) 0)) = V c (Pipeline.arrRef spec1 2) _
  refine congrArg _ ?_
  funext a; apply Fin.ext
  match a with
  | ⟨0, _⟩ => show win1_2.index t (0 : Fin 2) * 2000 + 1 * (j 1).val = win1_3.index t (1 : Fin 3) * 2000 + 1 * (j 1).val; omega
  | ⟨1, _⟩ => show win1_2.index t (1 : Fin 2) * 1 + 1 * 0 = 0; omega

/-! ## What each point writes back -/

/-- WHAT POINT `t` WRITES BACK is block `t` of the updated state of the arrays as the region finds them. -/
theorem flushed1_3_eq (c : Dev nD) (t : Fin cfg1.N) :
    (dat1 V c).flushed 3 t
      = ((cfg1.win 3).blk t).view.read (Elt Ideal) (upd1 (arr1_0 V c) (arr1_1 V c) (arr1_2 V c)) := by
  show (cfg1.win 3).cut (grid1.coords t) ((dat1 V c).after 3 t) = _
  rw [after1_3]
  unfold out1_3
  rw [View.canon_unit_zero hz1_3]
  simp only [View.ld_unit_zero (S := S4x2000x128) hz1_3, View.ld_unit_zero (S := S2000x128) hz1_2,
    View.ld_unit_zero (S := S2000x1) hz1_2]
  funext j
  show k1_pay1 (F := Ideal) (iblk1 V c 2 t) (iblk1 V c 1 t) (iblk1 V c 0 t) j
    = upd1 (arr1_0 V c) (arr1_1 V c) (arr1_2 V c) (((cfg1.win 3).blk t).view.emb j)
  rw [pay1_at (iblk1 V c 0 t) (iblk1 V c 1 t) (iblk1 V c 2 t) j, blk1_0_at V c t j, blk1_1_at V c t j, blk1_2_at V c t j]
  rfl

/-! ## The blocks tile the array -/

/-- An index of the array is in point `t`'s block iff each coordinate is in the block's range on its axis. -/
theorem mem_blk1_3 (t : Fin cfg1.N) (i : S4x50000x128.Idx) :
    i ∈ ((cfg1.win 3).blk t).view.set ↔ ∀ a : Fin 3, win1_3.index t a * S4x2000x128.size a ≤ (i a).val ∧ (i a).val < win1_3.index t a * S4x2000x128.size a + S4x2000x128.size a := by
  show i ∈ ((View.whole (Pipeline.arrRef spec1 3)).slice (win1_3.rect t)).set ↔ _
  rw [View.set_slice_whole, Rect.mem_set_unit]
  exact Iff.rfl

/-- Every cell of the array is in the block of the point its node row falls in: row `r` is in block `r / 2000`. -/
theorem cover1_3_arr (i : S4x50000x128.Idx) :
    ∃ t : Fin cfg1.N, (cfg1.win 3).flush t = true ∧ i ∈ ((cfg1.win 3).blk t).view.set := by
  have hN : cfg1.N = 25 := N_1
  have hi0 : (i 0).val < 4 := (i 0).isLt
  have hi1 : (i 1).val < 50000 := (i 1).isLt
  have hi2 : (i 2).val < 128 := (i 2).isLt
  have ht : (i 1).val / 2000 < cfg1.N := by omega
  refine ⟨⟨(i 1).val / 2000, ht⟩, flush1_3 _, ?_⟩
  obtain ⟨e00, e01, e02, e10, e11, e20, e21, e30, e31, e32⟩ := idx_facts1 ⟨(i 1).val / 2000, ht⟩
  have e31' : win1_3.index ⟨(i 1).val / 2000, ht⟩ (1 : Fin 3) = (i 1).val / 2000 := e31
  rw [mem_blk1_3]
  intro a
  match a with
  | ⟨0, _⟩ => show win1_3.index ⟨(i 1).val / 2000, ht⟩ (0 : Fin 3) * 4 ≤ (i 0).val ∧ (i 0).val < win1_3.index ⟨(i 1).val / 2000, ht⟩ (0 : Fin 3) * 4 + 4; omega
  | ⟨1, _⟩ => show win1_3.index ⟨(i 1).val / 2000, ht⟩ (1 : Fin 3) * 2000 ≤ (i 1).val ∧ (i 1).val < win1_3.index ⟨(i 1).val / 2000, ht⟩ (1 : Fin 3) * 2000 + 2000; omega
  | ⟨2, _⟩ => show win1_3.index ⟨(i 1).val / 2000, ht⟩ (2 : Fin 3) * 128 ≤ (i 2).val ∧ (i 2).val < win1_3.index ⟨(i 1).val / 2000, ht⟩ (2 : Fin 3) * 128 + 128; omega

/-! ## The array after the region -/

/-- THE ARRAY behind the output window after the region's last write-back: the updated state of the
    arrays behind the input windows, cell by cell. -/
theorem final1 (c : Dev nD) :
    (dat1 (F := Ideal) V c).arrAt 3 cfg1.N
      = fun i => Cert.ValUpdK.updCellK (arr1_0 V c i) (arr1_1 V c (ix2 (i 1) (i 2))) (arr1_2 V c (ix2 (i 1) 0)) :=
  (dat1 V c).arrAt_eq_of_cover 3 (upd1 (arr1_0 V c) (arr1_1 V c) (arr1_2 V c)) (fun t _ => flushed1_3_eq V c t) cover1_3_arr

end Final1

end Cert.KernelIdeal.Fr

end
-- ==== Proof.ChainEq.lean ====
import proofs.«421163_j37864431681664_3_alg».proof.Proof.KHost
import proofs.«421163_j37864431681664_3_alg».proof.Proof.RefReadP

/-! # The two programs share their host-side chains

Both programs compute, outside the kernels, the same index bookkeeping from the clause table
`a0 : [4,20000,3]`: the first-occurrence mask of each clause slot, the flat variable indices, the
per-variable counts (a scatter-add of the mask), the `(batch, variable)` index pairs of the state
gather, the gather itself, and the scatter-add of the clause messages back into the variables' rows.
The two programs spell these with the same tensor operations in the same order, so each pair of
terms is equal by unfolding the names on both sides: no operation is evaluated.

The one difference in spelling is the message operand of the scatter-add: one side holds the
messages as an `[80000,128]` table (batch and clause axes merged) and splits the axes first, the
other holds them as `[4,20000,128]`. `refScatter` names the second form with the messages abstracted. -/

noncomputable section

namespace Cert.KernelIdeal.Fr

open Cert.KernelIdeal Cert.KernelIdeal.Gen
open Idealize.ShloMosaic Idealize.ShloMosaic.TcCoe Idealize.SL.Sem Idealize.ShloMosaic.StableHlo

variable {F : FTy → Type} [FloatOps F] [Named F]

/-- The contents of a tensor of shape `s` and element type `e`. -/
local notation "𝕋[" s ", " e "]" => BufTy.Contents (Elt F) (BufTy.mk s e)

/-- The first-occurrence mask is the same term in both programs. -/
theorem firstMask_eq (a0 : 𝕋[S4x20000x3, .i32]) :
    firstMask (F := F) a0 = Cert.ReferenceIdeal.Read.val_main_v9 (F := F) a0 := rfl

/-- The flat variable indices are the same term in both programs. -/
theorem flatIdx_eq (a0 : 𝕋[S4x20000x3, .i32]) :
    flatIdx (F := F) a0 = Cert.ReferenceIdeal.Read.val_main_v10 (F := F) a0 := rfl

/-- The per-variable counts: one program reshapes the flat counts to a column, the other keeps them flat. -/
theorem varCounts_eq (a0 : 𝕋[S4x20000x3, .i32]) :
    varCounts (F := F) a0 = shapeCast S50000x1 (Cert.ReferenceIdeal.Read.val_main_v13 (F := F) a0) shapeCasts_S50000_S50000x1 := rfl

/-- The first gather of the state's rows at the clauses' variables is the same term in both programs. -/
theorem gathered_eq (S : 𝕋[S4x50000x128, .f32]) (a0 : 𝕋[S4x20000x3, .i32]) :
    gathered (F := F) S (batchIota (F := F)) a0 = Cert.ReferenceIdeal.Read.val_main_v30 (F := F) a0 S := rfl

/-- The second gather, of the state after the first update, likewise. -/
theorem gathered2_eq (x0 : 𝕋[S4x20000x3, .i32]) (x1 : 𝕋[S4x50000x128, .f32]) (x2 : 𝕋[S128x128, .f32]) (x3 : 𝕋[S128, .f32]) (x4 : 𝕋[S128x128, .f32]) (x5 : 𝕋[S128, .f32]) (x6 : 𝕋[S128x128, .f32]) (x7 : 𝕋[S128, .f32]) :
    gathered (F := F) (Cert.ReferenceIdeal.Read.val_main_v66 (F := F) x0 x1 x2 x3 x4 x5 x6 x7) (batchIota (F := F)) x0
      = Cert.ReferenceIdeal.Read.val_main_v81 (F := F) x0 x1 x2 x3 x4 x5 x6 x7 := rfl

/-- The scatter-add of the clause messages `M' : [4,20000,128]` into the variables' rows: each message
    repeated over its clause's three slots, weighted by the first-occurrence mask, and added into the
    row its slot's variable names, from a zero `[50000,128]` table. -/
def refScatter (M' : 𝕋[S4x20000x128, .f32]) (x0 : 𝕋[S4x20000x3, .i32]) : 𝕋[S50000x128, .f32] :=
  Host.scatterAdd scatter_S50000x128_S240000x1_S240000x128_1_0_0_1
    (Cert.ReferenceIdeal.Read.val_main_v52 (F := F))
    (Cert.ReferenceIdeal.Read.val_main_v53 (F := F) x0)
    (mulf (shapeCast S240000x128 (broadcastInDim S4x20000x3x128 ![0, 1, 2, 3] bcast_S4x20000x1x128_S4x20000x3x128_0_1_2_3
              (broadcastInDim S4x20000x1x128 ![0, 1, 3] bcast_S4x20000x128_S4x20000x1x128_0_1_3 M' : 𝕋[S4x20000x1x128, .f32]) : 𝕋[S4x20000x3x128, .f32])
            shapeCasts_S4x20000x3x128_S240000x128 : 𝕋[S240000x128, .f32])
          (Cert.ReferenceIdeal.Read.val_main_v50 (F := F) x0) : 𝕋[S240000x128, .f32])

/-- The first round's scatter-add is `refScatter` of the first round's messages. -/
theorem refScatter1_eq (x0 : 𝕋[S4x20000x3, .i32]) (x1 : 𝕋[S4x50000x128, .f32]) (x2 : 𝕋[S128x128, .f32]) (x3 : 𝕋[S128, .f32]) (x4 : 𝕋[S128x128, .f32]) (x5 : 𝕋[S128, .f32]) (x6 : 𝕋[S128x128, .f32]) (x7 : 𝕋[S128, .f32]) :
    Cert.ReferenceIdeal.Read.val_main_v54 (F := F) x0 x1 x2 x3 x4 x5 x6 x7 = refScatter (Cert.ReferenceIdeal.Read.val_main_v45 (F := F) x0 x1 x2 x3 x4 x5 x6 x7) x0 := rfl

/-- The second round's scatter-add is `refScatter` of the second round's messages. -/
theorem refScatter2_eq (x0 : 𝕋[S4x20000x3, .i32]) (x1 : 𝕋[S4x50000x128, .f32]) (x2 : 𝕋[S128x128, .f32]) (x3 : 𝕋[S128, .f32]) (x4 : 𝕋[S128x128, .f32]) (x5 : 𝕋[S128, .f32]) (x6 : 𝕋[S128x128, .f32]) (x7 : 𝕋[S128, .f32]) :
    Cert.ReferenceIdeal.Read.val_main_v105 (F := F) x0 x1 x2 x3 x4 x5 x6 x7 = refScatter (Cert.ReferenceIdeal.Read.val_main_v96 (F := F) x0 x1 x2 x3 x4 x5 x6 x7) x0 := rfl

/-- The scatter-add over the merged `[80000,128]` message table is `refScatter` of the table with its batch and
    clause axes split. -/
theorem scatterRows_eq (M : 𝕋[S80000x128, .f32]) (x0 : 𝕋[S4x20000x3, .i32]) :
    scatterRows (F := F) M (flatIdx (F := F) x0) (firstMask (F := F) x0)
      = refScatter (shapeCast S4x20000x128 M shapeCasts_S80000x128_S4x20000x128) x0 := rfl

end Cert.KernelIdeal.Fr

end
-- ==== Proof.RefRead.lean ====
/-
  The reference's three stages read at an index, at the extended reals.

  One round of message passing computes, for every clause, the mean over its three gathered variable rows of an affine
  map of the row, pushes that mean through two more affine maps, and returns the clause's message row; the update adds
  to every variable row the mean of the messages scattered onto it (zero where nothing was scattered); the head is a
  two-layer perceptron with a rectifier followed by the logistic function. Each stage is stated here as ONE closed
  expression in the entries of its operands, and shown to be what the reference's stage writes at that index.
-/
import proofs.«421163_j37864431681664_3_alg».proof.Proof.RefReadP
import Idealize.ShloMosaic.Lib.ValueIdx
import Idealize.ShloMosaic.PureOps.Ideal.Laws
import Idealize.ShloMosaic.Lib.Pipeline.Value

noncomputable section

open scoped BigOperators

namespace Cert.RefRead

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-! ## Words of the comparison and the constants -/

/-- A select on "the first is above the second" is the conditional on that order. -/
theorem select_ogt {α : Type} (x y : EReal) (A B : α) :
    Scalar.select (Ideal.cmp .ogt x y) A B = if y < x then A else B := by
  unfold Scalar.select Ideal.cmp
  by_cases h : y < x <;> simp [h]

/-- The single-precision pattern of one denotes the extended real one. -/
theorem ofBits_one_f32 : Ideal.ofBits .f32 0x3F800000#32 = 1 := by
  simp [Ideal.ofBits, Ideal.ieee, -EReal.coe_mul]; norm_num

/-! ## The state update -/

/-- One entry of the new state: the old entry plus the mean of the messages scattered onto its row — their sum over
    their count, the count clamped below at one — and plus zero where the count is not positive. -/
def updCellR (s sum cnt : EReal) : EReal :=
  s + (if 0 < cnt then Ideal.div sum (max cnt 1) else 0)

/-- The first round's new state at an entry is the update of the old entry by the scattered sum and the count of its row. -/
theorem refUpd_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (b : Fin 4) (p : Fin 50000) (h : Fin 128) :
    val_main_v66 (F := Ideal) x0 x1 x2 x3 x4 x5 x6 x7 (ix3 b p h)
      = updCellR (x1 (ix3 b p h)) (val_main_v54 (F := Ideal) x0 x1 x2 x3 x4 x5 x6 x7 (ix2 p h))
          (val_main_v13 (F := Ideal) x0 (ix1 p)) := by
  have e1 : idx_main_v64 (idx_main_v65 (ix3 b p h)) = ix2 p h := funext fun d => Fin.ext (by match d with | ⟨0, _⟩ => rfl | ⟨1, _⟩ => rfl)
  have e2 : idx_main_v55 (idx_main_call1_v1 (ix2 p h)) = ix1 p := funext fun d => Fin.ext (by match d with | ⟨0, _⟩ => rfl)
  have e3 : idx_main_v60 (idx_main_v61 (ix2 p h)) = ix1 p := funext fun d => Fin.ext (by match d with | ⟨0, _⟩ => rfl)
  rw [val_main_v66_apply, val_main_v65_apply, val_main_v64_apply, e1, val_main_v63_apply, val_main_call1_v1_apply,
    val_main_v57_apply, val_main_v55_apply, e2, val_main_v56_apply, val_main_cst_7_apply, val_main_v62_apply,
    val_main_v61_apply, val_main_v60_apply, e3, val_main_v59_apply, val_main_v58_apply, val_main_cst_8_apply,
    val_main_call1_v2_apply, val_main_call1_v0_apply, val_main_cst_9_apply]
  simp only [Ideal.addf_def, Ideal.hostDivf_def, Ideal.maximumf_def, Ideal.cmpf_def, Ideal.ofBits_def,
    Ideal.ofBits_zero_f32, ofBits_one_f32, select_ogt]
  rfl

/-- The second round's new state at an entry is the update of the old entry by the scattered sum and the count of its row. -/
theorem refUpd2_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (b : Fin 4) (p : Fin 50000) (h : Fin 128) :
    val_main_v117 (F := Ideal) x0 x1 x2 x3 x4 x5 x6 x7 (ix3 b p h)
      = updCellR (val_main_v66 (F := Ideal) x0 x1 x2 x3 x4 x5 x6 x7 (ix3 b p h)) (val_main_v105 (F := Ideal) x0 x1 x2 x3 x4 x5 x6 x7 (ix2 p h))
          (val_main_v13 (F := Ideal) x0 (ix1 p)) := by
  have e1 : idx_main_v115 (idx_main_v116 (ix3 b p h)) = ix2 p h := funext fun d => Fin.ext (by match d with | ⟨0, _⟩ => rfl | ⟨1, _⟩ => rfl)
  have e2 : idx_main_v106 (idx_main_call2_v1 (ix2 p h)) = ix1 p := funext fun d => Fin.ext (by match d with | ⟨0, _⟩ => rfl)
  have e3 : idx_main_v111 (idx_main_v112 (ix2 p h)) = ix1 p := funext fun d => Fin.ext (by match d with | ⟨0, _⟩ => rfl)
  rw [val_main_v117_apply, val_main_v116_apply, val_main_v115_apply, e1, val_main_v114_apply, val_main_call2_v1_apply,
    val_main_v108_apply, val_main_v106_apply, e2, val_main_v107_apply, val_main_cst_17_apply, val_main_v113_apply,
    val_main_v112_apply, val_main_v111_apply, e3, val_main_v110_apply, val_main_v109_apply, val_main_cst_18_apply,
    val_main_call2_v2_apply, val_main_call2_v0_apply, val_main_cst_19_apply]
  simp only [Ideal.addf_def, Ideal.hostDivf_def, Ideal.maximumf_def, Ideal.cmpf_def, Ideal.ofBits_def,
    Ideal.ofBits_zero_f32, ofBits_one_f32, select_ogt]
  rfl

/-! ## A clause's message row -/

/-- An affine map of a 128-vector: the weight matrix (row index the output, column index the contracted one) applied to
    the vector, plus the bias. -/
def affineR (W : Fin 128 → Fin 128 → EReal) (b : Fin 128 → EReal) (x : Fin 128 → EReal) : Fin 128 → EReal :=
  fun o => (∑ a : Fin 128, x a * W o a) + b o

/-- A clause's message row from its three gathered variable rows: the first affine map of each row, their mean over the
    three (the sum divided by three), then the second and the third affine map. -/
def msgRowR (g : Fin 3 → Fin 128 → EReal) (W1 : Fin 128 → Fin 128 → EReal) (b1 : Fin 128 → EReal)
    (W2 : Fin 128 → Fin 128 → EReal) (b2 : Fin 128 → EReal) (W3 : Fin 128 → Fin 128 → EReal) (b3 : Fin 128 → EReal) :
    Fin 128 → EReal :=
  affineR W3 b3 (affineR W2 b2 (fun o => Ideal.div (∑ k : Fin 3, affineR W1 b1 (g k) o) (Ideal.ofBits .f32 0x40400000#32)))

/-- The first affine map of one gathered row, at an entry (first round). -/
theorem cv_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal))
    (b : Fin 4) (c : Fin 20000) (k : Fin 3) (o : Fin 128) :
    val_main_v34 (F := Ideal) x0 x1 x2 x3 (ix4 b c k o)
      = affineR (fun o a => x2 (ix2 o a)) (fun o => x3 (ix1 o))
          (fun a => val_main_v30 (F := Ideal) x0 x1 (ix4 b c k a)) o := by
  have el : ∀ a : Fin 128, lidx_main_v31 (ix4 b c k o) a = ix4 b c k a := fun a => funext fun d => Fin.ext (by match d with | ⟨0, _⟩ => rfl | ⟨1, _⟩ => rfl | ⟨2, _⟩ => rfl | ⟨3, _⟩ => rfl)
  have er : ∀ a : Fin 128, ridx_main_v31 (ix4 b c k o) a = ix2 o a := fun a => funext fun d => Fin.ext (by match d with | ⟨0, _⟩ => rfl | ⟨1, _⟩ => rfl)
  have eb : idx_main_v32 (idx_main_v33 (ix4 b c k o)) = ix1 o := funext fun d => Fin.ext (by match d with | ⟨0, _⟩ => rfl)
  rw [val_main_v34_apply, val_main_v31_apply, val_main_v33_apply, val_main_v32_apply, eb]
  simp only [el, er, Ideal.addf_def]
  rfl

/-- The mean over the three rows, at an entry: the sum over the three divided by three (first round). -/
theorem mean_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal))
    (b : Fin 4) (c : Fin 20000) (o : Fin 128) :
    val_main_v37 (F := Ideal) x0 x1 x2 x3 (ix3 b c o)
      = Ideal.div (∑ k : Fin 3, val_main_v34 (F := Ideal) x0 x1 x2 x3 (ix4 b c k o))
          (Ideal.ofBits .f32 0x40400000#32) := by
  have ek : ∀ k : Fin 3, idx_main_v35 (ix3 b c o) k = ix4 b c k o := fun k => funext fun d => Fin.ext (by match d with | ⟨0, _⟩ => rfl | ⟨1, _⟩ => rfl | ⟨2, _⟩ => rfl | ⟨3, _⟩ => rfl)
  rw [val_main_v37_apply, val_main_v35_apply, val_main_cst_4_apply, val_main_v36_apply, val_main_cst_5_apply]
  simp only [ek, Ideal.hostDivf_def, Ideal.ofBits_def, Ideal.ofBits_zero_f32, zero_add]

/-- The second affine map, of the mean, at an entry (first round). -/
theorem cs_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (b : Fin 4) (c : Fin 20000) (o : Fin 128) :
    val_main_v41 (F := Ideal) x0 x1 x2 x3 x4 x5 (ix3 b c o)
      = affineR (fun o a => x4 (ix2 o a)) (fun o => x5 (ix1 o))
          (fun a => val_main_v37 (F := Ideal) x0 x1 x2 x3 (ix3 b c a)) o := by
  have el : ∀ a : Fin 128, lidx_main_v38 (ix3 b c o) a = ix3 b c a := fun a => funext fun d => Fin.ext (by match d with | ⟨0, _⟩ => rfl | ⟨1, _⟩ => rfl | ⟨2, _⟩ => rfl)
  have er : ∀ a : Fin 128, ridx_main_v38 (ix3 b c o) a = ix2 o a := fun a => funext fun d => Fin.ext (by match d with | ⟨0, _⟩ => rfl | ⟨1, _⟩ => rfl)
  have eb : idx_main_v39 (idx_main_v40 (ix3 b c o)) = ix1 o := funext fun d => Fin.ext (by match d with | ⟨0, _⟩ => rfl)
  rw [val_main_v41_apply, val_main_v38_apply, val_main_v40_apply, val_main_v39_apply, eb]
  simp only [el, er, Ideal.addf_def]
  rfl

/-- The third affine map, of the clause's state, at an entry (first round). -/
theorem msgOut_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (b : Fin 4) (c : Fin 20000) (j : Fin 128) :
    val_main_v45 (F := Ideal) x0 x1 x2 x3 x4 x5 x6 x7 (ix3 b c j)
      = affineR (fun o a => x6 (ix2 o a)) (fun o => x7 (ix1 o))
          (fun a => val_main_v41 (F := Ideal) x0 x1 x2 x3 x4 x5 (ix3 b c a)) j := by
  have el : ∀ a : Fin 128, lidx_main_v42 (ix3 b c j) a = ix3 b c a := fun a => funext fun d => Fin.ext (by match d with | ⟨0, _⟩ => rfl | ⟨1, _⟩ => rfl | ⟨2, _⟩ => rfl)
  have er : ∀ a : Fin 128, ridx_main_v42 (ix3 b c j) a = ix2 j a := fun a => funext fun d => Fin.ext (by match d with | ⟨0, _⟩ => rfl | ⟨1, _⟩ => rfl)
  have eb : idx_main_v43 (idx_main_v44 (ix3 b c j)) = ix1 j := funext fun d => Fin.ext (by match d with | ⟨0, _⟩ => rfl)
  rw [val_main_v45_apply, val_main_v42_apply, val_main_v44_apply, val_main_v43_apply, eb]
  simp only [el, er, Ideal.addf_def]
  rfl

/-- The first round's message row of a clause is the message row of its three gathered rows. -/
theorem refMsg_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (b : Fin 4) (c : Fin 20000) (j : Fin 128) :
    val_main_v45 (F := Ideal) x0 x1 x2 x3 x4 x5 x6 x7 (ix3 b c j)
      = msgRowR (fun k a => val_main_v30 (F := Ideal) x0 x1 (ix4 b c k a)) (fun o a => x2 (ix2 o a)) (fun o => x3 (ix1 o))
          (fun o a => x4 (ix2 o a)) (fun o => x5 (ix1 o)) (fun o a => x6 (ix2 o a)) (fun o => x7 (ix1 o)) j := by
  rw [msgOut_apply]
  unfold msgRowR
  simp only [cs_apply, mean_apply, cv_apply]

/-- The first affine map of one gathered row, at an entry (second round). -/
theorem cv2_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (b : Fin 4) (c : Fin 20000) (k : Fin 3) (o : Fin 128) :
    val_main_v85 (F := Ideal) x0 x1 x2 x3 x4 x5 x6 x7 (ix4 b c k o)
      = affineR (fun o a => x2 (ix2 o a)) (fun o => x3 (ix1 o))
          (fun a => val_main_v81 (F := Ideal) x0 x1 x2 x3 x4 x5 x6 x7 (ix4 b c k a)) o := by
  have el : ∀ a : Fin 128, lidx_main_v82 (ix4 b c k o) a = ix4 b c k a := fun a => funext fun d => Fin.ext (by match d with | ⟨0, _⟩ => rfl | ⟨1, _⟩ => rfl | ⟨2, _⟩ => rfl | ⟨3, _⟩ => rfl)
  have er : ∀ a : Fin 128, ridx_main_v82 (ix4 b c k o) a = ix2 o a := fun a => funext fun d => Fin.ext (by match d with | ⟨0, _⟩ => rfl | ⟨1, _⟩ => rfl)
  have eb : idx_main_v83 (idx_main_v84 (ix4 b c k o)) = ix1 o := funext fun d => Fin.ext (by match d with | ⟨0, _⟩ => rfl)
  rw [val_main_v85_apply, val_main_v82_apply, val_main_v84_apply, val_main_v83_apply, eb]
  simp only [el, er, Ideal.addf_def]
  rfl

/-- The mean over the three rows, at an entry: the sum over the three divided by three (second round). -/
theorem mean2_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (b : Fin 4) (c : Fin 20000) (o : Fin 128) :
    val_main_v88 (F := Ideal) x0 x1 x2 x3 x4 x5 x6 x7 (ix3 b c o)
      = Ideal.div (∑ k : Fin 3, val_main_v85 (F := Ideal) x0 x1 x2 x3 x4 x5 x6 x7 (ix4 b c k o))
          (Ideal.ofBits .f32 0x40400000#32) := by
  have ek : ∀ k : Fin 3, idx_main_v86 (ix3 b c o) k = ix4 b c k o := fun k => funext fun d => Fin.ext (by match d with | ⟨0, _⟩ => rfl | ⟨1, _⟩ => rfl | ⟨2, _⟩ => rfl | ⟨3, _⟩ => rfl)
  rw [val_main_v88_apply, val_main_v86_apply, val_main_cst_14_apply, val_main_v87_apply, val_main_cst_15_apply]
  simp only [ek, Ideal.hostDivf_def, Ideal.ofBits_def, Ideal.ofBits_zero_f32, zero_add]

/-- The second affine map, of the mean, at an entry (second round). -/
theorem cs2_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (b : Fin 4) (c : Fin 20000) (o : Fin 128) :
    val_main_v92 (F := Ideal) x0 x1 x2 x3 x4 x5 x6 x7 (ix3 b c o)
      = affineR (fun o a => x4 (ix2 o a)) (fun o => x5 (ix1 o))
          (fun a => val_main_v88 (F := Ideal) x0 x1 x2 x3 x4 x5 x6 x7 (ix3 b c a)) o := by
  have el : ∀ a : Fin 128, lidx_main_v89 (ix3 b c o) a = ix3 b c a := fun a => funext fun d => Fin.ext (by match d with | ⟨0, _⟩ => rfl | ⟨1, _⟩ => rfl | ⟨2, _⟩ => rfl)
  have er : ∀ a : Fin 128, ridx_main_v89 (ix3 b c o) a = ix2 o a := fun a => funext fun d => Fin.ext (by match d with | ⟨0, _⟩ => rfl | ⟨1, _⟩ => rfl)
  have eb : idx_main_v90 (idx_main_v91 (ix3 b c o)) = ix1 o := funext fun d => Fin.ext (by match d with | ⟨0, _⟩ => rfl)
  rw [val_main_v92_apply, val_main_v89_apply, val_main_v91_apply, val_main_v90_apply, eb]
  simp only [el, er, Ideal.addf_def]
  rfl

/-- The third affine map, of the clause's state, at an entry (second round). -/
theorem msgOut2_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (b : Fin 4) (c : Fin 20000) (j : Fin 128) :
    val_main_v96 (F := Ideal) x0 x1 x2 x3 x4 x5 x6 x7 (ix3 b c j)
      = affineR (fun o a => x6 (ix2 o a)) (fun o => x7 (ix1 o))
          (fun a => val_main_v92 (F := Ideal) x0 x1 x2 x3 x4 x5 x6 x7 (ix3 b c a)) j := by
  have el : ∀ a : Fin 128, lidx_main_v93 (ix3 b c j) a = ix3 b c a := fun a => funext fun d => Fin.ext (by match d with | ⟨0, _⟩ => rfl | ⟨1, _⟩ => rfl | ⟨2, _⟩ => rfl)
  have er : ∀ a : Fin 128, ridx_main_v93 (ix3 b c j) a = ix2 j a := fun a => funext fun d => Fin.ext (by match d with | ⟨0, _⟩ => rfl | ⟨1, _⟩ => rfl)
  have eb : idx_main_v94 (idx_main_v95 (ix3 b c j)) = ix1 j := funext fun d => Fin.ext (by match d with | ⟨0, _⟩ => rfl)
  rw [val_main_v96_apply, val_main_v93_apply, val_main_v95_apply, val_main_v94_apply, eb]
  simp only [el, er, Ideal.addf_def]
  rfl

/-- The second round's message row of a clause is the message row of its three gathered rows. -/
theorem refMsg2_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (b : Fin 4) (c : Fin 20000) (j : Fin 128) :
    val_main_v96 (F := Ideal) x0 x1 x2 x3 x4 x5 x6 x7 (ix3 b c j)
      = msgRowR (fun k a => val_main_v81 (F := Ideal) x0 x1 x2 x3 x4 x5 x6 x7 (ix4 b c k a)) (fun o a => x2 (ix2 o a)) (fun o => x3 (ix1 o))
          (fun o a => x4 (ix2 o a)) (fun o => x5 (ix1 o)) (fun o a => x6 (ix2 o a)) (fun o => x7 (ix1 o)) j := by
  rw [msgOut2_apply]
  unfold msgRowR
  simp only [cs2_apply, mean2_apply, cv2_apply]

/-! ## The head -/

/-- One variable's output: the hidden layer is the rectified affine map of its state row, the logit the hidden layer
    against the one output weight row plus the output bias, and the output the logistic function of the logit, written
    as one over one plus the exponential of minus the logit. -/
def headCellR (x : Fin 128 → EReal) (W : Fin 128 → Fin 128 → EReal) (b1 : Fin 128 → EReal) (w2 : Fin 128 → EReal)
    (b2 : EReal) : EReal :=
  Ideal.div 1 (1 + Ideal.exp (-((∑ o : Fin 128, max ((∑ a : Fin 128, x a * W o a) + b1 o) 0 * w2 o) + b2)))

/-- The hidden layer at an entry. -/
theorem hidden_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
    (b : Fin 4) (p : Fin 50000) (o : Fin 128) :
    val_main_v122 (F := Ideal) x0 x1 x2 x3 x4 x5 x6 x7 x8 x9 (ix3 b p o)
      = max ((∑ a : Fin 128, val_main_v117 (F := Ideal) x0 x1 x2 x3 x4 x5 x6 x7 (ix3 b p a) * x8 (ix2 o a)) + x9 (ix1 o)) 0 := by
  have el : ∀ a : Fin 128, lidx_main_v118 (ix3 b p o) a = ix3 b p a := fun a => funext fun d => Fin.ext (by match d with | ⟨0, _⟩ => rfl | ⟨1, _⟩ => rfl | ⟨2, _⟩ => rfl)
  have er : ∀ a : Fin 128, ridx_main_v118 (ix3 b p o) a = ix2 o a := fun a => funext fun d => Fin.ext (by match d with | ⟨0, _⟩ => rfl | ⟨1, _⟩ => rfl)
  have eb : idx_main_v119 (idx_main_v120 (ix3 b p o)) = ix1 o := funext fun d => Fin.ext (by match d with | ⟨0, _⟩ => rfl)
  rw [val_main_v122_apply, val_main_v121_apply, val_main_v118_apply, val_main_v120_apply, val_main_v119_apply, eb,
    val_main_call3_v0_apply, val_main_call3_cst_apply]
  simp only [el, er, Ideal.addf_def, Ideal.maximumf_def, Ideal.ofBits_def, Ideal.ofBits_zero_f32]

/-- The logit at a variable. -/
theorem logit_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S1x128, .f32⟩ : BufTy).Contents (Elt Ideal)) (x11 : (⟨S1, .f32⟩ : BufTy).Contents (Elt Ideal))
    (b : Fin 4) (p : Fin 50000) :
    val_main_v126 (F := Ideal) x0 x1 x2 x3 x4 x5 x6 x7 x8 x9 x10 x11 (ix3 b p (0 : Fin 1))
      = (∑ o : Fin 128, val_main_v122 (F := Ideal) x0 x1 x2 x3 x4 x5 x6 x7 x8 x9 (ix3 b p o) * x10 (ix2 (0 : Fin 1) o))
          + x11 (ix1 (0 : Fin 1)) := by
  have el : ∀ o : Fin 128, lidx_main_v123 (ix3 b p (0 : Fin 1)) o = ix3 b p o := fun o => funext fun d => Fin.ext (by match d with | ⟨0, _⟩ => rfl | ⟨1, _⟩ => rfl | ⟨2, _⟩ => rfl)
  have er : ∀ o : Fin 128, ridx_main_v123 (ix3 b p (0 : Fin 1)) o = ix2 (0 : Fin 1) o := fun o => funext fun d => Fin.ext (by match d with | ⟨0, _⟩ => rfl | ⟨1, _⟩ => rfl)
  have eb : idx_main_v124 (idx_main_v125 (ix3 b p (0 : Fin 1))) = ix1 (0 : Fin 1) := funext fun d => Fin.ext (by match d with | ⟨0, _⟩ => rfl)
  rw [val_main_v126_apply, val_main_v123_apply, val_main_v125_apply, val_main_v124_apply, eb]
  simp only [el, er, Ideal.addf_def]

theorem refHead_apply (x0 : (⟨S4x20000x3, .i32⟩ : BufTy).Contents (Elt Ideal)) (x1 : (⟨S4x50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S1x128, .f32⟩ : BufTy).Contents (Elt Ideal)) (x11 : (⟨S1, .f32⟩ : BufTy).Contents (Elt Ideal))
    (b : Fin 4) (p : Fin 50000) :
    val_main_v133 (F := Ideal) x0 x1 x2 x3 x4 x5 x6 x7 x8 x9 x10 x11 (ix2 b p)
      = headCellR (fun a => val_main_v117 (F := Ideal) x0 x1 x2 x3 x4 x5 x6 x7 (ix3 b p a)) (fun o a => x8 (ix2 o a))
          (fun o => x9 (ix1 o)) (fun a => x10 (ix2 (0 : Fin 1) a)) (x11 (ix1 (0 : Fin 1))) := by
  have e0 : idx_main_v133 (ix2 b p) = ix3 b p (0 : Fin 1) := funext fun d => Fin.ext (by
    have hb := b.isLt
    have hp := p.isLt
    match d with
    | ⟨0, _⟩ => show (b.val * 50000 + p.val) / 50000 = b.val; omega
    | ⟨1, _⟩ => show (b.val * 50000 + p.val) / 1 % 50000 = p.val; omega
    | ⟨2, _⟩ => rfl)
  rw [val_main_v133_apply, e0, val_main_v132_apply, val_main_v131_apply, val_main_cst_21_apply, val_main_v130_apply,
    val_main_v129_apply, val_main_cst_20_apply, val_main_v128_apply, val_main_v127_apply, logit_apply]
  simp only [hidden_apply, Ideal.hostDivf_def, Ideal.addf_def, Ideal.hostUnary_exp_def, Ideal.hostNegf_def,
    Ideal.negf_def, Ideal.ofBits_def, ofBits_one_f32]
  rfl

end Cert.RefRead

end
-- ==== Proof.Laws.lean ====
/-
  The three algebraic laws that join the kernel's natural forms to the reference's, over the extended reals.

  Each law holds at every extended real, the bottom and the top included: no finiteness is assumed.

  * The message row: the kernel adds the three slots' products, scales the sum by one third and adds the bias once;
    the reference applies the first affine map to each slot (bias included), adds the three and divides by three.
    The two agree because a scale that is a nonnegative real distributes over every sum of extended reals, and
    three thirds of any extended real are that extended real.
  * The state update: the kernel multiplies the message sum by the reciprocal of the clamped count; the reference
    divides the sum by the clamped count. The clamped count is at least one, so it is not zero.
  * The classifier's cell: the logistic function is, by its definition, one over one plus the exponential of the
    negated argument; and the word of zero is zero.
-/
import proofs.«421163_j37864431681664_3_alg».proof.Proof.ValMsgK
import proofs.«421163_j37864431681664_3_alg».proof.Proof.ValUpdK
import proofs.«421163_j37864431681664_3_alg».proof.Proof.ValHeadK
import proofs.«421163_j37864431681664_3_alg».proof.Proof.RefRead
import Mathlib.Data.EReal.Operations
import Mathlib.Data.EReal.Inv
import Mathlib.Algebra.BigOperators.Fin
import Mathlib.Tactic.Ring
import Mathlib.Tactic.Abel
import Mathlib.Tactic.NormNum
import Idealize.ShloMosaic.PureOps.Ideal.Laws
import Idealize.ShloMosaic.Lib.IdealHost

open Idealize.ShloMosaic
open scoped BigOperators

noncomputable section

namespace Cert.Laws

/-! ## The mean of three affine images -/

/-- The word of the divisor is the real three. -/
theorem three_word : Ideal.ofBits .f32 0x40400000#32 = ((3 : ℝ) : EReal) := by
  simp [Ideal.ofBits, Ideal.ieee, -EReal.coe_mul]; norm_num

/-- One third is not negative. -/
theorem third_nonneg : (0 : EReal) ≤ ((1 / 3 : ℝ) : EReal) := EReal.coe_nonneg.mpr (by norm_num)

/-- One third is not the top. -/
theorem third_ne_top : ((1 / 3 : ℝ) : EReal) ≠ ⊤ := EReal.coe_ne_top _

/-- Dividing by three is multiplying by one third, at every extended real. -/
theorem div_three (x : EReal) : Ideal.div x ((3 : ℝ) : EReal) = x * ((1 / 3 : ℝ) : EReal) := by
  have h3 : ((3 : ℝ) : EReal) ≠ 0 := by
    intro e; have := EReal.coe_eq_zero.mp e; norm_num at this
  unfold Ideal.div
  rw [if_neg h3, ← EReal.coe_inv]
  congr 2; norm_num

/-- Three thirds of any extended real are that extended real: a positive scale keeps the bottom and the top, and
    each of them absorbs in a sum with itself. -/
theorem three_thirds (b : EReal) :
    b * ((1 / 3 : ℝ) : EReal) + b * ((1 / 3 : ℝ) : EReal) + b * ((1 / 3 : ℝ) : EReal) = b := by
  have hpos : (0 : EReal) < ((1 / 3 : ℝ) : EReal) := EReal.coe_pos.mpr (by norm_num)
  induction b using EReal.rec with
  | bot => rw [EReal.bot_mul_of_pos hpos]; simp
  | coe r => rw [← EReal.coe_mul, ← EReal.coe_add, ← EReal.coe_add]; congr 1; ring
  | top => rw [EReal.top_mul_of_pos hpos]; simp

/-- The scalar law of the mean: three sums added from zero, scaled by one third and shifted once, are the third of
    the three shifted sums. The scale distributes over each sum because it is a nonnegative real; the three thirds of
    the shift regroup to the shift. -/
theorem mean_scalar (s0 s1 s2 b : EReal) :
    (((0 + s0) + s1) + s2) * ((1 / 3 : ℝ) : EReal) + b
      = Ideal.div ((s0 + b) + (s1 + b) + (s2 + b)) (Ideal.ofBits .f32 0x40400000#32) := by
  rw [three_word, div_three, zero_add]
  simp only [EReal.right_distrib_of_nonneg_of_ne_top third_nonneg third_ne_top]
  conv_lhs => rw [← three_thirds b]
  abel

/-- An affine stage of the kernel, its weights read transposed, is the reference's affine map. -/
theorem affRow_law (x : Fin 128 → EReal) (W : Fin 128 → Fin 128 → EReal) (b : Fin 128 → EReal) :
    Cert.ValMsgK.affRowK x (fun a o => W o a) b = Cert.RefRead.affineR W b x := rfl

/-- The kernel's mean stage is the reference's mean of the three first affine images. -/
theorem meanRow_law (g : Fin 3 → Fin 128 → EReal) (W1 : Fin 128 → Fin 128 → EReal) (b1 : Fin 128 → EReal) :
    Cert.ValMsgK.meanRowK g (fun a o => W1 o a) b1
      = fun o => Ideal.div (∑ k : Fin 3, Cert.RefRead.affineR W1 b1 (g k) o) (Ideal.ofBits .f32 0x40400000#32) := by
  funext o
  rw [Fin.sum_univ_three]
  exact mean_scalar _ _ _ _

/-- The message row: the kernel's three stages are the reference's three maps. -/
theorem msgRow_law (g : Fin 3 → Fin 128 → EReal) (W1 : Fin 128 → Fin 128 → EReal) (b1 : Fin 128 → EReal)
    (W2 : Fin 128 → Fin 128 → EReal) (b2 : Fin 128 → EReal) (W3 : Fin 128 → Fin 128 → EReal) (b3 : Fin 128 → EReal) :
    Cert.ValMsgK.msgRowK g (fun a o => W1 o a) b1 (fun a o => W2 o a) b2 (fun a o => W3 o a) b3
      = Cert.RefRead.msgRowR g W1 b1 W2 b2 W3 b3 := by
  rw [Cert.ValMsgK.msgRowK_eq, affRow_law, affRow_law, meanRow_law]
  rfl

/-! ## The state update -/

/-- The state update: the sum times the reciprocal of the clamped count is the sum over the clamped count, the
    clamped count being at least one; and where the count is not positive both add zero. -/
theorem updCell_law (s sum cnt : EReal) : Cert.ValUpdK.updCellK s sum cnt = Cert.RefRead.updCellR s sum cnt := by
  unfold Cert.ValUpdK.updCellK Cert.RefRead.updCellR
  by_cases h : 0 < cnt
  · have hy : max cnt 1 ≠ 0 := by
      have h1 : (0 : EReal) < max cnt 1 := lt_of_lt_of_le zero_lt_one (le_max_right _ _)
      exact ne_of_gt h1
    rw [if_pos h, if_pos h, Ideal.mul_one_div hy]
  · rw [if_neg h, if_neg h, mul_zero]

/-! ## The classifier's cell -/

/-- The classifier's cell: the logistic function written out, and the word of zero read as zero. -/
theorem headCell_law (x : Fin 128 → EReal) (W : Fin 128 → Fin 128 → EReal) (b1 : Fin 128 → EReal)
    (w2 : Fin 128 → EReal) (b2 : EReal) :
    Cert.ValHeadK.headCellK x (fun a o => W o a) b1 w2 b2 = Cert.RefRead.headCellR x W b1 w2 b2 := by
  unfold Cert.ValHeadK.headCellK Cert.RefRead.headCellR Ideal.logistic
  rw [Ideal.ofBits_zero_f32]

end Cert.Laws

end
-- ==== Proof.BridgeMsg.lean ====
/-
  The host's layout steps around the clause-message regions, read at an index at the ideal values, and the bridge from
  the kernel's message row over the arrays the host hands the regions to the reference's message row over the
  arguments.

  The host narrows every operand (the identity on extended reals), transposes each weight matrix, views the gathered
  rows [4,20000,3,128] as [80000,3,128] (clause `c` of batch `b` is row `20000 b + c`: the same row-major position),
  views the message rows [80000,128] back as [4,20000,128], the counts [50000] as one column, and the output weight
  row [1,128] as a vector. With the weights read transposed and the rows read through the view, the kernel's row
  function is the reference's, by the algebraic law of the message row.
-/
import proofs.«421163_j37864431681664_3_alg».proof.Proof.ValMsgK
import proofs.«421163_j37864431681664_3_alg».proof.Proof.RefRead
import proofs.«421163_j37864431681664_3_alg».proof.Proof.Laws
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.BridgeMsg

open Cert.KernelIdeal Cert.KernelIdeal.Facts₀

/-! ### The host's layout steps, read at an index -/

/-- A weight matrix transposed and narrowed reads at `(a, o)` the matrix at `(o, a)`. -/
theorem weightT_apply (W : Vec Ideal S128x128 .f32) (a o : Fin 128) :
    (truncf (F := Ideal) .bf16 (transpose S128x128 [1, 0] W transposes_S128x128_S128x128_1_0) bitsLt_bf16_f32 : Vec Ideal S128x128 .bf16) (ix2 a o)
      = W (ix2 o a) :=
  transpose_ix2_apply W transposes_S128x128_S128x128_1_0 a o

/-- The gathered rows narrowed and viewed [80000,3,128] read at clause `20000 b + c` the rows of batch `b`, clause `c`. -/
theorem gatheredRows_apply (G : Vec Ideal S4x20000x3x128 .f32) (b : Fin 4) (c : Fin 20000) (k : Fin 3) (a : Fin 128) :
    (shapeCast S80000x3x128 (truncf (F := Ideal) .bf16 G bitsLt_bf16_f32) shapeCasts_S4x20000x3x128_S80000x3x128 : Vec Ideal S80000x3x128 .bf16)
        (ix3 ⟨20000 * b.val + c.val, by omega⟩ k a)
      = G (ix4 b c k a) := by
  refine shapeCast_apply (truncf (F := Ideal) .bf16 G bitsLt_bf16_f32) shapeCasts_S4x20000x3x128_S80000x3x128 _ (ix4 b c k a) ?_
  rw [Shape.rowMajor_val_four, Shape.rowMajor_val_three]
  show ((b.val * 20000 + c.val) * 3 + k.val) * 128 + a.val = ((20000 * b.val + c.val) * 3 + k.val) * 128 + a.val
  omega

/-- The message rows viewed [4,20000,128] read at `(b, c, j)` row `20000 b + c`. -/
theorem msgRows_apply (M : Vec Ideal S80000x128 .f32) (b : Fin 4) (c : Fin 20000) (j : Fin 128) :
    (shapeCast S4x20000x128 M shapeCasts_S80000x128_S4x20000x128 : Vec Ideal S4x20000x128 .f32) (ix3 b c j)
      = M (ix2 ⟨20000 * b.val + c.val, by omega⟩ j) := by
  refine shapeCast_apply M shapeCasts_S80000x128_S4x20000x128 (ix3 b c j) _ ?_
  rw [Shape.rowMajor_val_two, Shape.rowMajor_val_three]
  show (20000 * b.val + c.val) * 128 + j.val = (b.val * 20000 + c.val) * 128 + j.val
  omega

/-- The counts viewed as one column read at `(p, 0)` the count of `p`. -/
theorem counts_apply (cnt : Vec Ideal S50000 .f32) (p : Fin 50000) :
    (shapeCast S50000x1 cnt shapeCasts_S50000_S50000x1 : Vec Ideal S50000x1 .f32) (ix2 p 0) = cnt (ix1 p) := by
  refine shapeCast_apply cnt shapeCasts_S50000_S50000x1 (ix2 p 0) (ix1 p) ?_
  rw [Shape.rowMajor_val_one, Shape.rowMajor_val_two]
  show p.val = p.val * 1 + 0
  omega

/-- The output weight row viewed as a vector and narrowed reads at `a` the row at `(0, a)`. -/
theorem w2_apply (w : Vec Ideal S1x128 .f32) (a : Fin 128) :
    (truncf (F := Ideal) .bf16 (shapeCast S128 w shapeCasts_S1x128_S128) bitsLt_bf16_f32 : Vec Ideal S128 .bf16) (ix1 a) = w (ix2 0 a) :=
  shapeCast_1a_a_apply w shapeCasts_S1x128_S128 a

/-! ### The message row over the host's arrays is the reference's over the arguments -/

/-- At clause `c` of batch `b`: the kernel's row function of row `20000 b + c` of the viewed gathered rows and the
    transposed weights is the reference's row function of the gathered rows at `(b, c)` and the weights. -/
theorem msg_bridge (G : Vec Ideal S4x20000x3x128 .f32) (W1 : Vec Ideal S128x128 .f32) (b1 : Vec Ideal S128 .f32)
    (W2 : Vec Ideal S128x128 .f32) (b2 : Vec Ideal S128 .f32) (W3 : Vec Ideal S128x128 .f32) (b3 : Vec Ideal S128 .f32)
    (b : Fin 4) (c : Fin 20000) (j : Fin 128) :
    Cert.ValMsgK.msgRowK
        (fun k a => (shapeCast S80000x3x128 (truncf (F := Ideal) .bf16 G bitsLt_bf16_f32) shapeCasts_S4x20000x3x128_S80000x3x128 : Vec Ideal S80000x3x128 .bf16)
          (ix3 ⟨20000 * b.val + c.val, by omega⟩ k a))
        (fun a o => (truncf (F := Ideal) .bf16 (transpose S128x128 [1, 0] W1 transposes_S128x128_S128x128_1_0) bitsLt_bf16_f32 : Vec Ideal S128x128 .bf16) (ix2 a o))
        (fun a => b1 (ix1 a))
        (fun a o => (truncf (F := Ideal) .bf16 (transpose S128x128 [1, 0] W2 transposes_S128x128_S128x128_1_0) bitsLt_bf16_f32 : Vec Ideal S128x128 .bf16) (ix2 a o))
        (fun a => b2 (ix1 a))
        (fun a o => (truncf (F := Ideal) .bf16 (transpose S128x128 [1, 0] W3 transposes_S128x128_S128x128_1_0) bitsLt_bf16_f32 : Vec Ideal S128x128 .bf16) (ix2 a o))
        (fun a => b3 (ix1 a)) j
      = Cert.RefRead.msgRowR (fun k a => G (ix4 b c k a)) (fun o a => W1 (ix2 o a)) (fun o => b1 (ix1 o))
          (fun o a => W2 (ix2 o a)) (fun o => b2 (ix1 o)) (fun o a => W3 (ix2 o a)) (fun o => b3 (ix1 o)) j := by
  have hg : (fun (k : Fin 3) (a : Fin 128) =>
      (shapeCast S80000x3x128 (truncf (F := Ideal) .bf16 G bitsLt_bf16_f32) shapeCasts_S4x20000x3x128_S80000x3x128 : Vec Ideal S80000x3x128 .bf16)
        (ix3 ⟨20000 * b.val + c.val, by omega⟩ k a)) = fun k a => G (ix4 b c k a) :=
    funext fun k => funext fun a => gatheredRows_apply G b c k a
  have hW : ∀ W : Vec Ideal S128x128 .f32, (fun (a o : Fin 128) =>
      (truncf (F := Ideal) .bf16 (transpose S128x128 [1, 0] W transposes_S128x128_S128x128_1_0) bitsLt_bf16_f32 : Vec Ideal S128x128 .bf16) (ix2 a o))
        = fun a o => W (ix2 o a) :=
    fun W => funext fun a => funext fun o => weightT_apply W a o
  rw [hg, hW W1, hW W2, hW W3]
  exact congrFun (Cert.Laws.msgRow_law (fun k a => G (ix4 b c k a)) (fun o a => W1 (ix2 o a)) (fun o => b1 (ix1 o))
    (fun o a => W2 (ix2 o a)) (fun o => b2 (ix1 o)) (fun o a => W3 (ix2 o a)) (fun o => b3 (ix1 o))) j

end Cert.BridgeMsg

end
-- ==== Proof.Bridge1.lean ====
/- Message round 1: the first message kernel's output array is the reference's message array, the scattered sums are the reference's, and the state after the first update is the reference's. -/
import proofs.«421163_j37864431681664_3_alg».proof.Proof.Bridge0
import proofs.«421163_j37864431681664_3_alg».proof.Proof.KIFinal0
import proofs.«421163_j37864431681664_3_alg».proof.Proof.KIFinal1
import proofs.«421163_j37864431681664_3_alg».proof.Proof.ChainEq
import proofs.«421163_j37864431681664_3_alg».proof.Proof.RefRead
import proofs.«421163_j37864431681664_3_alg».proof.Proof.Laws
import proofs.«421163_j37864431681664_3_alg».proof.Proof.BridgeMsg

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-! ## Message round 1 -/

/-- The gathered rows handed to message kernel 1. -/
theorem G1_eq : W3 m c main_v43 = gatherRows (F := Ideal) (a1 m c) (batchIota (F := Ideal)) (a0 m c) := by
  exact W3_v43 m c

/-- Message kernel 1's output, row (b, c') of the clause axis, is the reference's message. -/
theorem M1_eq (b : Fin 4) (c' : Fin 20000) (j : Fin 128) :
    W4 m c main_v44 (ix2 (⟨20000 * b.val + c'.val, by omega⟩ : Fin 80000) j) = Cert.ReferenceIdeal.Read.val_main_v45 (F := Ideal) (a0 m c) (a1 m c) (a2 m c) (a3 m c) (a4 m c) (a5 m c) (a6 m c) (a7 m c) (ix3 b c' j) := by
  refine (congrFun (W4_arr m c 7) _).trans ?_
  refine (congrFun (final0 (V3 m) c) _).trans ?_
  show Cert.ValMsgK.msgRowK (fun k a => W3 m c main_v43 (ix3 (⟨20000 * b.val + c'.val, by omega⟩ : Fin 80000) k a))
      (fun a o => W3 m c main_v18 (ix2 a o)) (fun a => W3 m c main_arg3 (ix1 a))
      (fun a o => W3 m c main_v20 (ix2 a o)) (fun a => W3 m c main_arg5 (ix1 a))
      (fun a o => W3 m c main_v22 (ix2 a o)) (fun a => W3 m c main_arg7 (ix1 a)) j = _
  rw [G1_eq, W3_v18, W3_arg3, W3_v20, W3_arg5, W3_v22, W3_arg7]
  refine (Cert.BridgeMsg.msg_bridge (gathered (F := Ideal) (a1 m c) (batchIota (F := Ideal)) (a0 m c)) (a2 m c) (a3 m c) (a4 m c) (a5 m c) (a6 m c) (a7 m c) b c' j).trans ?_
  rw [gathered_eq]
  exact (Cert.RefRead.refMsg_apply (a0 m c) (a1 m c) (a2 m c) (a3 m c) (a4 m c) (a5 m c) (a6 m c) (a7 m c) b c' j).symm

/-- As arrays over (batch, clause, feature). -/
theorem M1_arr : shapeCast S4x20000x128 (W4 m c main_v44) shapeCasts_S80000x128_S4x20000x128 = Cert.ReferenceIdeal.Read.val_main_v45 (F := Ideal) (a0 m c) (a1 m c) (a2 m c) (a3 m c) (a4 m c) (a5 m c) (a6 m c) (a7 m c) := by
  funext i
  obtain ⟨b, c', j, rfl⟩ : ∃ (b : Fin 4) (c' : Fin 20000) (j : Fin 128), i = ix3 b c' j := ⟨i 0, i 1, i 2, eq_ix3 i⟩
  exact (Cert.BridgeMsg.msgRows_apply _ b c' j).trans (M1_eq m c b c' j)

/-- The scattered sums of round 1. -/
theorem sums1_eq : W5 m c main_v54 = Cert.ReferenceIdeal.Read.val_main_v54 (F := Ideal) (a0 m c) (a1 m c) (a2 m c) (a3 m c) (a4 m c) (a5 m c) (a6 m c) (a7 m c) := by
  rw [show W5 m c main_v54 = StableHlo.after hostOps1 (W4 m c) (Proc.devRef .tc main_v54) from rfl, hostOps1_v54, W4_v10, W4_v9,
    scatterRows_eq, M1_arr, ← refScatter1_eq]

/-- The state after round 1. -/
theorem S1_eq : W6 m c main_v55 = Cert.ReferenceIdeal.Read.val_main_v66 (F := Ideal) (a0 m c) (a1 m c) (a2 m c) (a3 m c) (a4 m c) (a5 m c) (a6 m c) (a7 m c) := by
  funext i
  obtain ⟨b, p, h, rfl⟩ : ∃ (b : Fin 4) (p : Fin 50000) (h : Fin 128), i = ix3 b p h := ⟨i 0, i 1, i 2, eq_ix3 i⟩
  refine (congrFun (W6_arr m c 3) _).trans ?_
  refine (congrFun (final1 (V5 m) c) _).trans ?_
  show Cert.ValUpdK.updCellK (W5 m c main_arg1 (ix3 b p h)) (W5 m c main_v54 (ix2 p h)) (W5 m c main_v14 (ix2 p 0)) = _
  rw [W5_arg1, sums1_eq, W5_v14, varCounts_eq, Cert.BridgeMsg.counts_apply, Cert.Laws.updCell_law]
  exact (Cert.RefRead.refUpd_apply (a0 m c) (a1 m c) (a2 m c) (a3 m c) (a4 m c) (a5 m c) (a6 m c) (a7 m c) b p h).symm

end Cert.KernelIdeal.Fr

end
-- ==== Proof.KIFinal2.lean ====
/- Region 0 of @main (the first clause-message call, pipeline 0) at the ideal values: the array behind its output
   window after all twenty write-backs, as ONE function of the arrays behind its seven input windows.
   Point t writes rows 4000 t … 4000 t + 3999 of the [80000,128] result; row r, lane l of the result is the row function
   (mean stage, then two affine stages) of row r of the [80000,3,128] gathered array and of the weight and bias arrays,
   whose windows' blocks are their whole arrays at every point. The argument: the block index of each window at each
   of the twenty grid points; each input block read at an index is its array read at the matching index; what a point
   writes back is its block of the whole-array function; the twenty blocks cover the array. -/
import proofs.«421163_j37864431681664_3_alg».proof.Proof.KIReg2
import proofs.«421163_j37864431681664_3_alg».proof.Proof.ValMsgK
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Final2
-- the TensorCore's buffer contents when the region is entered, at the ideal values
variable (V : (c : Dev nD) → (b : Ref sig .tc) → Buf (Elt Ideal) ((c : Thread nD τ).loc b))

/-! ## The arrays behind the input windows -/

/-- The gathered rows: 80000 rows of three slots of 128 lanes. -/
abbrev arr2_0 (c : Dev nD) : Vec Ideal S80000x3x128 .bf16 := V c (Pipeline.arrRef spec2 0)
/-- The first weight matrix. -/
abbrev arr2_1 (c : Dev nD) : Vec Ideal S128x128 .bf16 := V c (Pipeline.arrRef spec2 1)
/-- The first bias. -/
abbrev arr2_2 (c : Dev nD) : Vec Ideal S128 .f32 := V c (Pipeline.arrRef spec2 2)
/-- The second weight matrix. -/
abbrev arr2_3 (c : Dev nD) : Vec Ideal S128x128 .bf16 := V c (Pipeline.arrRef spec2 3)
/-- The second bias. -/
abbrev arr2_4 (c : Dev nD) : Vec Ideal S128 .f32 := V c (Pipeline.arrRef spec2 4)
/-- The third weight matrix. -/
abbrev arr2_5 (c : Dev nD) : Vec Ideal S128x128 .bf16 := V c (Pipeline.arrRef spec2 5)
/-- The third bias. -/
abbrev arr2_6 (c : Dev nD) : Vec Ideal S128 .f32 := V c (Pipeline.arrRef spec2 6)

/-! ## The whole result as one function of the seven arrays -/

/-- Row `i 0`, lane `i 1` of the result: the row function of row `i 0` of the gathered array and the weights. -/
abbrev msgArr2 (a0 : Vec Ideal S80000x3x128 .bf16) (a1 : Vec Ideal S128x128 .bf16) (a2 : Vec Ideal S128 .f32)
    (a3 : Vec Ideal S128x128 .bf16) (a4 : Vec Ideal S128 .f32) (a5 : Vec Ideal S128x128 .bf16) (a6 : Vec Ideal S128 .f32) :
    Vec Ideal S80000x128 .f32 :=
  fun i => Cert.ValMsgK.msgRowK (fun k a => a0 (ix3 (i 0 : Fin 80000) k a)) (fun a o => a1 (ix2 a o)) (fun a => a2 (ix1 a))
    (fun a o => a3 (ix2 a o)) (fun a => a4 (ix1 a)) (fun a o => a5 (ix2 a o)) (fun a => a6 (ix1 a)) (i 1)

/-- Zero offsets, on one, two or three axes, are the constant zero. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-! ## The windows' block indices at the twenty grid points -/

/-- At point `t` the gathered rows' window and the output window are on block `t` of their row axis and block 0 of
    the others; every weight and bias window is on block 0 of every axis. -/
theorem idx_facts2 : ∀ t : Fin cfg2.N, win2_0.index t (0 : Fin 3) = t.val
    ∧ win2_0.index t (1 : Fin 3) = 0
    ∧ win2_0.index t (2 : Fin 3) = 0
    ∧ win2_1.index t (0 : Fin 2) = 0
    ∧ win2_1.index t (1 : Fin 2) = 0
    ∧ win2_2.index t (0 : Fin 1) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 1) = 0
    ∧ win2_7.index t (0 : Fin 2) = t.val
    ∧ win2_7.index t (1 : Fin 2) = 0 :=
  (by decide +kernel : ∀ t : Fin grid2.N, _)

/-! ## Each input block, read at an index, is its array read at the matching index

A block's coordinate in its array is the block index times the block's size plus the coordinate inside the block. -/

/-- Row `z 0` of point `t`'s block of gathered rows is row `4000 t + z 0` of the gathered array. -/
theorem blk2_0_at (c : Dev nD) (t : Fin cfg2.N) (z : S4000x3x128.Idx) (i : S80000x3x128.Idx)
    (h0 : (i 0).val = 4000 * t.val + (z 0).val) (h1 : (i 1).val = (z 1).val) (h2 : (i 2).val = (z 2).val) :
    (iblk2 (F := Ideal) V c 0 t : Vec Ideal S4000x3x128 .bf16) z = arr2_0 V c i := by
  obtain ⟨e0, e1, e2, -⟩ := idx_facts2 t
  show V c (Pipeline.arrRef spec2 0) (((cfg2.win 0).blk t).view.emb z) = V c (Pipeline.arrRef spec2 0) i
  refine congrArg _ (funext fun a => Fin.ext ?_)
  match a with
  | ⟨0, _⟩ => show win2_0.index t (0 : Fin 3) * 4000 + 1 * (z 0).val = (i 0).val; omega
  | ⟨1, _⟩ => show win2_0.index t (1 : Fin 3) * 3 + 1 * (z 1).val = (i 1).val; omega
  | ⟨2, _⟩ => show win2_0.index t (2 : Fin 3) * 128 + 1 * (z 2).val = (i 2).val; omega

/-- The first weight matrix's block is the matrix at every point. -/
theorem blk2_1_at (c : Dev nD) (t : Fin cfg2.N) (z : S128x128.Idx) :
    (iblk2 (F := Ideal) V c 1 t : Vec Ideal S128x128 .bf16) z = arr2_1 V c z := by
  obtain ⟨-, -, -, e0, e1, -⟩ := idx_facts2 t
  show V c (Pipeline.arrRef spec2 1) (((cfg2.win 1).blk t).view.emb z) = V c (Pipeline.arrRef spec2 1) z
  refine congrArg _ (funext fun a => Fin.ext ?_)
  match a with
  | ⟨0, _⟩ => show win2_1.index t (0 : Fin 2) * 128 + 1 * (z 0).val = (z 0).val; omega
  | ⟨1, _⟩ => show win2_1.index t (1 : Fin 2) * 128 + 1 * (z 1).val = (z 1).val; omega

/-- The first bias's block is the bias at every point. -/
theorem blk2_2_at (c : Dev nD) (t : Fin cfg2.N) (z : S128.Idx) :
    (iblk2 (F := Ideal) V c 2 t : Vec Ideal S128 .f32) z = arr2_2 V c z := by
  obtain ⟨-, -, -, -, -, e0, -⟩ := idx_facts2 t
  show V c (Pipeline.arrRef spec2 2) (((cfg2.win 2).blk t).view.emb z) = V c (Pipeline.arrRef spec2 2) z
  refine congrArg _ (funext fun a => Fin.ext ?_)
  match a with
  | ⟨0, _⟩ => show win2_2.index t (0 : Fin 1) * 128 + 1 * (z 0).val = (z 0).val; omega

/-- The second weight matrix's block is the matrix at every point. -/
theorem blk2_3_at (c : Dev nD) (t : Fin cfg2.N) (z : S128x128.Idx) :
    (iblk2 (F := Ideal) V c 3 t : Vec Ideal S128x128 .bf16) z = arr2_3 V c z := by
  obtain ⟨-, -, -, -, -, -, e0, e1, -⟩ := idx_facts2 t
  show V c (Pipeline.arrRef spec2 3) (((cfg2.win 3).blk t).view.emb z) = V c (Pipeline.arrRef spec2 3) z
  refine congrArg _ (funext fun a => Fin.ext ?_)
  match a with
  | ⟨0, _⟩ => show win2_3.index t (0 : Fin 2) * 128 + 1 * (z 0).val = (z 0).val; omega
  | ⟨1, _⟩ => show win2_3.index t (1 : Fin 2) * 128 + 1 * (z 1).val = (z 1).val; omega

/-- The second bias's block is the bias at every point. -/
theorem blk2_4_at (c : Dev nD) (t : Fin cfg2.N) (z : S128.Idx) :
    (iblk2 (F := Ideal) V c 4 t : Vec Ideal S128 .f32) z = arr2_4 V c z := by
  obtain ⟨-, -, -, -, -, -, -, -, e0, -⟩ := idx_facts2 t
  show V c (Pipeline.arrRef spec2 4) (((cfg2.win 4).blk t).view.emb z) = V c (Pipeline.arrRef spec2 4) z
  refine congrArg _ (funext fun a => Fin.ext ?_)
  match a with
  | ⟨0, _⟩ => show win2_4.index t (0 : Fin 1) * 128 + 1 * (z 0).val = (z 0).val; omega

/-- The third weight matrix's block is the matrix at every point. -/
theorem blk2_5_at (c : Dev nD) (t : Fin cfg2.N) (z : S128x128.Idx) :
    (iblk2 (F := Ideal) V c 5 t : Vec Ideal S128x128 .bf16) z = arr2_5 V c z := by
  obtain ⟨-, -, -, -, -, -, -, -, -, e0, e1, -⟩ := idx_facts2 t
  show V c (Pipeline.arrRef spec2 5) (((cfg2.win 5).blk t).view.emb z) = V c (Pipeline.arrRef spec2 5) z
  refine congrArg _ (funext fun a => Fin.ext ?_)
  match a with
  | ⟨0, _⟩ => show win2_5.index t (0 : Fin 2) * 128 + 1 * (z 0).val = (z 0).val; omega
  | ⟨1, _⟩ => show win2_5.index t (1 : Fin 2) * 128 + 1 * (z 1).val = (z 1).val; omega

/-- The third bias's block is the bias at every point. -/
theorem blk2_6_at (c : Dev nD) (t : Fin cfg2.N) (z : S128.Idx) :
    (iblk2 (F := Ideal) V c 6 t : Vec Ideal S128 .f32) z = arr2_6 V c z := by
  obtain ⟨-, -, -, -, -, -, -, -, -, -, -, e0, -⟩ := idx_facts2 t
  show V c (Pipeline.arrRef spec2 6) (((cfg2.win 6).blk t).view.emb z) = V c (Pipeline.arrRef spec2 6) z
  refine congrArg _ (funext fun a => Fin.ext ?_)
  match a with
  | ⟨0, _⟩ => show win2_6.index t (0 : Fin 1) * 128 + 1 * (z 0).val = (z 0).val; omega

/-- Where element `y` of point `t`'s output block sits in the result: row `4000 t + y 0`, lane `y 1`. -/
theorem emb2_7_at (t : Fin cfg2.N) (y : S4000x128.Idx) :
    (((((cfg2.win 7).blk t).view.emb y : S80000x128.Idx) 0).val = 4000 * t.val + (y 0).val)
    ∧ (((((cfg2.win 7).blk t).view.emb y : S80000x128.Idx) 1).val = (y 1).val) := by
  obtain ⟨-, -, -, -, -, -, -, -, -, -, -, -, e0, e1⟩ := idx_facts2 t
  constructor
  · show win2_7.index t (0 : Fin 2) * 4000 + 1 * (y 0).val = _; omega
  · show win2_7.index t (1 : Fin 2) * 128 + 1 * (y 1).val = _; omega

/-! ## The payload at an element of a block whose inputs are the arrays' matching rows -/

/-- If block row `y 0` of the gathered block is row `i 0` of the gathered array, the weight and bias blocks are their
    arrays, and the lanes agree, the payload at `y` is the whole-array function at `i`. -/
theorem pay2_at (x0 : Vec Ideal S4000x3x128 .bf16) (x1 : Vec Ideal S128x128 .bf16) (x2 : Vec Ideal S128 .f32)
    (x3 : Vec Ideal S128x128 .bf16) (x4 : Vec Ideal S128 .f32) (x5 : Vec Ideal S128x128 .bf16) (x6 : Vec Ideal S128 .f32)
    (a0 : Vec Ideal S80000x3x128 .bf16) (a1 : Vec Ideal S128x128 .bf16) (a2 : Vec Ideal S128 .f32)
    (a3 : Vec Ideal S128x128 .bf16) (a4 : Vec Ideal S128 .f32) (a5 : Vec Ideal S128x128 .bf16) (a6 : Vec Ideal S128 .f32)
    (y : S4000x128.Idx) (i : S80000x128.Idx)
    (h0 : ∀ (k : Fin 3) (a : Fin 128), x0 (ix3 (y 0 : Fin 4000) k a) = a0 (ix3 (i 0 : Fin 80000) k a))
    (h1 : ∀ a o : Fin 128, x1 (ix2 a o) = a1 (ix2 a o)) (h2 : ∀ a : Fin 128, x2 (ix1 a) = a2 (ix1 a))
    (h3 : ∀ a o : Fin 128, x3 (ix2 a o) = a3 (ix2 a o)) (h4 : ∀ a : Fin 128, x4 (ix1 a) = a4 (ix1 a))
    (h5 : ∀ a o : Fin 128, x5 (ix2 a o) = a5 (ix2 a o)) (h6 : ∀ a : Fin 128, x6 (ix1 a) = a6 (ix1 a))
    (hl : (y 1).val = (i 1).val) :
    k2_pay1 (F := Ideal) x0 x1 x2 x3 x4 x5 x6 y = msgArr2 a0 a1 a2 a3 a4 a5 a6 i := by
  refine (congrArg (k2_pay1 (F := Ideal) x0 x1 x2 x3 x4 x5 x6) (eq_ix2 y)).trans ?_
  refine (Cert.ValMsgK.k2_pay1_apply x0 x1 x2 x3 x4 x5 x6 (y 0) (y 1)).trans ?_
  simp only [h0, h1, h2, h3, h4, h5, h6]
  exact congrArg _ (Fin.ext hl)

/-! ## What a point writes back -/

/-- WHAT POINT `t` WRITES BACK is block `t` of the whole-array function of the arrays as the region finds them. -/
theorem flushed2_7_eq (c : Dev nD) (t : Fin cfg2.N) :
    (dat2 (F := Ideal) V c).flushed 7 t = ((cfg2.win 7).blk t).view.read (Elt Ideal)
      (msgArr2 (arr2_0 V c) (arr2_1 V c) (arr2_2 V c) (arr2_3 V c) (arr2_4 V c) (arr2_5 V c) (arr2_6 V c)) := by
  show (cfg2.win 7).cut (grid2.coords t) ((dat2 (F := Ideal) V c).after 7 t) = _
  rw [after2_7]
  unfold out2_7
  rw [View.canon_unit_zero hz2]
  simp only [View.ld_unit_zero (S := S4000x3x128) hz3, View.ld_unit_zero (S := S128x128) hz2, View.ld_unit_zero (S := S128) hz1]
  funext y
  show k2_pay1 (F := Ideal) (iblk2 V c 0 t) (iblk2 V c 1 t) (iblk2 V c 2 t) (iblk2 V c 3 t) (iblk2 V c 4 t) (iblk2 V c 5 t) (iblk2 V c 6 t) y
    = msgArr2 (arr2_0 V c) (arr2_1 V c) (arr2_2 V c) (arr2_3 V c) (arr2_4 V c) (arr2_5 V c) (arr2_6 V c) (((cfg2.win 7).blk t).view.emb y)
  obtain ⟨hr, hl⟩ := emb2_7_at t y
  refine pay2_at _ _ _ _ _ _ _ _ _ _ _ _ _ _ y _ (fun k a => ?_) (fun a o => ?_) (fun a => ?_) (fun a o => ?_) (fun a => ?_) (fun a o => ?_) (fun a => ?_) hl.symm
  · exact blk2_0_at V c t _ _ hr rfl rfl
  · exact blk2_1_at V c t _
  · exact blk2_2_at V c t _
  · exact blk2_3_at V c t _
  · exact blk2_4_at V c t _
  · exact blk2_5_at V c t _
  · exact blk2_6_at V c t _

/-! ## The twenty blocks cover the result -/

/-- An index of the result is in point `t`'s block iff each coordinate is in the block's range on its axis. -/
theorem mem_blk2_7 (t : Fin cfg2.N) (i : S80000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v73).slice (win2_7.rect t)).set ↔ _
  rw [View.set_slice_whole, Rect.mem_set_unit]
  exact Iff.rfl

/-- Row `r` of the result is in the block of point `r / 4000`, which writes back. -/
theorem covered2_7 (i : S80000x128.Idx) :
    ∃ t : Fin cfg2.N, (cfg2.win 7).flush t = true ∧ i ∈ ((cfg2.win 7).blk t).view.set := by
  have hi0 : (i 0).val < 80000 := (i 0).isLt
  have hi1 : (i 1).val < 128 := (i 1).isLt
  obtain ⟨t, ht⟩ : ∃ t : Fin cfg2.N, t.val = (i 0).val / 4000 :=
    ⟨⟨(i 0).val / 4000, by show _ < grid2.N; rw [N_2]; omega⟩, rfl⟩
  refine ⟨t, flush2_7 t, ?_⟩
  rw [mem_blk2_7]
  obtain ⟨-, -, -, -, -, -, -, -, -, -, -, -, e0, e1⟩ := idx_facts2 t
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 128 ≤ (i 1).val ∧ (i 1).val < win2_7.index t (1 : Fin 2) * 128 + 128; omega

/-! ## The result array after the region -/

/-- THE ARRAY behind the output window after the region: row `i 0`, lane `i 1` is the row function of row `i 0` of the
    gathered array and of the weight and bias arrays, all as the region finds them. -/
theorem final2 (c : Dev nD) :
    (dat2 (F := Ideal) V c).arrAt 7 cfg2.N = fun (i : S80000x128.Idx) =>
      Cert.ValMsgK.msgRowK (fun k a => arr2_0 V c (ix3 (i 0 : Fin 80000) k a)) (fun a o => arr2_1 V c (ix2 a o))
        (fun a => arr2_2 V c (ix1 a)) (fun a o => arr2_3 V c (ix2 a o)) (fun a => arr2_4 V c (ix1 a))
        (fun a o => arr2_5 V c (ix2 a o)) (fun a => arr2_6 V c (ix1 a)) (i 1) :=
  (dat2 (F := Ideal) V c).arrAt_eq_of_cover 7
    (msgArr2 (arr2_0 V c) (arr2_1 V c) (arr2_2 V c) (arr2_3 V c) (arr2_4 V c) (arr2_5 V c) (arr2_6 V c))
    (fun t _ => flushed2_7_eq V c t) covered2_7

end Final2

end Cert.KernelIdeal.Fr

end
-- ==== Proof.KIFinal3.lean ====
/-
  REGION 1's OUTPUT ARRAY IN CLOSED FORM, over the extended reals. The region's grid walks the node
  axis in 25 blocks of 2000 rows; at each point the body adds, to each of the four copies of the
  node block, the block of summed messages scaled row by row by the inverse count. All three input
  windows move with the point, each block is written back once, and the 25 blocks tile the array:
  so the array behind the output window ends as ONE function of the arrays behind the input
  windows, cell by cell: the old state plus the message sum of the cell's row scaled by the inverse
  of that row's count.
-/
import proofs.«421163_j37864431681664_3_alg».proof.Proof.KIReg3
import proofs.«421163_j37864431681664_3_alg».proof.Proof.ValUpdK
import Idealize.ShloMosaic.Lib.Pipeline.Value
import Idealize.ShloMosaic.Lib.ValueIdx

-- membership in a rectangle of long extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Final3
-- the core's buffer contents when the region is entered
variable (V : (c : Dev nD) → (b : Ref sig .tc) → Buf (Elt Ideal) ((c : Thread nD τ).loc b))

/-! ## The arrays behind the input windows -/

/-- The state array (four copies of every node row) as the region finds it. -/
abbrev arr3_0 (c : Dev nD) : Vec Ideal S4x50000x128 .f32 := V c (Pipeline.arrRef spec3 0)
/-- The summed messages, one row per node. -/
abbrev arr3_1 (c : Dev nD) : Vec Ideal S50000x128 .f32 := V c (Pipeline.arrRef spec3 1)
/-- The counts, one per node. -/
abbrev arr3_2 (c : Dev nD) : Vec Ideal S50000x1 .f32 := V c (Pipeline.arrRef spec3 2)

/-- The updated state as one function of the three arrays: at copy `i 0`, node `i 1`, feature `i 2`,
    the old state plus the node's message sum at that feature scaled by the node's inverse count. -/
def upd3 (a0 : Vec Ideal S4x50000x128 .f32) (a1 : Vec Ideal S50000x128 .f32) (a2 : Vec Ideal S50000x1 .f32) :
    Vec Ideal S4x50000x128 .f32 :=
  fun i => Cert.ValUpdK.updCellK (a0 i) (a1 (ix2 (i 1) (i 2))) (a2 (ix2 (i 1) 0))

theorem hz3_3 : (![0, 0, 0] : Fin 3 → Nat) = fun _ => 0 := funext fun a => by fin_cases a <;> rfl
theorem hz3_2 : (![0, 0] : Fin 2 → Nat) = fun _ => 0 := funext fun a => by fin_cases a <;> rfl

/-- The body's payload read at one cell of the block. -/
theorem pay3_at (x0 : Vec Ideal S4x2000x128 .f32) (x1 : Vec Ideal S2000x128 .f32) (x2 : Vec Ideal S2000x1 .f32)
    (j : S4x2000x128.Idx) :
    k3_pay1 (F := Ideal) x2 x1 x0 j = Cert.ValUpdK.updCellK (x0 j) (x1 (ix2 (j 1) (j 2))) (x2 (ix2 (j 1) 0)) := by
  obtain ⟨b, p, h, rfl⟩ : ∃ (b : Fin 4) (p : Fin 2000) (h : Fin 128), j = ix3 b p h := ⟨j 0, j 1, j 2, eq_ix3 j⟩
  exact Cert.ValUpdK.k3_pay1_apply x2 x1 x0 b p h

/-- The printed index maps, decided over the grid: on the node axis every window's block index is
    the point itself, on every other axis it is zero. -/
theorem idx_facts3 : ∀ t : Fin cfg3.N,
    win3_0.index t (0 : Fin 3) = 0 ∧ win3_0.index t (1 : Fin 3) = t.val ∧ win3_0.index t (2 : Fin 3) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 3) = 0 ∧ win3_3.index t (1 : Fin 3) = t.val ∧ win3_3.index t (2 : Fin 3) = 0 :=
  (by decide +kernel : ∀ t : Fin grid3.N, _)

/-! ## Each input block, read where the output's rectangle says -/

/-- The state block at point `t`, at a cell, is the state array at the cell's place in the output's block. -/
theorem blk3_0_at (c : Dev nD) (t : Fin cfg3.N) (j : S4x2000x128.Idx) :
    (iblk3 V c 0 t : Vec Ideal S4x2000x128 .f32) j = arr3_0 V c (((cfg3.win 3).blk t).view.emb j) := by
  obtain ⟨e00, e01, e02, e10, e11, e20, e21, e30, e31, e32⟩ := idx_facts3 t
  show V c (Pipeline.arrRef spec3 0) (((cfg3.win 0).blk t).view.emb j) = V c (Pipeline.arrRef spec3 0) (((cfg3.win 3).blk t).view.emb j)
  refine congrArg _ ?_
  funext a; apply Fin.ext
  match a with
  | ⟨0, _⟩ => show win3_0.index t (0 : Fin 3) * 4 + 1 * (j 0).val = win3_3.index t (0 : Fin 3) * 4 + 1 * (j 0).val; omega
  | ⟨1, _⟩ => show win3_0.index t (1 : Fin 3) * 2000 + 1 * (j 1).val = win3_3.index t (1 : Fin 3) * 2000 + 1 * (j 1).val; omega
  | ⟨2, _⟩ => show win3_0.index t (2 : Fin 3) * 128 + 1 * (j 2).val = win3_3.index t (2 : Fin 3) * 128 + 1 * (j 2).val; omega

/-- The message-sum block at point `t`, at the cell's row and feature, is the message array at the
    row and feature of the cell's place in the output's block. -/
theorem blk3_1_at (c : Dev nD) (t : Fin cfg3.N) (j : S4x2000x128.Idx) :
    (iblk3 V c 1 t : Vec Ideal S2000x128 .f32) (ix2 (j 1) (j 2))
      = arr3_1 V c (ix2 ((((cfg3.win 3).blk t).view.emb j) 1) ((((cfg3.win 3).blk t).view.emb j) 2)) := by
  obtain ⟨e00, e01, e02, e10, e11, e20, e21, e30, e31, e32⟩ := idx_facts3 t
  show V c (Pipeline.arrRef spec3 1) (((cfg3.win 1).blk t).view.emb (ix2 (j 1) (j 2))) = V c (Pipeline.arrRef spec3 1) _
  refine congrArg _ ?_
  funext a; apply Fin.ext
  match a with
  | ⟨0, _⟩ => show win3_1.index t (0 : Fin 2) * 2000 + 1 * (j 1).val = win3_3.index t (1 : Fin 3) * 2000 + 1 * (j 1).val; omega
  | ⟨1, _⟩ => show win3_1.index t (1 : Fin 2) * 128 + 1 * (j 2).val = win3_3.index t (2 : Fin 3) * 128 + 1 * (j 2).val; omega

/-- The count block at point `t`, at the cell's row, is the count array at the row of the cell's
    place in the output's block. -/
theorem blk3_2_at (c : Dev nD) (t : Fin cfg3.N) (j : S4x2000x128.Idx) :
    (iblk3 V c 2 t : Vec Ideal S2000x1 .f32) (ix2 (j 1) 0)
      = arr3_2 V c (ix2 ((((cfg3.win 3).blk t).view.emb j) 1) 0) := by
  obtain ⟨e00, e01, e02, e10, e11, e20, e21, e30, e31, e32⟩ := idx_facts3 t
  show V c (Pipeline.arrRef spec3 2) (((cfg3.win 2).blk t).view.emb (ix2 (j 1) 0)) = V c (Pipeline.arrRef spec3 2) _
  refine congrArg _ ?_
  funext a; apply Fin.ext
  match a with
  | ⟨0, _⟩ => show win3_2.index t (0 : Fin 2) * 2000 + 1 * (j 1).val = win3_3.index t (1 : Fin 3) * 2000 + 1 * (j 1).val; omega
  | ⟨1, _⟩ => show win3_2.index t (1 : Fin 2) * 1 + 1 * 0 = 0; omega

/-! ## What each point writes back -/

/-- WHAT POINT `t` WRITES BACK is block `t` of the updated state of the arrays as the region finds them. -/
theorem flushed3_3_eq (c : Dev nD) (t : Fin cfg3.N) :
    (dat3 V c).flushed 3 t
      = ((cfg3.win 3).blk t).view.read (Elt Ideal) (upd3 (arr3_0 V c) (arr3_1 V c) (arr3_2 V c)) := by
  show (cfg3.win 3).cut (grid3.coords t) ((dat3 V c).after 3 t) = _
  rw [after3_3]
  unfold out3_3
  rw [View.canon_unit_zero hz3_3]
  simp only [View.ld_unit_zero (S := S4x2000x128) hz3_3, View.ld_unit_zero (S := S2000x128) hz3_2,
    View.ld_unit_zero (S := S2000x1) hz3_2]
  funext j
  show k3_pay1 (F := Ideal) (iblk3 V c 2 t) (iblk3 V c 1 t) (iblk3 V c 0 t) j
    = upd3 (arr3_0 V c) (arr3_1 V c) (arr3_2 V c) (((cfg3.win 3).blk t).view.emb j)
  rw [pay3_at (iblk3 V c 0 t) (iblk3 V c 1 t) (iblk3 V c 2 t) j, blk3_0_at V c t j, blk3_1_at V c t j, blk3_2_at V c t j]
  rfl

/-! ## The blocks tile the array -/

/-- An index of the array is in point `t`'s block iff each coordinate is in the block's range on its axis. -/
theorem mem_blk3_3 (t : Fin cfg3.N) (i : S4x50000x128.Idx) :
    i ∈ ((cfg3.win 3).blk t).view.set ↔ ∀ a : Fin 3, win3_3.index t a * S4x2000x128.size a ≤ (i a).val ∧ (i a).val < win3_3.index t a * S4x2000x128.size a + S4x2000x128.size a := by
  show i ∈ ((View.whole (Pipeline.arrRef spec3 3)).slice (win3_3.rect t)).set ↔ _
  rw [View.set_slice_whole, Rect.mem_set_unit]
  exact Iff.rfl

/-- Every cell of the array is in the block of the point its node row falls in: row `r` is in block `r / 2000`. -/
theorem cover3_3_arr (i : S4x50000x128.Idx) :
    ∃ t : Fin cfg3.N, (cfg3.win 3).flush t = true ∧ i ∈ ((cfg3.win 3).blk t).view.set := by
  have hN : cfg3.N = 25 := N_3
  have hi0 : (i 0).val < 4 := (i 0).isLt
  have hi1 : (i 1).val < 50000 := (i 1).isLt
  have hi2 : (i 2).val < 128 := (i 2).isLt
  have ht : (i 1).val / 2000 < cfg3.N := by omega
  refine ⟨⟨(i 1).val / 2000, ht⟩, flush3_3 _, ?_⟩
  obtain ⟨e00, e01, e02, e10, e11, e20, e21, e30, e31, e32⟩ := idx_facts3 ⟨(i 1).val / 2000, ht⟩
  have e31' : win3_3.index ⟨(i 1).val / 2000, ht⟩ (1 : Fin 3) = (i 1).val / 2000 := e31
  rw [mem_blk3_3]
  intro a
  match a with
  | ⟨0, _⟩ => show win3_3.index ⟨(i 1).val / 2000, ht⟩ (0 : Fin 3) * 4 ≤ (i 0).val ∧ (i 0).val < win3_3.index ⟨(i 1).val / 2000, ht⟩ (0 : Fin 3) * 4 + 4; omega
  | ⟨1, _⟩ => show win3_3.index ⟨(i 1).val / 2000, ht⟩ (1 : Fin 3) * 2000 ≤ (i 1).val ∧ (i 1).val < win3_3.index ⟨(i 1).val / 2000, ht⟩ (1 : Fin 3) * 2000 + 2000; omega
  | ⟨2, _⟩ => show win3_3.index ⟨(i 1).val / 2000, ht⟩ (2 : Fin 3) * 128 ≤ (i 2).val ∧ (i 2).val < win3_3.index ⟨(i 1).val / 2000, ht⟩ (2 : Fin 3) * 128 + 128; omega

/-! ## The array after the region -/

/-- THE ARRAY behind the output window after the region's last write-back: the updated state of the
    arrays behind the input windows, cell by cell. -/
theorem final3 (c : Dev nD) :
    (dat3 (F := Ideal) V c).arrAt 3 cfg3.N
      = fun i => Cert.ValUpdK.updCellK (arr3_0 V c i) (arr3_1 V c (ix2 (i 1) (i 2))) (arr3_2 V c (ix2 (i 1) 0)) :=
  (dat3 V c).arrAt_eq_of_cover 3 (upd3 (arr3_0 V c) (arr3_1 V c) (arr3_2 V c)) (fun t _ => flushed3_3_eq V c t) cover3_3_arr

end Final3

end Cert.KernelIdeal.Fr

end
-- ==== Proof.Bridge2.lean ====
/- Message round 2: the same three equalities one round later, from the state the first round left. -/
import proofs.«421163_j37864431681664_3_alg».proof.Proof.Bridge1
import proofs.«421163_j37864431681664_3_alg».proof.Proof.KIFinal2
import proofs.«421163_j37864431681664_3_alg».proof.Proof.KIFinal3

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-! ## Message round 2 -/

/-- The gathered rows handed to message kernel 2. -/
theorem G2_eq : W7 m c main_v72 = gatherRows (F := Ideal) (Cert.ReferenceIdeal.Read.val_main_v66 (F := Ideal) (a0 m c) (a1 m c) (a2 m c) (a3 m c) (a4 m c) (a5 m c) (a6 m c) (a7 m c)) (batchIota (F := Ideal)) (a0 m c) := by
  rw [show W7 m c main_v72 = StableHlo.after hostOps2 (W6 m c) (Proc.devRef .tc main_v72) from rfl, hostOps2_v72, W6_v16, W6_arg0, S1_eq]

/-- Message kernel 2's output, row (b, c') of the clause axis, is the reference's message. -/
theorem M2_eq (b : Fin 4) (c' : Fin 20000) (j : Fin 128) :
    W8 m c main_v73 (ix2 (⟨20000 * b.val + c'.val, by omega⟩ : Fin 80000) j) = Cert.ReferenceIdeal.Read.val_main_v96 (F := Ideal) (a0 m c) (a1 m c) (a2 m c) (a3 m c) (a4 m c) (a5 m c) (a6 m c) (a7 m c) (ix3 b c' j) := by
  refine (congrFun (W8_arr m c 7) _).trans ?_
  refine (congrFun (final2 (V7 m) c) _).trans ?_
  show Cert.ValMsgK.msgRowK (fun k a => W7 m c main_v72 (ix3 (⟨20000 * b.val + c'.val, by omega⟩ : Fin 80000) k a))
      (fun a o => W7 m c main_v18 (ix2 a o)) (fun a => W7 m c main_arg3 (ix1 a))
      (fun a o => W7 m c main_v20 (ix2 a o)) (fun a => W7 m c main_arg5 (ix1 a))
      (fun a o => W7 m c main_v22 (ix2 a o)) (fun a => W7 m c main_arg7 (ix1 a)) j = _
  rw [G2_eq, W7_v18, W7_arg3, W7_v20, W7_arg5, W7_v22, W7_arg7]
  refine (Cert.BridgeMsg.msg_bridge (gathered (F := Ideal) (Cert.ReferenceIdeal.Read.val_main_v66 (F := Ideal) (a0 m c) (a1 m c) (a2 m c) (a3 m c) (a4 m c) (a5 m c) (a6 m c) (a7 m c)) (batchIota (F := Ideal)) (a0 m c)) (a2 m c) (a3 m c) (a4 m c) (a5 m c) (a6 m c) (a7 m c) b c' j).trans ?_
  rw [gathered2_eq]
  exact (Cert.RefRead.refMsg2_apply (a0 m c) (a1 m c) (a2 m c) (a3 m c) (a4 m c) (a5 m c) (a6 m c) (a7 m c) b c' j).symm

/-- As arrays over (batch, clause, feature). -/
theorem M2_arr : shapeCast S4x20000x128 (W8 m c main_v73) shapeCasts_S80000x128_S4x20000x128 = Cert.ReferenceIdeal.Read.val_main_v96 (F := Ideal) (a0 m c) (a1 m c) (a2 m c) (a3 m c) (a4 m c) (a5 m c) (a6 m c) (a7 m c) := by
  funext i
  obtain ⟨b, c', j, rfl⟩ : ∃ (b : Fin 4) (c' : Fin 20000) (j : Fin 128), i = ix3 b c' j := ⟨i 0, i 1, i 2, eq_ix3 i⟩
  exact (Cert.BridgeMsg.msgRows_apply _ b c' j).trans (M2_eq m c b c' j)

/-- The scattered sums of round 2. -/
theorem sums2_eq : W9 m c main_v83 = Cert.ReferenceIdeal.Read.val_main_v105 (F := Ideal) (a0 m c) (a1 m c) (a2 m c) (a3 m c) (a4 m c) (a5 m c) (a6 m c) (a7 m c) := by
  rw [show W9 m c main_v83 = StableHlo.after hostOps3 (W8 m c) (Proc.devRef .tc main_v83) from rfl, hostOps3_v83, W8_v10, W8_v9,
    scatterRows_eq, M2_arr, ← refScatter2_eq]

/-- The state after round 2. -/
theorem S2_eq : W10 m c main_v84 = Cert.ReferenceIdeal.Read.val_main_v117 (F := Ideal) (a0 m c) (a1 m c) (a2 m c) (a3 m c) (a4 m c) (a5 m c) (a6 m c) (a7 m c) := by
  funext i
  obtain ⟨b, p, h, rfl⟩ : ∃ (b : Fin 4) (p : Fin 50000) (h : Fin 128), i = ix3 b p h := ⟨i 0, i 1, i 2, eq_ix3 i⟩
  refine (congrFun (W10_arr m c 3) _).trans ?_
  refine (congrFun (final3 (V9 m) c) _).trans ?_
  show Cert.ValUpdK.updCellK (W9 m c main_v55 (ix3 b p h)) (W9 m c main_v83 (ix2 p h)) (W9 m c main_v14 (ix2 p 0)) = _
  rw [W9_v55, S1_eq, sums2_eq, W9_v14, varCounts_eq, Cert.BridgeMsg.counts_apply, Cert.Laws.updCell_law]
  exact (Cert.RefRead.refUpd2_apply (a0 m c) (a1 m c) (a2 m c) (a3 m c) (a4 m c) (a5 m c) (a6 m c) (a7 m c) b p h).symm

end Cert.KernelIdeal.Fr

end
-- ==== Proof.Bridge.lean ====
/-
  The kernel's result is the reference's result.

  Stage by stage along the program: the arrays the host stretches hand to the kernels are the same terms the
  reference computes (the mask of first occurrences, the flat indices, the counts, the gathered rows, the scattered
  sums); each kernel region's output array is a cell-by-cell function of its input arrays; and cell by cell that
  function is the reference's stage, by the three scalar laws (the mean of three affine images, the division by the
  count, the logistic read-out). Two message rounds and the read-out chain these equalities.
-/
import proofs.«421163_j37864431681664_3_alg».proof.Proof.Bridge2
import proofs.«421163_j37864431681664_3_alg».proof.Proof.KIReg4

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-! ## The read-out -/

/-- THE KERNEL'S RESULT IS THE REFERENCE'S. -/
theorem kernel_eq_ref : W11 m c main_v85 = Cert.ReferenceIdeal.Read.val_main_v133 (F := Ideal) (a0 m c) (a1 m c) (a2 m c) (a3 m c) (a4 m c) (a5 m c) (a6 m c) (a7 m c) (a8 m c) (a9 m c) (a10 m c) (a11 m c) := by
  funext i
  obtain ⟨b, p, rfl⟩ : ∃ (b : Fin 4) (p : Fin 50000), i = ix2 b p := ⟨i 0, i 1, eq_ix2 i⟩
  refine (congrFun (W11_arr m c 5) _).trans ?_
  refine (congrFun (final4 (V10 m) c) _).trans ?_
  show Cert.ValHeadK.headCellK (fun a => W10 m c main_v84 (ix3 b p a)) (fun a o => W10 m c main_v24 (ix2 a o)) (fun a => W10 m c main_arg9 (ix1 a))
      (fun a => W10 m c main_v26 (ix1 a)) (W10 m c main_arg11 (ix1 0)) = _
  rw [S2_eq, W10_v24, W10_arg9, W10_v26, W10_arg11]
  have hW : (fun a o => wT (F := Ideal) (a8 m c) (ix2 a o)) = fun a o => (a8 m c) (ix2 o a) := funext fun a => funext fun o => Cert.BridgeMsg.weightT_apply _ a o
  have hw : (fun a => wRow (F := Ideal) (a10 m c) (ix1 a)) = fun a => (a10 m c) (ix2 0 a) := funext fun a => Cert.BridgeMsg.w2_apply _ a
  rw [hW, hw, Cert.Laws.headCell_law]
  exact (Cert.RefRead.refHead_apply (a0 m c) (a1 m c) (a2 m c) (a3 m c) (a4 m c) (a5 m c) (a6 m c) (a7 m c) (a8 m c) (a9 m c) (a10 m c) (a11 m c) b p).symm

end Cert.KernelIdeal.Fr

end
-- ==== Proof.lean ====
/-
  The certificate's five claims, assembled.

  The kernel program runs five tiled kernels among stretches of tensor operations; the run modules compose them in program
  order and read every buffer off the last valuation. The arguments are never written, which gives the two kernel
  frames; the reference is a plain tensor program whose run is read back operation by operation. The idealized kernel
  differs from the kernel as printed only in reading the literal 0.3333333432674408 as one third. The result of the
  idealized kernel equals the reference's, cell by cell over the extended reals: both gather three variable rows per
  clause, push them through three affine maps (the mean over the three taken before or after adding the first bias: the
  same extended real, since multiplying by the nonnegative real one third distributes over every sum), add each clause's
  message into its variables' rows, divide by the count where it is positive, add to the state, twice, and end in a
  logistic read-out (the kernel's single logistic operation is 1 / (1 + exp (-x)) by definition).
-/
import proofs.«421163_j37864431681664_3_alg».proof.Defs
import proofs.«421163_j37864431681664_3_alg».proof.Proof.Gen.Kernel
import proofs.«421163_j37864431681664_3_alg».proof.Proof.Gen.KernelIdeal
import proofs.«421163_j37864431681664_3_alg».proof.Proof.Gen.ReferenceIdeal
import proofs.«421163_j37864431681664_3_alg».proof.Proof.Gen.Pre_finite_inputs
import proofs.«421163_j37864431681664_3_alg».proof.Proof.KRun
import proofs.«421163_j37864431681664_3_alg».proof.Proof.KIRun
import proofs.«421163_j37864431681664_3_alg».proof.Proof.RefReadP
import proofs.«421163_j37864431681664_3_alg».proof.Proof.Bridge
import Idealize.ShloMosaic.Adequacy
import Idealize.ShloMosaic.Init

noncomputable section

namespace Cert.Proof

open Idealize.ShloMosaic Idealize.ShloMosaic.TcCoe Idealize.SL.Sem

/-- The reference's result, from a memory agreeing with the kernel's on the arguments, is the kernel's result. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.ReferenceIdeal.nD) :
    Cert.ReferenceIdeal.Value.res_main_v133 (F := Ideal) m' c = Cert.KernelIdeal.Fr.W11 m c Cert.KernelIdeal.main_v85 := by
  rw [Cert.ReferenceIdeal.Read.val_main_v133_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.KernelIdeal.Fr.kernel_eq_ref m c).symm

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  fun m ρ _ => (θ_run Cert.ReferenceIdeal.defs _ _).mono (fun _ h c => (h c).2) (Cert.ReferenceIdeal.Value.run (F := Ideal) m ρ),
  ⟨IdealRules.named_const.statement Cert.KernelIdeal.κ "inv_3" .f32 0x3EAAAAAB#32 ((1 / 3 : ℝ) : EReal) rfl, IdealRules.named_const.statement Cert.KernelIdeal.κ "inv_3" .f32 0x3EAAAAAB#32 ((1 / 3 : ℝ) : EReal) rfl⟩,
  fun m ρ m' ρ' _ hagree => ⟨fun c => Cert.KernelIdeal.Fr.W11 m c Cert.KernelIdeal.main_v85, Cert.KernelIdeal.Fr.run_value m ρ,
    (θ_run Cert.ReferenceIdeal.defs _ _).mono (fun _ h c => ⟨(h c).1.trans (ref_eq m m' hagree c), (h c).2⟩)
      (Cert.ReferenceIdeal.Value.run (F := Ideal) m' ρ')⟩⟩

end Cert.Proof

end
